-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S8192x2048 : Shape := ⟨2, ![8192, 2048]⟩
abbrev S8192 : Shape := ⟨1, ![8192]⟩
abbrev S2048x8192 : Shape := ⟨2, ![2048, 8192]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_
  bcast_S_S2048x8192 : S_.BroadcastsInDim S2048x8192 (![] : Fin 0 → Fin S2048x8192.rank)
  reducesTo_S2048x8192_S_d0_1 : S2048x8192.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4096x2048 .f32) (main_arg1 : FVec F S8192x2048 .f32) (main_arg2 : FVec F S8192 .f32) (main_arg3 : FVec F S2048x8192 .f32) (main_arg4 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_v13 main_v16
-- ==== Kernel.lean ====
abbrev S4096x2048 : Shape := ⟨2, ![4096, 2048]⟩
abbrev S8192x2048 : Shape := ⟨2, ![8192, 2048]⟩
abbrev S8192 : Shape := ⟨1, ![8192]⟩
abbrev S2048x8192 : Shape := ⟨2, ![2048, 8192]⟩
abbrev S2048 : Shape := ⟨1, ![2048]⟩
abbrev S1x8192 : Shape := ⟨2, ![1, 8192]⟩
abbrev S4096x8192 : Shape := ⟨2, ![4096, 8192]⟩
abbrev S1024x1024 : Shape := ⟨2, ![1024, 1024]⟩
abbrev S1x1024 : Shape := ⟨2, ![1, 1024]⟩
abbrev S1x2048 : Shape := ⟨2, ![1, 2048]⟩

abbrev nBuf : Space → Nat
  | .hbm => 9
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S8192, .f32⟩
  | .hbm, ⟨3, _⟩ => ⟨S2048x8192, .f32⟩
  | .hbm, ⟨4, _⟩ => ⟨S2048, .f32⟩
  | .hbm, ⟨5, _⟩ => ⟨S1x8192, .f32⟩
  | .hbm, ⟨6, _⟩ => ⟨S4096x8192, .bf16⟩
  | .hbm, ⟨7, _⟩ => ⟨S1x2048, .f32⟩
  | .hbm, ⟨8, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![4, 8, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 2, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S8192_S1x8192 : S8192.ShapeCasts S1x8192
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S2048_S1x2048 : S2048.ShapeCasts S1x2048
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x2048.size a
  hwx0_0 : ∀ i : grid0.Coords, EltTy.bits .f32 = 32 ∨ (Rect.block (s := S4096x2048) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x2048.size a
  hwx0_1 : ∀ i : grid0.Coords, EltTy.bits .f32 = 32 ∨ (Rect.block (s := S8192x2048) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x8192.size a
  hwx0_3 : ∀ i : grid0.Coords, EltTy.bits .bf16 = 32 ∨ (Rect.block (s := S4096x8192) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x8192.size a
  hwx1_0 : ∀ i : grid1.Coords, EltTy.bits .bf16 = 32 ∨ (Rect.block (s := S4096x8192) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S2048x8192.size a
  hwx1_1 : ∀ i : grid1.Coords, EltTy.bits .f32 = 32 ∨ (Rect.block (s := S2048x8192) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x2048.size a
  hwx1_2 : ∀ i : grid1.Coords, EltTy.bits .f32 = 32 ∨ (Rect.block (s := S1x2048) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x2048.size a
  hwx1_3 : ∀ i : grid1.Coords, EltTy.bits .f32 = 32 ∨ (Rect.block (s := S4096x2048) S1024x1024.size (cc1_transform_3 i) (hinb1_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x2048 : Shape := ⟨2, ![4096, 2048]⟩
abbrev S8192x2048 : Shape := ⟨2, ![8192, 2048]⟩
abbrev S8192 : Shape := ⟨1, ![8192]⟩
abbrev S2048x8192 : Shape := ⟨2, ![2048, 8192]⟩
abbrev S2048 : Shape := ⟨1, ![2048]⟩
abbrev S4096x8192 : Shape := ⟨2, ![4096, 8192]⟩
abbrev S1x8192 : Shape := ⟨2, ![1, 8192]⟩
abbrev S_ : Shape := ⟨0, ![]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S8192, .f32⟩
  | .hbm, ⟨3, _⟩ => ⟨S2048x8192, .f32⟩
  | .hbm, ⟨4, _⟩ => ⟨S2048, .f32⟩
  | .hbm, ⟨5, _⟩ => ⟨S4096x8192, .f32⟩
  | .hbm, ⟨6, _⟩ => ⟨S1x8192, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S4096x2048, .f32⟩
  | .hbm, ⟨13, _⟩ => ⟨S1x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call1_cst : Ref sig .tc := ⟨.hbm, 16, rfl⟩
abbrev main_call1_v0 : Ref sig .tc := ⟨.hbm, 17, rfl⟩
abbrev main_v9 : Ref sig .tc := ⟨.hbm, 18, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  bcast_S_S4096x8192 : S_.BroadcastsInDim S4096x8192 (![] : Fin 0 → Fin S4096x8192.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S8192x2048_S4096x8192_1_1_0_0_n_n_wf : DotDims.WF S4096x2048 S8192x2048 S4096x8192 [1] [1] [0] [0] [] []
  dot_S4096x8192_S2048x8192_S4096x2048_1_1_0_0_n_n_wf : DotDims.WF S4096x8192 S2048x8192 S4096x2048 [1] [1] [0] [0] [] []

variable [Facts₀]

def dot_S4096x2048_S8192x2048_S4096x8192_1_1_0_0_n_n : DotDims S4096x2048 S8192x2048 S4096x8192 where
  lhsContracting := [1]
  rhsContracting := [1]
  lhsNonContracting := [0]
  rhsNonContracting := [0]
  lhsBatch := []
  rhsBatch := []
  wf := dot_S4096x2048_S8192x2048_S4096x8192_1_1_0_0_n_n_wf
def dot_S4096x8192_S2048x8192_S4096x2048_1_1_0_0_n_n : DotDims S4096x8192 S2048x8192 S4096x2048 where
  lhsContracting := [1]
  rhsContracting := [1]
  lhsNonContracting := [0]
  rhsNonContracting := [0]
  lhsBatch := []
  rhsBatch := []
  wf := dot_S4096x8192_S2048x8192_S4096x2048_1_1_0_0_n_n_wf

class Facts : Prop extends Facts₀ where

variable [Facts]
-- ==== Proof.Bits.Layer0.Runs.lean ====
/- First dense layer, relu(x · W1ᵀ + b1), computed tile by tile over the grid (i, j, k) = [4, 8, 2]:
   what the two control cases of the tile body share. The body zeroes its accumulator where k = 0, adds the
   product of the current x-tile and W1-tile (contracting the last axis of both), and where k = 1 writes
   max(accumulator + bias row, 0) into the output tile. Here: the tiles of the operands at a grid point, the
   two conditions in closed form over the 64 grid points, where the output tile is live, the staging memrefs
   the body is called on, and the region's resting invariant spelled buffer by buffer. -/
import proofs.«165055_j20504173871714_1_alg».proof.Proof.Gen.Kernel.Launch
import proofs.«165055_j20504173871714_1_alg».proof.Proof.Gen.Kernel.Skeleton
import proofs.«165055_j20504173871714_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Layer0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the layer starts
variable (V : (c : Dev nD) → (b : Ref sig .tc) → Buf (Elt F) ((c : Thread nD τ).loc b))

/-! ## The operands' tiles -/

/-- The tile of operand `w` (0: x, 1: W1, 2: the bias row, 3: the hidden activations) that grid point `t`
    works on, read off the operand as the layer finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x-tile is in its staging buffer at every grid point, whether moved there at this point or left from the
    point before (the tile index is then unchanged), for any proof data that reads `V` and whose body leaves
    the tile in place. -/
theorem found0_of {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- The same for the W1-tile. -/
theorem found1_of {c : Dev nD} (dat : Dat τ (Elt F) Unit ℕ (UR sig nD τ) ℕ cfg0 c) (hA : dat.A 1 = V c (Pipeline.arrRef spec0 1))
    (hafter : ∀ t, dat.after 1 t = tile V c 1 t) (t : Fin cfg0.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- The same for the bias row's tile, which moves only when j changes (at the points with k = 0). -/
theorem found2_of {c : Dev nD} (dat : Dat τ (Elt F) Unit ℕ (UR sig nD τ) ℕ cfg0 c) (hA : dat.A 2 = V c (Pipeline.arrRef spec0 2))
    (hafter : ∀ t, dat.after 2 t = tile V c 2 t) (t : Fin cfg0.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-! ## The two conditions of the tile body -/

/-- "k = 0": the body zeroes the accumulator. -/
abbrev atFirstK (i : grid0.Coords) : Prop := (Scalar.cmpi .ne (Scalar.extui (Scalar.cmpi .eq (BitVec.ofNat 32 (i 2).val) 0#32)) 0#32) = 1#1
/-- k is the last grid axis, of extent 2: k = 0 at the even points. -/
theorem atFirstK_iff : ∀ t : Fin cfg0.N, atFirstK (grid0.coords t) ↔ t.val % 2 = 0 :=
  (by decide +kernel : ∀ t : Fin grid0.N, atFirstK (grid0.coords t) ↔ t.val % 2 = 0)

/-- "k = 1", the last step of the contraction: the body writes the output tile. -/
abbrev atLastK (i : grid0.Coords) : Prop := k0_cond2 i = 1#1
/-- k = 1 at the odd points. -/
theorem atLastK_iff : ∀ t : Fin cfg0.N, atLastK (grid0.coords t) ↔ t.val % 2 = 1 :=
  (by decide +kernel : ∀ t : Fin grid0.N, atLastK (grid0.coords t) ↔ t.val % 2 = 1)

/-! ## Where the operands' tiles are live -/

/-- The three inputs are live at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Where k = 0 the output tile is idle: nothing is stored into it, -/
theorem outIdle_first : ∀ t : Fin cfg0.N, atFirstK (grid0.coords t) → ¬atLastK (grid0.coords t) → cfg0.idle 3 (grid0.coords t) = true := by decide +kernel
/-- and it is not written back to the array. -/
theorem outKept_first : ∀ t : Fin cfg0.N, atFirstK (grid0.coords t) → ¬atLastK (grid0.coords t) → (cfg0.win 3).flush t = false := by decide +kernel
/-- Where k = 1 the output tile is live. -/
theorem outLive_last : ∀ t : Fin cfg0.N, ¬atFirstK (grid0.coords t) → atLastK (grid0.coords t) → cfg0.idle 3 (grid0.coords t) = false := by decide +kernel

/-! ## The memrefs the body is called on -/

/-- One staging buffer of the output tile, through which its contents are stated (any would do). -/
abbrev outV : View sig .tc .vmem S1024x1024 .bf16 := (Memref.whole cc0_stg3_0 : Memref sig .tc .vmem S1024x1024 .bf16).view
/-- The current staging memref of each operand at point `t`, and that it is a whole buffer. -/
abbrev mX (t : Fin cfg0.N) : Memref sig .tc .vmem S1024x1024 .f32 := win0_0.stage (cfg0.slots t 0)
abbrev hX (t : Fin cfg0.N) : (mX t).IsWhole := hstage0_0 ((cfg0.slots t 0).cast nbuf0_0)
abbrev mW (t : Fin cfg0.N) : Memref sig .tc .vmem S1024x1024 .f32 := win0_1.stage (cfg0.slots t 1)
abbrev hW (t : Fin cfg0.N) : (mW t).IsWhole := hstage0_1 ((cfg0.slots t 1).cast nbuf0_1)
abbrev mB (t : Fin cfg0.N) : Memref sig .tc .vmem S1x1024 .f32 := win0_2.stage (cfg0.slots t 2)
abbrev hB (t : Fin cfg0.N) : (mB t).IsWhole := hstage0_2 ((cfg0.slots t 2).cast nbuf0_2)
abbrev mO (t : Fin cfg0.N) : Memref sig .tc .vmem S1024x1024 .bf16 := win0_3.stage (cfg0.slots t 3)
abbrev hO (t : Fin cfg0.N) : (mO t).IsWhole := hstage0_3 ((cfg0.slots t 3).cast nbuf0_3)
/-- The accumulator: a whole buffer of the layer's own, kept from one grid point to the next. -/
abbrev accM : Memref sig .tc .vmem S1024x1024 .f32 := Memref.whole cc0_scratch0
/-- The accumulator as a view: its contents are stated through it. -/
abbrev accV : View sig .tc .vmem S1024x1024 .f32 := accM.view

/-! ## The resting invariant, buffer by buffer -/

/-- The second layer's eight staging buffers and its accumulator, each at some contents: what this layer never touches. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- Between layers the core holds the accumulator at some contents, the other layer's buffers, and the
    generator register at some state. -/
theorem rest_eq (c : Dev nD) :
    (Pipeline.ΦA spec0 c : sProp 𝕄)
      = iprop(iprop((∃ d, owns (c : Thread nD τ) accM fullShare d) ∗ others (F := F) c) ∗ (∃ r, prngReg c r)) := by
  unfold Pipeline.ΦA; rw [scopedRest0_eq]; simp only [accM, owns_whole]; try rfl

end Cert.Kernel.Layer0

end
-- ==== Proof.Bits.Layer0.RunA.lean ====
/- First dense layer, the tile body where k = 0 (the first step of the contraction): the accumulator is set to
   zero and the product of the x-tile and the W1-tile is added to it; the output tile is not touched. The run
   below finds what the accumulator is left holding, as the list of blocks stored into it (latest first). -/
import proofs.«165055_j20504173871714_1_alg».proof.Proof.Bits.Layer0.Runs

set_option maxRecDepth 16384

noncomputable section

namespace Cert.Kernel.Layer0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The tile body at a point with k = 0, on whole memrefs: the x- and W1-tiles at `xa`, `xw`; the bias row and
    the output tile at any contents, handed back as found; the accumulator at any contents. It ends with the
    accumulator holding the blocks `LS` (the zero block, then zero + xa · xwᵀ over it) written over what it had. -/
noncomputable def runFirst (c : Dev nD) (i : grid0.Coords)
    (a : Memref sig .tc .vmem S1024x1024 .f32) (ha : a.IsWhole) (w : Memref sig .tc .vmem S1024x1024 .f32) (hw : w.IsWhole)
    (b : Memref sig .tc .vmem S1x1024 .f32) (hb : b.IsWhole) (o : Memref sig .tc .vmem S1024x1024 .bf16) (ho : o.IsWhole)
    (acc : Memref sig .tc .vmem S1024x1024 .f32) (hacc : acc.IsWhole) (hc0 : atFirstK i) (hc1 : ¬atLastK i)
    (xa : Vec F S1024x1024 .f32) (xw : Vec F S1024x1024 .f32) :
    { LS : List (View.Piece (Elt F) S1024x1024 .f32) //
      ∀ (xb : Vec F S1x1024 .f32) (xo : Vec F S1024x1024 .bf16) (E : Set ℕ) (K : PUnit → sProp 𝕄),
        iprop(owns (c : Thread nD τ) a fullShare xa ∗ owns (c : Thread nD τ) w fullShare xw ∗ owns (c : Thread nD τ) b fullShare xb
            ∗ owns (c : Thread nD τ) o fullShare xo ∗ (∃ d, owns (c : Thread nD τ) acc fullShare d)
            ∗ (iprop(owns (c : Thread nD τ) a fullShare xa ∗ owns (c : Thread nD τ) w fullShare xw ∗ owns (c : Thread nD τ) b fullShare xb
                ∗ owns (c : Thread nD τ) o fullShare xo ∗ (∃ f, acc.view.loc (c : Thread nD τ) ↦[acc.view.set]{fullShare} acc.view.writes (Elt F) f LS)) -∗ K ⟨⟩))
          ⊢ wp frame (wpE (defs₀ (F := F)) Variants.none c none) E (cc0__linear_relu_kernel i a ha w hw b hb o ho acc hacc) K } := by
  refine ⟨?_, fun xb xo E K => ?run⟩
  case run =>
    simp only [cc0__linear_relu_kernel_eq_skeleton]; unfold cc0__linear_relu_kernel_skel
    unfold owns
    iintro ⟨⟨%fa, %hfa, Ha⟩, ⟨%fw, %hfw, Hw⟩, ⟨%fb, %hfb, Hb⟩, ⟨%fo, %hfo, Ho⟩, ⟨%ds, %fs, -, Hs⟩, Hk⟩
    obtain rfl := ha.eq_unread hfa; obtain rfl := hw.eq_unread hfw
    obtain rfl := hb.eq_unread hfb; obtain rfl := ho.eq_unread hfo
    sl_exec (disch := first | exact hc0 | exact hc1)
    sl_step
    iapply Hk
    isplitl [Ha]
    · iexists _; isplitr; · ipureintro; exact ha.read_unread _
      iexact Ha
    isplitl [Hw]
    · iexists _; isplitr; · ipureintro; exact hw.read_unread _
      iexact Hw
    isplitl [Hb]
    · iexists _; isplitr; · ipureintro; exact hb.read_unread _
      iexact Hb
    isplitl [Ho]
    · iexists _; isplitr; · ipureintro; exact ho.read_unread _
      iexact Ho
    iexists _; iexact Hs

end Cert.Kernel.Layer0

end
-- ==== Proof.Bits.Layer0.RunC.lean ====
/- First dense layer, the tile body where k = 1 (the last step of the contraction): the product of the x-tile and
   the W1-tile is added to the accumulator, and max(accumulator + bias row, 0) is written into the output tile.
   The run below finds what the accumulator and the output tile are left holding, as lists of stored blocks. -/
import proofs.«165055_j20504173871714_1_alg».proof.Proof.Bits.Layer0.RunA

set_option maxRecDepth 16384

noncomputable section

namespace Cert.Kernel.Layer0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The tile body at a point with k = 1, on whole memrefs: the x-, W1- and bias tiles at `xa`, `xw`, `xb`; the
    accumulator at `xs`, what the point before left; the output tile at any contents. It ends with the output
    tile holding the blocks `LO` and the accumulator the blocks `LS`, written over what they had. -/
noncomputable def runLast (c : Dev nD) (i : grid0.Coords)
    (a : Memref sig .tc .vmem S1024x1024 .f32) (ha : a.IsWhole) (w : Memref sig .tc .vmem S1024x1024 .f32) (hw : w.IsWhole)
    (b : Memref sig .tc .vmem S1x1024 .f32) (hb : b.IsWhole) (o : Memref sig .tc .vmem S1024x1024 .bf16) (ho : o.IsWhole)
    (acc : Memref sig .tc .vmem S1024x1024 .f32) (hacc : acc.IsWhole) (hc0 : ¬atFirstK i) (hc1 : atLastK i)
    (xa : Vec F S1024x1024 .f32) (xw : Vec F S1024x1024 .f32) (xb : Vec F S1x1024 .f32) (xs : Vec F S1024x1024 .f32) :
    Σ' (LO : List (View.Piece (Elt F) S1024x1024 .bf16)), { LS : List (View.Piece (Elt F) S1024x1024 .f32) //
      ∀ (E : Set ℕ) (K : PUnit → sProp 𝕄),
        iprop(owns (c : Thread nD τ) a fullShare xa ∗ owns (c : Thread nD τ) w fullShare xw ∗ owns (c : Thread nD τ) b fullShare xb
            ∗ (∃ d, owns (c : Thread nD τ) o fullShare d) ∗ owns (c : Thread nD τ) acc fullShare xs
            ∗ (iprop(owns (c : Thread nD τ) a fullShare xa ∗ owns (c : Thread nD τ) w fullShare xw ∗ owns (c : Thread nD τ) b fullShare xb
                ∗ (∃ f, o.view.loc (c : Thread nD τ) ↦[o.view.set]{fullShare} o.view.writes (Elt F) f LO)
                ∗ (∃ f, acc.view.loc (c : Thread nD τ) ↦[acc.view.set]{fullShare} acc.view.writes (Elt F) f LS)) -∗ K ⟨⟩))
          ⊢ wp frame (wpE (defs₀ (F := F)) Variants.none c none) E (cc0__linear_relu_kernel i a ha w hw b hb o ho acc hacc) K } := by
  refine ⟨?_, ?_, fun E K => ?run⟩
  case run =>
    simp only [cc0__linear_relu_kernel_eq_skeleton]; unfold cc0__linear_relu_kernel_skel
    unfold owns
    iintro ⟨⟨%fa, %hfa, Ha⟩, ⟨%fw, %hfw, Hw⟩, ⟨%fb, %hfb, Hb⟩, ⟨%d, %fo, -, Ho⟩, ⟨%fs, %hfs, Hs⟩, Hk⟩
    obtain rfl := ha.eq_unread hfa; obtain rfl := hw.eq_unread hfw
    obtain rfl := hb.eq_unread hfb; obtain rfl := hacc.eq_unread hfs
    sl_exec (disch := first | exact hc0 | exact hc1)
    sl_step
    iapply Hk
    isplitl [Ha]
    · iexists _; isplitr; · ipureintro; exact ha.read_unread _
      iexact Ha
    isplitl [Hw]
    · iexists _; isplitr; · ipureintro; exact hw.read_unread _
      iexact Hw
    isplitl [Hb]
    · iexists _; isplitr; · ipureintro; exact hb.read_unread _
      iexact Hb
    isplitl [Ho]; · iexists _; iexact Ho
    iexists _; iexact Hs

end Cert.Kernel.Layer0

end
-- ==== Proof.Bits.Layer0.Dat.lean ====
/- First dense layer, relu(x · W1ᵀ + b1), tile by tile: the proof data of its pipeline. What the accumulator and the
   output tile hold after each grid point — the contraction axis has two steps, so after an even point (k = 0) the
   accumulator holds what the first step leaves, and after an odd point (k = 1) what the last step leaves over
   that —, the invariant that carries the accumulator from a point to the next, and the body's obligation at
   every point, by the two cases. -/
import proofs.«165055_j20504173871714_1_alg».proof.Proof.Bits.Layer0.RunC

set_option maxRecDepth 16384

noncomputable section

namespace Cert.Kernel.Layer0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each step leaves -/

/-- The blocks the first step stores into the accumulator cover it. -/
theorem accCover_first (c : Dev nD) (i : grid0.Coords)
    (a : Memref sig .tc .vmem S1024x1024 .f32) (ha : a.IsWhole) (w : Memref sig .tc .vmem S1024x1024 .f32) (hw : w.IsWhole)
    (b : Memref sig .tc .vmem S1x1024 .f32) (hb : b.IsWhole) (o : Memref sig .tc .vmem S1024x1024 .bf16) (ho : o.IsWhole)
    (acc : Memref sig .tc .vmem S1024x1024 .f32) (hacc : acc.IsWhole) (hc0 : atFirstK i) (hc1 : ¬atLastK i)
    (xa : Vec F S1024x1024 .f32) (xw : Vec F S1024x1024 .f32) (y : S1024x1024.Idx) :
    ∃ pc ∈ (runFirst c i a ha w hw b hb o ho acc hacc hc0 hc1 xa xw).1, y ∈ pc.1.set :=
  View.cover_of_tiledL (runFirst c i a ha w hw b hb o ho acc hacc hc0 hc1 xa xw).1 S1024x1024.size (by sl_kernel_rfl) y

/-- What the first step leaves in the accumulator: its blocks read back (over contents that do not matter). -/
def accFirst (c : Dev nD) (i : grid0.Coords)
    (a : Memref sig .tc .vmem S1024x1024 .f32) (ha : a.IsWhole) (w : Memref sig .tc .vmem S1024x1024 .f32) (hw : w.IsWhole)
    (b : Memref sig .tc .vmem S1x1024 .f32) (hb : b.IsWhole) (o : Memref sig .tc .vmem S1024x1024 .bf16) (ho : o.IsWhole)
    (acc : Memref sig .tc .vmem S1024x1024 .f32) (hacc : acc.IsWhole) (hc0 : atFirstK i) (hc1 : ¬atLastK i)
    (xa : Vec F S1024x1024 .f32) (xw : Vec F S1024x1024 .f32) : Vec F S1024x1024 .f32 :=
  accV.read (Elt F) (accV.writes (Elt F) accV.junk (runFirst c i a ha w hw b hb o ho acc hacc hc0 hc1 xa xw).1)

/-- The block the last step stores into the output tile covers it. -/
theorem outCover_last (c : Dev nD) (i : grid0.Coords)
    (a : Memref sig .tc .vmem S1024x1024 .f32) (ha : a.IsWhole) (w : Memref sig .tc .vmem S1024x1024 .f32) (hw : w.IsWhole)
    (b : Memref sig .tc .vmem S1x1024 .f32) (hb : b.IsWhole) (o : Memref sig .tc .vmem S1024x1024 .bf16) (ho : o.IsWhole)
    (acc : Memref sig .tc .vmem S1024x1024 .f32) (hacc : acc.IsWhole) (hc0 : ¬atFirstK i) (hc1 : atLastK i)
    (xa : Vec F S1024x1024 .f32) (xw : Vec F S1024x1024 .f32) (xb : Vec F S1x1024 .f32) (xs : Vec F S1024x1024 .f32) (y : S1024x1024.Idx) :
    ∃ pc ∈ (runLast c i a ha w hw b hb o ho acc hacc hc0 hc1 xa xw xb xs).1, y ∈ pc.1.set :=
  View.cover_of_tiledL (runLast c i a ha w hw b hb o ho acc hacc hc0 hc1 xa xw xb xs).1 S1024x1024.size (by sl_kernel_rfl) y

/-- What the last step leaves in the output tile. -/
def outLast (c : Dev nD) (i : grid0.Coords)
    (a : Memref sig .tc .vmem S1024x1024 .f32) (ha : a.IsWhole) (w : Memref sig .tc .vmem S1024x1024 .f32) (hw : w.IsWhole)
    (b : Memref sig .tc .vmem S1x1024 .f32) (hb : b.IsWhole) (o : Memref sig .tc .vmem S1024x1024 .bf16) (ho : o.IsWhole)
    (acc : Memref sig .tc .vmem S1024x1024 .f32) (hacc : acc.IsWhole) (hc0 : ¬atFirstK i) (hc1 : atLastK i)
    (xa : Vec F S1024x1024 .f32) (xw : Vec F S1024x1024 .f32) (xb : Vec F S1x1024 .f32) (xs : Vec F S1024x1024 .f32) : Vec F S1024x1024 .bf16 :=
  outV.read (Elt F) (outV.writes (Elt F) outV.junk (runLast c i a ha w hw b hb o ho acc hacc hc0 hc1 xa xw xb xs).1)

/-- The block the last step stores into the accumulator covers it. -/
theorem accCover_last (c : Dev nD) (i : grid0.Coords)
    (a : Memref sig .tc .vmem S1024x1024 .f32) (ha : a.IsWhole) (w : Memref sig .tc .vmem S1024x1024 .f32) (hw : w.IsWhole)
    (b : Memref sig .tc .vmem S1x1024 .f32) (hb : b.IsWhole) (o : Memref sig .tc .vmem S1024x1024 .bf16) (ho : o.IsWhole)
    (acc : Memref sig .tc .vmem S1024x1024 .f32) (hacc : acc.IsWhole) (hc0 : ¬atFirstK i) (hc1 : atLastK i)
    (xa : Vec F S1024x1024 .f32) (xw : Vec F S1024x1024 .f32) (xb : Vec F S1x1024 .f32) (xs : Vec F S1024x1024 .f32) (y : S1024x1024.Idx) :
    ∃ pc ∈ (runLast c i a ha w hw b hb o ho acc hacc hc0 hc1 xa xw xb xs).2.1, y ∈ pc.1.set :=
  View.cover_of_tiledL (runLast c i a ha w hw b hb o ho acc hacc hc0 hc1 xa xw xb xs).2.1 S1024x1024.size (by sl_kernel_rfl) y

/-- What the last step leaves in the accumulator. -/
def accLast (c : Dev nD) (i : grid0.Coords)
    (a : Memref sig .tc .vmem S1024x1024 .f32) (ha : a.IsWhole) (w : Memref sig .tc .vmem S1024x1024 .f32) (hw : w.IsWhole)
    (b : Memref sig .tc .vmem S1x1024 .f32) (hb : b.IsWhole) (o : Memref sig .tc .vmem S1024x1024 .bf16) (ho : o.IsWhole)
    (acc : Memref sig .tc .vmem S1024x1024 .f32) (hacc : acc.IsWhole) (hc0 : ¬atFirstK i) (hc1 : atLastK i)
    (xa : Vec F S1024x1024 .f32) (xw : Vec F S1024x1024 .f32) (xb : Vec F S1x1024 .f32) (xs : Vec F S1024x1024 .f32) : Vec F S1024x1024 .f32 :=
  accV.read (Elt F) (accV.writes (Elt F) accV.junk (runLast c i a ha w hw b hb o ho acc hacc hc0 hc1 xa xw xb xs).2.1)

/-! ## The accumulator and the output tile after each grid point -/

/-- The grid point before `t` (for an odd `t`: the same (i, j), with k = 0). -/
def before (t : Fin cfg0.N) : Fin cfg0.N := ⟨t.val - 1, Nat.lt_of_le_of_lt (Nat.sub_le _ _) t.isLt⟩

theorem before_even (t : Fin cfg0.N) (h : ¬t.val % 2 = 0) : (before t).val % 2 = 0 := by
  unfold before; dsimp only; omega

theorem odd_of_not_even (t : Fin cfg0.N) (h : ¬t.val % 2 = 0) : t.val % 2 = 1 := by omega

/-- After an even point (k = 0): the accumulator holds what the first step makes of the point's x- and W1-tiles. -/
def accEven (c : Dev nD) (t : Fin cfg0.N) (h : t.val % 2 = 0) : Vec F S1024x1024 .f32 :=
  accFirst c (grid0.coords t) (mX t) (hX t) (mW t) (hW t) (mB t) (hB t) (mO t) (hO t) accM (Memref.isWhole_whole _) ((atFirstK_iff t).mpr h) (fun h' => by have := (atLastK_iff t).mp h'; omega) (tile V c 0 t) (tile V c 1 t)

/-- After an odd point (k = 1): what the last step makes of the point's tiles over what the point before left. -/
def accOdd (c : Dev nD) (t : Fin cfg0.N) (h : ¬t.val % 2 = 0) : Vec F S1024x1024 .f32 :=
  accLast c (grid0.coords t) (mX t) (hX t) (mW t) (hW t) (mB t) (hB t) (mO t) (hO t) accM (Memref.isWhole_whole _) (fun h' => h ((atFirstK_iff t).mp h')) ((atLastK_iff t).mpr (odd_of_not_even t h))
    (tile V c 0 t) (tile V c 1 t) (tile V c 2 t) (accEven V c (before t) (before_even t h))

/-- The accumulator after grid point `t`. -/
def accAt (c : Dev nD) (t : Fin cfg0.N) : Vec F S1024x1024 .f32 :=
  if h : t.val % 2 = 0 then accEven V c t h else accOdd V c t h

/-- The output tile after an odd point: max(accumulator + bias row, 0) of the finished contraction. -/
def outOdd (c : Dev nD) (t : Fin cfg0.N) (h : ¬t.val % 2 = 0) : Vec F S1024x1024 .bf16 :=
  outLast c (grid0.coords t) (mX t) (hX t) (mW t) (hW t) (mB t) (hB t) (mO t) (hO t) accM (Memref.isWhole_whole _) (fun h' => h ((atFirstK_iff t).mp h')) ((atLastK_iff t).mpr (odd_of_not_even t h))
    (tile V c 0 t) (tile V c 1 t) (tile V c 2 t) (accEven V c (before t) (before_even t h))

/-- The output tile after grid point `t`; at an even point nothing is stored there and nothing reads this value. -/
def outAt (c : Dev nD) (t : Fin cfg0.N) : Vec F S1024x1024 .bf16 :=
  if h : t.val % 2 = 0 then outV.read (Elt F) outV.junk else outOdd V c t h

theorem accAt_even (c : Dev nD) (t : Fin cfg0.N) (h : t.val % 2 = 0) : accAt V c t = accEven V c t h := dif_pos h
theorem accAt_odd (c : Dev nD) (t : Fin cfg0.N) (h : ¬t.val % 2 = 0) : accAt V c t = accOdd V c t h := dif_neg h
theorem outAt_odd (c : Dev nD) (t : Fin cfg0.N) (h : ¬t.val % 2 = 0) : outAt V c t = outOdd V c t h := dif_neg h

/-! ## The invariant from point to point -/

/-- Before the first point: the resting invariant. Before point `n + 1`: the accumulator at what point `n` left
    in it, the other layer's buffers and the generator register as they rest. -/
def carried (c : Dev nD) : (n : ℕ) → n ≤ cfg0.N → sProp 𝕄
  | 0, _ => Pipeline.ΦA spec0 c
  | n + 1, hn => iprop(iprop(owns (c : Thread nD τ) accM fullShare (accAt V c ⟨n, hn⟩) ∗ others (F := F) c) ∗ (∃ r, prngReg c r))

theorem carried_zero (c : Dev nD) (n : ℕ) (h : n ≤ cfg0.N) (hz : n = 0) : carried V c n h = Pipeline.ΦA spec0 c := by
  subst hz; rfl

theorem carried_succ (c : Dev nD) (n : ℕ) (hn : n < cfg0.N) :
    carried V c (n + 1) hn = iprop(iprop(owns (c : Thread nD τ) accM fullShare (accAt V c ⟨n, hn⟩) ∗ others (F := F) c) ∗ (∃ r, prngReg c r)) := rfl

theorem carried_pos (c : Dev nD) (n : ℕ) (h : n ≤ cfg0.N) (hz : n ≠ 0) :
    carried V c n h = iprop(iprop(owns (c : Thread nD τ) accM fullShare (accAt V c ⟨n - 1, by omega⟩) ∗ others (F := F) c) ∗ (∃ r, prngReg c r)) := by
  cases n with
  | zero => exact absurd rfl hz
  | succ n => rfl

/-! ## The proof data -/

/-- The layer's pipeline on core `c`: the operands as the layer finds them; after the body at point `t` each input's
    buffer still at its tile and the output's at `outAt`; the accumulator carried by the invariant; full shares,
    nothing owed. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => outAt V c t
  Φ t := carried V c t.val (Nat.le_of_lt_succ t.isLt)
  q _ := fullShare
  owed _ := 0

theorem A_eq (c : Dev nD) (w : Fin cfg0.W) : (dat V c).A w = V c (Pipeline.arrRef spec0 w) := by
  dsimp only [dat]

theorem carried_castSucc (c : Dev nD) (t : Fin cfg0.N) :
    (dat V c).Φ t.castSucc = carried V c t.val (Nat.le_of_lt t.isLt) := by
  dsimp only [dat]; simp only [Fin.coe_castSucc]

theorem after0 (c : Dev nD) (t : Fin cfg0.N) : (dat V c).after 0 t = tile V c 0 t := by dsimp only [dat]
theorem after1 (c : Dev nD) (t : Fin cfg0.N) : (dat V c).after 1 t = tile V c 1 t := by dsimp only [dat]
theorem after2 (c : Dev nD) (t : Fin cfg0.N) : (dat V c).after 2 t = tile V c 2 t := by dsimp only [dat]
theorem after3 (c : Dev nD) (t : Fin cfg0.N) : (dat V c).after 3 t = outAt V c t := by dsimp only [dat]

/-- The body finds each input's tile in its current buffer at every point. -/
theorem found0 (c : Dev nD) (t : Fin cfg0.N) (d) : (dat V c).before 0 t d = tile V c 0 t :=
  found0_of V (dat V c) (A_eq V c 0) (after0 V c) t d
theorem found1 (c : Dev nD) (t : Fin cfg0.N) (d) : (dat V c).before 1 t d = tile V c 1 t :=
  found1_of V (dat V c) (A_eq V c 1) (after1 V c) t d
theorem found2 (c : Dev nD) (t : Fin cfg0.N) (d) : (dat V c).before 2 t d = tile V c 2 t :=
  found2_of V (dat V c) (A_eq V c 2) (after2 V c) t d

/-! ## The body at a grid point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (mX t) fullShare ((dat V c).before 0 t d))
    ∗ (∃ d, owns (c : Thread nD τ) (mW t) fullShare ((dat V c).before 1 t d))
    ∗ (∃ d, owns (c : Thread nD τ) (mB t) fullShare ((dat V c).before 2 t d))
    ∗ (∃ d, owns (c : Thread nD τ) (mO t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point. The inputs' buffers hold their tiles. At an even point (k = 0) the first step runs: the
    accumulator is taken at whatever it holds (the resting invariant's at the very first point, else what the point
    before left) and handed back at `accEven`; the output tile is idle and goes back as found. At an odd point
    (k = 1) the last step runs over what the point before left in the accumulator. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [found0, found1, found2]
  rw [show (dat V c).owesAt () t.succ = (dat V c).owesAt () t.castSucc from rfl]
  rw [show (dat V c).Φ t.succ = carried V c (t.val + 1) t.isLt from rfl, carried_succ]
  rw [show (dat V c).leavesExact 0 t = owns (c : Thread nD τ) (mX t) fullShare ((dat V c).after 0 t) from by
    unfold Dat.leavesExact; rw [live0 t], after0]
  rw [show (dat V c).leavesExact 1 t = owns (c : Thread nD τ) (mW t) fullShare ((dat V c).after 1 t) from by
    unfold Dat.leavesExact; rw [live1 t], after1]
  rw [show (dat V c).leavesExact 2 t = owns (c : Thread nD τ) (mB t) fullShare ((dat V c).after 2 t) from by
    unfold Dat.leavesExact; rw [live2 t], after2]
  have hN : t.val < 64 := lt_of_lt_of_eq t.isLt (show cfg0.N = 64 from N_0)
  by_cases h0 : t.val % 2 = 0
  · have hF : atFirstK (grid0.coords t) := (atFirstK_iff t).mpr h0
    have hL : ¬atLastK (grid0.coords t) := fun h' => by have := (atLastK_iff t).mp h'; omega
    rw [Dat.leavesExact_idle (dat V c) 3 t (outIdle_first t hF hL) (outKept_first t hF hL)]
    rw [show (⟨t.val, t.isLt⟩ : Fin cfg0.N) = t from rfl, accAt_even V c t h0]
    unfold accEven accFirst; (try dsimp only)
    by_cases hz : t.val = 0
    · rw [carried_castSucc V c t, carried_zero V c _ _ hz, rest_eq]
      iintro ⟨⟨⟨Hs, Hr⟩, Hg⟩, Hd, ⟨%d0, H0⟩, ⟨%d1, H1⟩, ⟨%d2, H2⟩, ⟨%d3, H3⟩⟩
      iapply ((runFirst c (grid0.coords t) _ _ _ _ _ _ _ _ _ _ hF hL (tile V c 0 t) (tile V c 1 t)).2 _ _ Set.univ _)
      isplitl [H0]; · iexact H0
      isplitl [H1]; · iexact H1
      isplitl [H2]; · iexact H2
      isplitl [H3]; · iexact H3
      isplitl [Hs]; · iexact Hs
      iintro ⟨H0, H1, H2, H3, ⟨%es, Hs⟩⟩
      isplitl [Hs Hr Hg]
      · isplitl [Hs Hr]
        · isplitl [Hs]
          · unfold owns; iexists _; isplitr
            swap; · iexact Hs
            ipureintro; exact View.read_writes_of_cover _ _ _ _ _ (accCover_first c _ _ _ _ _ _ _ _ _ _ _ _ _ _ _)
          iexact Hr
        iexact Hg
      isplitl [Hd]; · iexact Hd
      isplitl [H0]; · iexact H0
      isplitl [H1]; · iexact H1
      isplitl [H2]; · iexact H2
      iexists _; iexact H3
    · rw [carried_castSucc V c t, carried_pos V c _ _ hz]
      iintro ⟨⟨⟨Hs, Hr⟩, Hg⟩, Hd, ⟨%d0, H0⟩, ⟨%d1, H1⟩, ⟨%d2, H2⟩, ⟨%d3, H3⟩⟩
      iapply ((runFirst c (grid0.coords t) _ _ _ _ _ _ _ _ _ _ hF hL (tile V c 0 t) (tile V c 1 t)).2 _ _ Set.univ _)
      isplitl [H0]; · iexact H0
      isplitl [H1]; · iexact H1
      isplitl [H2]; · iexact H2
      isplitl [H3]; · iexact H3
      isplitl [Hs]; · iexists _; iexact Hs
      iintro ⟨H0, H1, H2, H3, ⟨%es, Hs⟩⟩
      isplitl [Hs Hr Hg]
      · isplitl [Hs Hr]
        · isplitl [Hs]
          · unfold owns; iexists _; isplitr
            swap; · iexact Hs
            ipureintro; exact View.read_writes_of_cover _ _ _ _ _ (accCover_first c _ _ _ _ _ _ _ _ _ _ _ _ _ _ _)
          iexact Hr
        iexact Hg
      isplitl [Hd]; · iexact Hd
      isplitl [H0]; · iexact H0
      isplitl [H1]; · iexact H1
      isplitl [H2]; · iexact H2
      iexists _; iexact H3
  · have hF : ¬atFirstK (grid0.coords t) := fun h' => h0 ((atFirstK_iff t).mp h')
    have hL : atLastK (grid0.coords t) := (atLastK_iff t).mpr (odd_of_not_even t h0)
    have hz : t.val ≠ 0 := fun e => h0 (by rw [e])
    rw [show (dat V c).leavesExact 3 t = owns (c : Thread nD τ) (mO t) fullShare ((dat V c).after 3 t) from by
      unfold Dat.leavesExact; rw [outLive_last t hF hL], after3]
    rw [show (⟨t.val, t.isLt⟩ : Fin cfg0.N) = t from rfl, accAt_odd V c t h0, outAt_odd V c t h0]
    rw [carried_castSucc V c t, carried_pos V c _ _ hz]
    rw [show (⟨t.val - 1, by omega⟩ : Fin cfg0.N) = before t from rfl, accAt_even V c (before t) (before_even t h0)]
    unfold accOdd outOdd accLast outLast; (try dsimp only)
    iintro ⟨⟨⟨Hs, Hr⟩, Hg⟩, Hd, ⟨%d0, H0⟩, ⟨%d1, H1⟩, ⟨%d2, H2⟩, ⟨%d3, H3⟩⟩
    iapply ((runLast c (grid0.coords t) _ _ _ _ _ _ _ _ _ _ hF hL (tile V c 0 t) (tile V c 1 t) (tile V c 2 t) _).2.2 Set.univ _)
    isplitl [H0]; · iexact H0
    isplitl [H1]; · iexact H1
    isplitl [H2]; · iexact H2
    isplitl [H3]; · iexists _; iexact H3
    isplitl [Hs]; · iexact Hs
    iintro ⟨H0, H1, H2, ⟨%e3, H3⟩, ⟨%es, Hs⟩⟩
    isplitl [Hs Hr Hg]
    · isplitl [Hs Hr]
      · isplitl [Hs]
        · unfold owns; iexists _; isplitr
          swap; · iexact Hs
          ipureintro; exact View.read_writes_of_cover _ _ _ _ _ (accCover_last c _ _ _ _ _ _ _ _ _ _ _ _ _ _ _ _ _)
        iexact Hr
      iexact Hg
    isplitl [Hd]; · iexact Hd
    isplitl [H0]; · iexact H0
    isplitl [H1]; · iexact H1
    isplitl [H2]; · iexact H2
    unfold owns; iexists _; isplitr
    swap; · iexact H3
    ipureintro; exact View.read_writes_of_cover _ _ _ _ _ (outCover_last c _ _ _ _ _ _ _ _ _ _ _ _ _ _ _ _ _)

/-- The body's obligation, at every point. -/
theorem body_obligation (c : Dev nD) : BodyObligation (dat (F := F) V c) (defs₀ (F := F)) Variants.none () Set.univ := fun t => by
  rw [bigSep_W0, bigSep_W0]
  exact sound_body V c t

/-- The resting invariant is the invariant before the first point. -/
theorem hin (c : Dev nD) : (Pipeline.ΦA spec0 c : sProp 𝕄) ⊢ (dat V c).Φ 0 := by
  rw [show (dat V c).Φ 0 = carried V c 0 (Nat.zero_le _) from rfl, carried_zero V c 0 _ rfl]
  try exact Idealize.SL.BI.Entails.refl _

/-- After any point the invariant gives the resting invariant back: what the accumulator holds is forgotten. -/
theorem rest_of_carried (c : Dev nD) (t : Fin (cfg0.N + 1)) (ht : t.val ≠ 0) : (dat V c).Φ t ⊢ (Pipeline.ΦA spec0 c : sProp 𝕄) := by
  rw [show (dat V c).Φ t = carried V c t.val (Nat.le_of_lt_succ t.isLt) from rfl, carried_pos V c _ _ ht, rest_eq]
  iintro ⟨⟨Hs, Hr⟩, Hg⟩
  isplitl [Hs Hr]
  · isplitl [Hs]
    · iexists _; iexact Hs
    iexact Hr
  iexact Hg

/-- In particular after the last point. -/
theorem hout (c : Dev nD) : (dat V c).Φ (Fin.last cfg0.N) ⊢ (Pipeline.ΦA spec0 c : sProp 𝕄) :=
  rest_of_carried V c _ (by rw [Fin.val_last]; have : cfg0.N = 64 := N_0; omega)

end Cert.Kernel.Layer0

end
-- ==== Proof.Bits.Layer1.Runs.lean ====
/-
# The second dense layer's region: what its three control cases share

The region runs one body over the 64 points (i, j, k) of the grid 4 × 2 × 8. At a point the body adds the product of
the (i, k) block of the hidden array with the transposed (j, k) block of the weights into a 1024 × 1024 accumulator;
at k = 0 it first clears the accumulator, at k = 7 it writes relu(accumulator + bias block) into the (i, j) block of
the result. Here: the blocks of the region's arrays, read off the contents the region is entered with (a parameter);
that each input buffer holds its block at every point; the two conditions as residues of the point number modulo 8;
where the result's window is idle; the memrefs the body is called with; and the region's entry invariant with the
accumulator's buffer singled out.
-/
import proofs.«165055_j20504173871714_1_alg».proof.Proof.Gen.Kernel.Launch
import proofs.«165055_j20504173871714_1_alg».proof.Proof.Gen.Kernel.Skeleton
import proofs.«165055_j20504173871714_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden array's window (0): its current buffer holds its (i, k) block at every point, for any proof data whose
    array is the entry contents and whose body leaves the block in place. The block index moves at every point, so the
    block is fetched at every point. -/
theorem held0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The weights' window (1): its current buffer holds its (j, k) block at every point. -/
theorem held1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The bias row's window (2): its block index (0, j) moves only when k returns to 0, and between those points the
    buffer keeps the block: it holds its block at every point. -/
theorem held2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's two conditions -/

/-- "k = 0": the condition under which the body clears the accumulator, as the body computes it from the point's
    coordinates. -/
abbrev atFirstK (i : grid1.Coords) : Prop := (Scalar.cmpi .ne (Scalar.extui (Scalar.cmpi .eq (BitVec.ofNat 32 (i 2).val) 0#32)) 0#32) = 1#1
/-- k is the point number modulo 8: the condition holds at the points ≡ 0 (mod 8). -/
theorem atFirstK_iff : ∀ t : Fin cfg1.N, atFirstK (grid1.coords t) ↔ t.val % 8 = 0 :=
  (by decide +kernel : ∀ t : Fin grid1.N, atFirstK (grid1.coords t) ↔ t.val % 8 = 0)

/-- "k = 7": the condition under which the body writes the result's block. -/
abbrev atLastK (i : grid1.Coords) : Prop := k1_cond2 i = 1#1
/-- It holds at the points ≡ 7 (mod 8). -/
theorem atLastK_iff : ∀ t : Fin cfg1.N, atLastK (grid1.coords t) ↔ t.val % 8 = 7 :=
  (by decide +kernel : ∀ t : Fin grid1.N, atLastK (grid1.coords t) ↔ t.val % 8 = 7)

/-! ## Where the windows are idle -/

/-- The three inputs are never idle. -/
theorem live0 : ∀ t : Fin cfg1.N, cfg1.idle 0 (grid1.coords t) = false := fun _ => rfl
theorem live1 : ∀ t : Fin cfg1.N, cfg1.idle 1 (grid1.coords t) = false := fun _ => rfl
theorem live2 : ∀ t : Fin cfg1.N, cfg1.idle 2 (grid1.coords t) = false := fun _ => rfl
/-- Where k ≠ 7 the result's window is idle: the body stores nothing into it, -/
theorem idle3 : ∀ t : Fin cfg1.N, ¬atLastK (grid1.coords t) → cfg1.idle 3 (grid1.coords t) = true := by decide +kernel
/-- and its block is not written back there. -/
theorem noFlush3 : ∀ t : Fin cfg1.N, ¬atLastK (grid1.coords t) → (cfg1.win 3).flush t = false := by decide +kernel
/-- Where k = 7 the result's window is live. -/
theorem live3 : ∀ t : Fin cfg1.N, atLastK (grid1.coords t) → cfg1.idle 3 (grid1.coords t) = false := by decide +kernel

/-! ## The memrefs the body is called with -/

/-- One staging buffer of the result's window, through which its contents are stated (the choice does not matter). -/
abbrev outView : View sig .tc .vmem S1024x1024 .f32 := (Memref.whole cc1_stg3_0 : Memref sig .tc .vmem S1024x1024 .f32).view
/-- Each window's current staging memref at point `t`, and its wholeness. -/
abbrev aRef (t : Fin cfg1.N) : Memref sig .tc .vmem S1024x1024 .bf16 := win1_0.stage (cfg1.slots t 0)
abbrev aRef_whole (t : Fin cfg1.N) : (aRef t).IsWhole := hstage1_0 ((cfg1.slots t 0).cast nbuf1_0)
abbrev wRef (t : Fin cfg1.N) : Memref sig .tc .vmem S1024x1024 .f32 := win1_1.stage (cfg1.slots t 1)
abbrev wRef_whole (t : Fin cfg1.N) : (wRef t).IsWhole := hstage1_1 ((cfg1.slots t 1).cast nbuf1_1)
abbrev bRef (t : Fin cfg1.N) : Memref sig .tc .vmem S1x1024 .f32 := win1_2.stage (cfg1.slots t 2)
abbrev bRef_whole (t : Fin cfg1.N) : (bRef t).IsWhole := hstage1_2 ((cfg1.slots t 2).cast nbuf1_2)
abbrev oRef (t : Fin cfg1.N) : Memref sig .tc .vmem S1024x1024 .f32 := win1_3.stage (cfg1.slots t 3)
abbrev oRef_whole (t : Fin cfg1.N) : (oRef t).IsWhole := hstage1_3 ((cfg1.slots t 3).cast nbuf1_3)
/-- The accumulator: a whole scoped buffer of the kernel's own, passed beside the windows and carried from point to point. -/
abbrev accRef : Memref sig .tc .vmem S1024x1024 .f32 := Memref.whole cc1_scratch0
/-- The accumulator as a view: what it holds is stated through it. -/
abbrev accView : View sig .tc .vmem S1024x1024 .f32 := accRef.view

/-! ## The entry invariant -/

/-- The core's nine scoped buffers that belong to the first layer's region (its eight staging buffers and its
    accumulator), each at some contents: this region never touches them. -/
def foreign (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_scratch0), ((c : Thread nD τ).loc cc0_scratch0) ↦{fullShare} f))

/-- The region's entry invariant, the accumulator singled out: the nine foreign buffers, the accumulator's memref
    owned at some contents, and the generator register at some state. -/
theorem entryInv_eq (c : Dev nD) :
    (Pipeline.ΦA spec1 c : sProp 𝕄)
      = iprop(iprop(foreign (F := F) c ∗ (∃ d, owns (c : Thread nD τ) accRef fullShare d)) ∗ (∃ r, prngReg c r)) := by
  unfold Pipeline.ΦA; rw [scopedRest1_eq]; simp only [accRef, owns_whole]; unfold foreign
  refine congrArg (fun X : sProp 𝕄 => iprop(X ∗ (∃ r, prngReg c r))) (BI.equiv_iff.mp ⟨?_, ?_⟩)
  · show (_ : sProp 𝕄) ⊢ _
    iintro ⟨H1, H2, H3, H4, H5, H6, H7, H8, H9, HS⟩
    isplitr [HS]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iexact HS
  · show (_ : sProp 𝕄) ⊢ _
    iintro ⟨⟨H1, H2, H3, H4, H5, H6, H7, H8, H9⟩, HS⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS

end Cert.Kernel.Layer1

end
-- ==== Proof.Bits.Layer1.RunFirst.lean ====
/-
# The body at a point with k = 0

The accumulator is cleared and the first product is added: whatever the accumulator held before, it ends at
0 + a·wᵀ of the point's blocks. The result's buffer is not touched.
-/
import proofs.«165055_j20504173871714_1_alg».proof.Proof.Bits.Layer1.Runs

set_option maxRecDepth 16384

noncomputable section

namespace Cert.Kernel.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body where k = 0 (the clearing branch taken, the writing branch not). On whole memrefs — the three inputs at
    their contents, the result's buffer at contents it hands back untouched, the accumulator at anything — the body
    runs to a state with the inputs and the result's buffer as they were and the accumulator with the pieces `LS`
    written into it: first the zero block, then over it the zero block read back plus the product of the blocks.
    The result's buffer gets no piece. -/
noncomputable def runFirst (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : atFirstK i) (hc1 : ¬atLastK i)
    (x0 : Vec F S1024x1024 .bf16) (x1 : Vec F S1024x1024 .f32) (x2 : Vec F S1x1024 .f32) :
    Σ' (LO : List (View.Piece (Elt F) S1024x1024 .f32)), { LS : List (View.Piece (Elt F) S1024x1024 .f32) //
      ∀ (xo : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc1__linear_relu_kernel i arg3 harg3 arg4 harg4 arg5 harg5 arg6 harg6 arg7 harg7) K } := by
  refine ⟨[], ?_, fun xo E K => ?run⟩
  case run =>
    simp only [cc1__linear_relu_kernel_eq_skeleton]; unfold cc1__linear_relu_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Layer1

end
-- ==== Proof.Bits.Layer1.RunMid.lean ====
/-
# The body at a point with 0 < k < 7

One more product is added to the accumulator: it ends at what it held plus a·wᵀ of the point's blocks. The result's
buffer is not touched.
-/
import proofs.«165055_j20504173871714_1_alg».proof.Proof.Bits.Layer1.RunFirst

set_option maxRecDepth 16384

noncomputable section

namespace Cert.Kernel.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body where 0 < k < 7 (neither branch taken). On whole memrefs — the three inputs at their contents, the
    result's buffer at contents it hands back untouched, the accumulator at the contents `xs` the point before left —
    the body runs to a state with the inputs and the result's buffer as they were and the accumulator with the one
    piece `LS` written: `xs` plus the product of the blocks. -/
noncomputable def runMid (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬atFirstK i) (hc1 : ¬atLastK i)
    (x0 : Vec F S1024x1024 .bf16) (x1 : Vec F S1024x1024 .f32) (x2 : Vec F S1x1024 .f32) (xs : Vec F S1024x1024 .f32) :
    Σ' (LO : List (View.Piece (Elt F) S1024x1024 .f32)), { LS : List (View.Piece (Elt F) S1024x1024 .f32) //
      ∀ (xo : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc1__linear_relu_kernel i arg3 harg3 arg4 harg4 arg5 harg5 arg6 harg6 arg7 harg7) K } := by
  refine ⟨[], ?_, fun xo E K => ?run⟩
  case run =>
    simp only [cc1__linear_relu_kernel_eq_skeleton]; unfold cc1__linear_relu_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Layer1

end
-- ==== Proof.Bits.Layer1.RunLast.lean ====
/-
# The body at a point with k = 7

The last product is added to the accumulator, and relu(accumulator + bias block) is written into the result's buffer.
-/
import proofs.«165055_j20504173871714_1_alg».proof.Proof.Bits.Layer1.RunMid

set_option maxRecDepth 16384

noncomputable section

namespace Cert.Kernel.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body where k = 7 (the clearing branch not taken, the writing branch taken). On whole memrefs — the three
    inputs at their contents, the result's buffer at anything, the accumulator at the contents `xs` the point before
    left — the body runs to a state with the inputs as they were, the accumulator with the one piece `LS` written
    (`xs` plus the product of the blocks) and the result's buffer with the one piece `LO` written (relu of that sum
    read back plus the bias row). -/
noncomputable def runLast (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬atFirstK i) (hc1 : atLastK i)
    (x0 : Vec F S1024x1024 .bf16) (x1 : Vec F S1024x1024 .f32) (x2 : Vec F S1x1024 .f32) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc1__linear_relu_kernel i arg3 harg3 arg4 harg4 arg5 harg5 arg6 harg6 arg7 harg7) K } := by
  refine ⟨?_, ?_, fun E K => ?run⟩
  case run =>
    simp only [cc1__linear_relu_kernel_eq_skeleton]; unfold cc1__linear_relu_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Layer1

end
-- ==== Proof.Bits.Layer1.Dat.lean ====
/-
# The second dense layer's region: what it leaves point by point, and its proof data

What each of the three control cases leaves in the accumulator and in the result's buffer, the accumulator's contents
after each of the 64 points by recursion on the point, the invariant that carries it from point to point, the proof
data, and the body's obligation at every point.
-/
import proofs.«165055_j20504173871714_1_alg».proof.Proof.Bits.Layer1.RunLast

set_option maxRecDepth 16384

noncomputable section

namespace Cert.Kernel.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

/-- The pieces the k = 0 body writes into the accumulator cover it (the later one alone does). -/
theorem accFirst_cover (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : atFirstK i) (hc1 : ¬atLastK i)
    (x0 : Vec F S1024x1024 .bf16) (x1 : Vec F S1024x1024 .f32) (x2 : Vec F S1x1024 .f32) (y : S1024x1024.Idx) :
    ∃ pc ∈ (runFirst c i arg3 harg3 arg4 harg4 arg5 harg5 arg6 harg6 arg7 harg7 hc0 hc1 x0 x1 x2).2.1, y ∈ pc.1.set :=
  View.cover_of_tiledL (runFirst c i arg3 harg3 arg4 harg4 arg5 harg5 arg6 harg6 arg7 harg7 hc0 hc1 x0 x1 x2).2.1 S1024x1024.size (by sl_kernel_rfl) y

/-- What the k = 0 body leaves in the accumulator: its pieces read back. -/
def accFirst (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : atFirstK i) (hc1 : ¬atLastK i)
    (x0 : Vec F S1024x1024 .bf16) (x1 : Vec F S1024x1024 .f32) (x2 : Vec F S1x1024 .f32) : Vec F S1024x1024 .f32 :=
  accView.read (Elt F) (accView.writes (Elt F) accView.junk (runFirst c i arg3 harg3 arg4 harg4 arg5 harg5 arg6 harg6 arg7 harg7 hc0 hc1 x0 x1 x2).2.1)

/-- The piece the 0 < k < 7 body writes into the accumulator covers it. -/
theorem accMid_cover (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬atFirstK i) (hc1 : ¬atLastK i)
    (x0 : Vec F S1024x1024 .bf16) (x1 : Vec F S1024x1024 .f32) (x2 : Vec F S1x1024 .f32) (xs : Vec F S1024x1024 .f32) (y : S1024x1024.Idx) :
    ∃ pc ∈ (runMid c i arg3 harg3 arg4 harg4 arg5 harg5 arg6 harg6 arg7 harg7 hc0 hc1 x0 x1 x2 xs).2.1, y ∈ pc.1.set :=
  View.cover_of_tiledL (runMid c i arg3 harg3 arg4 harg4 arg5 harg5 arg6 harg6 arg7 harg7 hc0 hc1 x0 x1 x2 xs).2.1 S1024x1024.size (by sl_kernel_rfl) y

/-- What the 0 < k < 7 body leaves in the accumulator. -/
def accMid (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬atFirstK i) (hc1 : ¬atLastK i)
    (x0 : Vec F S1024x1024 .bf16) (x1 : Vec F S1024x1024 .f32) (x2 : Vec F S1x1024 .f32) (xs : Vec F S1024x1024 .f32) : Vec F S1024x1024 .f32 :=
  accView.read (Elt F) (accView.writes (Elt F) accView.junk (runMid c i arg3 harg3 arg4 harg4 arg5 harg5 arg6 harg6 arg7 harg7 hc0 hc1 x0 x1 x2 xs).2.1)

/-- The piece the k = 7 body writes into the accumulator covers it. -/
theorem accLast_cover (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬atFirstK i) (hc1 : atLastK i)
    (x0 : Vec F S1024x1024 .bf16) (x1 : Vec F S1024x1024 .f32) (x2 : Vec F S1x1024 .f32) (xs : Vec F S1024x1024 .f32) (y : S1024x1024.Idx) :
    ∃ pc ∈ (runLast c i arg3 harg3 arg4 harg4 arg5 harg5 arg6 harg6 arg7 harg7 hc0 hc1 x0 x1 x2 xs).2.1, y ∈ pc.1.set :=
  View.cover_of_tiledL (runLast c i arg3 harg3 arg4 harg4 arg5 harg5 arg6 harg6 arg7 harg7 hc0 hc1 x0 x1 x2 xs).2.1 S1024x1024.size (by sl_kernel_rfl) y

/-- What the k = 7 body leaves in the accumulator. -/
def accLast (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬atFirstK i) (hc1 : atLastK i)
    (x0 : Vec F S1024x1024 .bf16) (x1 : Vec F S1024x1024 .f32) (x2 : Vec F S1x1024 .f32) (xs : Vec F S1024x1024 .f32) : Vec F S1024x1024 .f32 :=
  accView.read (Elt F) (accView.writes (Elt F) accView.junk (runLast c i arg3 harg3 arg4 harg4 arg5 harg5 arg6 harg6 arg7 harg7 hc0 hc1 x0 x1 x2 xs).2.1)

/-- The piece the k = 7 body writes into the result's buffer covers it. -/
theorem outLast_cover (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬atFirstK i) (hc1 : atLastK i)
    (x0 : Vec F S1024x1024 .bf16) (x1 : Vec F S1024x1024 .f32) (x2 : Vec F S1x1024 .f32) (xs : Vec F S1024x1024 .f32) (y : S1024x1024.Idx) :
    ∃ pc ∈ (runLast c i arg3 harg3 arg4 harg4 arg5 harg5 arg6 harg6 arg7 harg7 hc0 hc1 x0 x1 x2 xs).1, y ∈ pc.1.set :=
  View.cover_of_tiledL (runLast c i arg3 harg3 arg4 harg4 arg5 harg5 arg6 harg6 arg7 harg7 hc0 hc1 x0 x1 x2 xs).1 S1024x1024.size (by sl_kernel_rfl) y

/-- What the k = 7 body leaves in the result's buffer. -/
def outLast (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬atFirstK i) (hc1 : atLastK i)
    (x0 : Vec F S1024x1024 .bf16) (x1 : Vec F S1024x1024 .f32) (x2 : Vec F S1x1024 .f32) (xs : Vec F S1024x1024 .f32) : Vec F S1024x1024 .f32 :=
  outView.read (Elt F) (outView.writes (Elt F) outView.junk (runLast c i arg3 harg3 arg4 harg4 arg5 harg5 arg6 harg6 arg7 harg7 hc0 hc1 x0 x1 x2 xs).1)

/-! ## The same at a point of the grid, on the point's memrefs and blocks -/

theorem notLast_of_first (t : Fin cfg1.N) (h0 : t.val % 8 = 0) : ¬atLastK (grid1.coords t) :=
  fun h => absurd ((atLastK_iff t).mp h) (by omega)
theorem notFirst_of_last (t : Fin cfg1.N) (h1 : t.val % 8 = 7) : ¬atFirstK (grid1.coords t) :=
  fun h => absurd ((atFirstK_iff t).mp h) (by omega)
theorem notFirst_of (t : Fin cfg1.N) (h0 : ¬t.val % 8 = 0) : ¬atFirstK (grid1.coords t) :=
  fun h => h0 ((atFirstK_iff t).mp h)
theorem notLast_of (t : Fin cfg1.N) (h1 : ¬t.val % 8 = 7) : ¬atLastK (grid1.coords t) :=
  fun h => h1 ((atLastK_iff t).mp h)

/-- The accumulator after a point with k = 0. -/
def accFirstAt (c : Dev nD) (t : Fin cfg1.N) (h0 : t.val % 8 = 0) : Vec F S1024x1024 .f32 :=
  accFirst c (grid1.coords t) (aRef t) (aRef_whole t) (wRef t) (wRef_whole t) (bRef t) (bRef_whole t) (oRef t) (oRef_whole t) accRef (Memref.isWhole_whole _) ((atFirstK_iff t).mpr h0) (notLast_of_first t h0) (blk V c 0 t) (blk V c 1 t) (blk V c 2 t)

/-- The accumulator after a point with 0 < k < 7, over what it held before. -/
def accMidAt (c : Dev nD) (t : Fin cfg1.N) (h0 : ¬t.val % 8 = 0) (h1 : ¬t.val % 8 = 7) (xs : Vec F S1024x1024 .f32) : Vec F S1024x1024 .f32 :=
  accMid c (grid1.coords t) (aRef t) (aRef_whole t) (wRef t) (wRef_whole t) (bRef t) (bRef_whole t) (oRef t) (oRef_whole t) accRef (Memref.isWhole_whole _) (notFirst_of t h0) (notLast_of t h1) (blk V c 0 t) (blk V c 1 t) (blk V c 2 t) xs

/-- The accumulator after a point with k = 7, over what it held before. -/
def accLastAt (c : Dev nD) (t : Fin cfg1.N) (h1 : t.val % 8 = 7) (xs : Vec F S1024x1024 .f32) : Vec F S1024x1024 .f32 :=
  accLast c (grid1.coords t) (aRef t) (aRef_whole t) (wRef t) (wRef_whole t) (bRef t) (bRef_whole t) (oRef t) (oRef_whole t) accRef (Memref.isWhole_whole _) (notFirst_of_last t h1) ((atLastK_iff t).mpr h1) (blk V c 0 t) (blk V c 1 t) (blk V c 2 t) xs

/-- The result's buffer after a point with k = 7, over what the accumulator held before. -/
def outLastAt (c : Dev nD) (t : Fin cfg1.N) (h1 : t.val % 8 = 7) (xs : Vec F S1024x1024 .f32) : Vec F S1024x1024 .f32 :=
  outLast c (grid1.coords t) (aRef t) (aRef_whole t) (wRef t) (wRef_whole t) (bRef t) (bRef_whole t) (oRef t) (oRef_whole t) accRef (Memref.isWhole_whole _) (notFirst_of_last t h1) ((atLastK_iff t).mpr h1) (blk V c 0 t) (blk V c 1 t) (blk V c 2 t) xs

/-! ## The accumulator after each point -/

/-- THE ACCUMULATION: what the accumulator holds after the body at position `n`. At k = 0 it starts afresh; at the
    other points it continues from what position `n - 1` left. -/
def accAt (c : Dev nD) : (n : ℕ) → n < cfg1.N → Vec F S1024x1024 .f32
  | 0, hn => accFirstAt V c ⟨0, hn⟩ (Nat.zero_mod _)
  | n + 1, hn =>
    if h0 : (n + 1) % 8 = 0 then accFirstAt V c ⟨n + 1, hn⟩ h0
    else if h1 : (n + 1) % 8 = 7 then accLastAt V c ⟨n + 1, hn⟩ h1 (accAt c n (Nat.lt_of_succ_lt hn))
    else accMidAt V c ⟨n + 1, hn⟩ h0 h1 (accAt c n (Nat.lt_of_succ_lt hn))

theorem accAt_first (c : Dev nD) (t : Fin cfg1.N) (h0 : t.val % 8 = 0) :
    accAt V c t.val t.isLt = accFirstAt V c t h0 := by
  obtain ⟨n, hn⟩ := t
  cases n with
  | zero => exact rfl
  | succ n => exact (dif_pos h0).trans rfl

theorem accAt_mid (c : Dev nD) (t : Fin cfg1.N) (h0 : ¬t.val % 8 = 0) (h1 : ¬t.val % 8 = 7) :
    accAt V c t.val t.isLt = accMidAt V c t h0 h1 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt_last (c : Dev nD) (t : Fin cfg1.N) (h1 : t.val % 8 = 7) :
    accAt V c t.val t.isLt = accLastAt V c t h1 (accAt V c (t.val - 1) (Nat.lt_of_le_of_lt (Nat.sub_le _ _) t.isLt)) := by
  obtain ⟨n, hn⟩ := t
  cases n with
  | zero => exact absurd (show (0 : ℕ) % 8 = 7 from h1) (by decide)
  | succ n => exact (dif_neg (show ¬(n + 1) % 8 = 0 from fun h => by have := h1; dsimp only at this; omega)).trans ((dif_pos h1).trans rfl)

/-- What the result's buffer holds after the body at point `t`: at k = 7 the block the body wrote, from what the
    accumulator held before the point; elsewhere the window is idle and this value is never consulted (a block read
    off arbitrary contents). -/
def outAt (c : Dev nD) (t : Fin cfg1.N) : Vec F S1024x1024 .f32 :=
  if h1 : t.val % 8 = 7 then outLastAt V c t h1 (accAt V c (t.val - 1) (Nat.lt_of_le_of_lt (Nat.sub_le _ _) t.isLt))
  else outView.read (Elt F) outView.junk

theorem outAt_last (c : Dev nD) (t : Fin cfg1.N) (h1 : t.val % 8 = 7) :
    outAt V c t = outLastAt V c t h1 (accAt V c (t.val - 1) (Nat.lt_of_le_of_lt (Nat.sub_le _ _) t.isLt)) := dif_pos h1

/-! ## The invariant carried from point to point -/

/-- Before position `n`: at the region's entry its entry invariant (every scoped buffer that is no staging buffer of
    this region at anything); afterwards the nine foreign buffers at anything, the accumulator at what position
    `n - 1` left in it, and the generator register at some state. -/
def inv (c : Dev nD) : (n : ℕ) → n ≤ cfg1.N → sProp 𝕄
  | 0, _ => Pipeline.ΦA spec1 c
  | n + 1, hn => iprop(iprop(foreign (F := F) c ∗ owns (c : Thread nD τ) accRef fullShare (accAt V c n hn)) ∗ (∃ r, prngReg c r))

theorem inv_zero (c : Dev nD) (n : ℕ) (h : n ≤ cfg1.N) (hz : n = 0) : inv V c n h = Pipeline.ΦA spec1 c := by
  subst hz; rfl

theorem inv_succ (c : Dev nD) (n : ℕ) (hn : n < cfg1.N) :
    inv V c (n + 1) hn = iprop(iprop(foreign (F := F) c ∗ owns (c : Thread nD τ) accRef fullShare (accAt V c n hn)) ∗ (∃ r, prngReg c r)) := rfl

theorem inv_pos (c : Dev nD) (n : ℕ) (h : n ≤ cfg1.N) (hz : n ≠ 0) :
    inv V c n h = iprop(iprop(foreign (F := F) c ∗ owns (c : Thread nD τ) accRef fullShare (accAt V c (n - 1) (by omega))) ∗ (∃ r, prngReg c r)) := by
  cases n with
  | zero => exact absurd rfl hz
  | succ n => rfl

/-! ## The proof data -/

/-- The region's proof data on core `c`: the arrays as the region finds them; after the body at point `t` each input's
    buffer at its block and the result's at `outAt`; the invariant `inv`; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => outAt V c t
  Φ t := inv V c t.val (Nat.le_of_lt_succ t.isLt)
  q _ := fullShare
  owed _ := 0

/-- The proof data's arrays are the region-entry contents. -/
theorem A_eq (c : Dev nD) (w : Fin cfg1.W) : (dat V c).A w = V c (Pipeline.arrRef spec1 w) := by
  dsimp only [dat]

/-- The invariant at a point's start, restated at the point's number. -/
theorem inv_castSucc (c : Dev nD) (t : Fin cfg1.N) :
    (dat V c).Φ t.castSucc = inv V c t.val (Nat.le_of_lt t.isLt) := by
  dsimp only [dat]; simp only [Fin.coe_castSucc]

/-- What the body leaves, window by window. -/
theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = outAt V c t := by dsimp only [dat]

/-- Each input's current buffer holds its block at every point. -/
theorem held0 (c : Dev nD) (t : Fin cfg1.N) (d) : (dat V c).before 0 t d = blk V c 0 t :=
  held0_of V (dat V c) (A_eq V c 0) (after0 V c) t d
theorem held1 (c : Dev nD) (t : Fin cfg1.N) (d) : (dat V c).before 1 t d = blk V c 1 t :=
  held1_of V (dat V c) (A_eq V c 1) (after1 V c) t d
theorem held2 (c : Dev nD) (t : Fin cfg1.N) (d) : (dat V c).before 2 t d = blk V c 2 t :=
  held2_of V (dat V c) (A_eq V c 2) (after2 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (aRef t) fullShare ((dat V c).before 0 t d))
    ∗ (∃ d, owns (c : Thread nD τ) (wRef t) fullShare ((dat V c).before 1 t d))
    ∗ (∃ d, owns (c : Thread nD τ) (bRef t) fullShare ((dat V c).before 2 t d))
    ∗ (∃ d, owns (c : Thread nD τ) (oRef t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' buffers hold their blocks; the point's number modulo 8 says which case runs;
    the invariant hands the body the accumulator at what the point before left (at anything at the very first point)
    and takes it back at this point's contents, the pieces covering it; the foreign buffers, the generator register
    and the debt pass through; where k ≠ 7 the result's buffer is handed back as found. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [held0, held1, held2]
  rw [show (dat V c).owesAt () t.succ = (dat V c).owesAt () t.castSucc from rfl]
  rw [show (dat V c).Φ t.succ = inv V c (t.val + 1) t.isLt from rfl, inv_succ]
  have hN : t.val < 64 := lt_of_lt_of_eq t.isLt (show cfg1.N = 64 from N_1)
  rw [show (dat V c).leavesExact 0 t = owns (c : Thread nD τ) (aRef t) fullShare ((dat V c).after 0 t) from by
    unfold Dat.leavesExact; rw [live0 t], after0]
  rw [show (dat V c).leavesExact 1 t = owns (c : Thread nD τ) (wRef t) fullShare ((dat V c).after 1 t) from by
    unfold Dat.leavesExact; rw [live1 t], after1]
  rw [show (dat V c).leavesExact 2 t = owns (c : Thread nD τ) (bRef t) fullShare ((dat V c).after 2 t) from by
    unfold Dat.leavesExact; rw [live2 t], after2]
  by_cases h0 : t.val % 8 = 0
  · -- k = 0: the accumulator starts afresh
    rw [Dat.leavesExact_idle (dat V c) 3 t (idle3 t (notLast_of_first t h0)) (noFlush3 t (notLast_of_first t h0))]
    rw [accAt_first V c t h0]
    unfold accFirstAt accFirst; (try dsimp only)
    by_cases hz : t.val = 0
    · rw [inv_castSucc V c t, inv_zero V c _ _ hz, entryInv_eq]
      iintro ⟨⟨⟨Hf, HS⟩, Hg⟩, Ho, ⟨%d0, H0⟩, ⟨%d1, H1⟩, ⟨%d2, H2⟩, ⟨%d3, H3⟩⟩
      iapply ((runFirst c (grid1.coords t) _ _ _ _ _ _ _ _ _ _ ((atFirstK_iff t).mpr h0) (notLast_of_first t h0) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hf HS Hg]
      · isplitl [Hf HS]
        · isplitl [Hf]; · iexact Hf
          unfold owns; iexists _; isplitr
          swap; · iexact HS
          ipureintro; exact View.read_writes_of_cover _ _ _ _ _ (accFirst_cover c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [inv_castSucc V c t, inv_pos V c _ _ hz]
      iintro ⟨⟨⟨Hf, HS⟩, Hg⟩, Ho, ⟨%d0, H0⟩, ⟨%d1, H1⟩, ⟨%d2, H2⟩, ⟨%d3, H3⟩⟩
      iapply ((runFirst c (grid1.coords t) _ _ _ _ _ _ _ _ _ _ ((atFirstK_iff t).mpr h0) (notLast_of_first t h0) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [Hf HS Hg]
      · isplitl [Hf HS]
        · isplitl [Hf]; · iexact Hf
          unfold owns; iexists _; isplitr
          swap; · iexact HS
          ipureintro; exact View.read_writes_of_cover _ _ _ _ _ (accFirst_cover c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · -- k = 7: the last product, and the result's block is written
      rw [show (dat V c).leavesExact 3 t = owns (c : Thread nD τ) (oRef t) fullShare ((dat V c).after 3 t) from by
        unfold Dat.leavesExact; rw [live3 t ((atLastK_iff t).mpr h1)], after3]
      rw [outAt_last V c t h1, accAt_last V c t h1]
      unfold outLastAt outLast accLastAt accLast; (try dsimp only)
      rw [inv_castSucc V c t, inv_pos V c _ _ hz]
      iintro ⟨⟨⟨Hf, HS⟩, Hg⟩, Ho, ⟨%d0, H0⟩, ⟨%d1, H1⟩, ⟨%d2, H2⟩, ⟨%d3, H3⟩⟩
      iapply ((runLast c (grid1.coords t) _ _ _ _ _ _ _ _ _ _ (notFirst_of_last t h1) ((atLastK_iff t).mpr h1) (blk V c 0 t) (blk V c 1 t) (blk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [Hf HS Hg]
      · isplitl [Hf HS]
        · isplitl [Hf]; · iexact Hf
          unfold owns; iexists _; isplitr
          swap; · iexact HS
          ipureintro; exact View.read_writes_of_cover _ _ _ _ _ (accLast_cover c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover c _ _ _ _ _ _ _ _ _ _ _ _ _ _ _ _ _)
    · -- 0 < k < 7: one more product
      rw [Dat.leavesExact_idle (dat V c) 3 t (idle3 t (notLast_of t h1)) (noFlush3 t (notLast_of t h1))]
      rw [accAt_mid V c t h0 h1]
      unfold accMidAt accMid; (try dsimp only)
      rw [inv_castSucc V c t, inv_pos V c _ _ hz]
      iintro ⟨⟨⟨Hf, HS⟩, Hg⟩, Ho, ⟨%d0, H0⟩, ⟨%d1, H1⟩, ⟨%d2, H2⟩, ⟨%d3, H3⟩⟩
      iapply ((runMid c (grid1.coords t) _ _ _ _ _ _ _ _ _ _ (notFirst_of t h0) (notLast_of t h1) (blk V c 0 t) (blk V c 1 t) (blk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hf HS Hg]
      · isplitl [Hf HS]
        · isplitl [Hf]; · iexact Hf
          unfold owns; iexists _; isplitr
          swap; · iexact HS
          ipureintro; exact View.read_writes_of_cover _ _ _ _ _ (accMid_cover c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : (Pipeline.ΦA spec1 c : sProp 𝕄) ⊢ (dat V c).Φ 0 := by
  rw [show (dat V c).Φ 0 = inv V c 0 (Nat.zero_le _) from rfl, inv_zero V c 0 _ rfl]
  try exact Idealize.SL.BI.Entails.refl _

/-- After any point the invariant gives the entry invariant back: the accumulator's contents are forgotten. -/
theorem inv_forget (c : Dev nD) (t : Fin (cfg1.N + 1)) (ht : t.val ≠ 0) : (dat V c).Φ t ⊢ (Pipeline.ΦA spec1 c : sProp 𝕄) := by
  rw [show (dat V c).Φ t = inv V c t.val (Nat.le_of_lt_succ t.isLt) from rfl, inv_pos V c _ _ ht, entryInv_eq]
  iintro ⟨⟨Hf, HS⟩, Hg⟩
  isplitl [Hf HS]
  · isplitl [Hf]; · iexact Hf
    iexists _; iexact HS
  iexact Hg

/-- The same after the last point. -/
theorem hout (c : Dev nD) : (dat V c).Φ (Fin.last cfg1.N) ⊢ (Pipeline.ΦA spec1 c : sProp 𝕄) :=
  inv_forget V c _ (by rw [Fin.val_last]; have : cfg1.N = 64 := N_1; omega)

end Cert.Kernel.Layer1

end
-- ==== Proof.Bits.Net.lean ====
import proofs.«165055_j20504173871714_1_alg».proof.Proof.Bits.Layer0.Dat
import proofs.«165055_j20504173871714_1_alg».proof.Proof.Bits.Layer1.Dat
import Idealize.ShloMosaic.Lib.Pipeline.RegionsLoop
import Idealize.ShloMosaic.Lib.Pipeline.FrameSuffix

/-!
# The two layers in sequence: @main from the launch to the return

@main is four segments: b1 laid out as a row, the first layer's region, b2 laid out as a row, the second layer's
region. The contents of the core's unscoped buffers are followed from segment to segment: a host line changes only the
buffer it writes; a region changes only its output array, which ends holding what the write-backs of its grid points
left in it (the proof data's array after the last point), and leaves every other buffer as it found it. The hidden array
the first region leaves is what the second region's first window reads.

The run's post reads every unscoped buffer off the last of these contents. The frame claim (every argument ends as
launched: no host line and no region writes an argument) and the result array's contents are both read from it.
-/

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each segment boundary -/

/-- Core `c`'s buffers at launch. -/
abbrev atLaunch (c : Dev nD) : Valuation τ sig (Elt F) := fun b => m (c, b)
/-- When the first layer's region is entered: b1 has been laid out as the row `main_v0`. -/
abbrev atL0 (c : Dev nD) : Valuation τ sig (Elt F) := StableHlo.after hostOps0 (atLaunch m c)
/-- The same, read at the TensorCore's references: what the first layer's proof data are stated at. -/
abbrev inL0 : (c : Dev nD) → (b : Ref sig .tc) → Buf (Elt F) ((c : Thread nD τ).loc b) := fun c b => atL0 m c b
/-- When the first layer's region is left: its four arrays at what the pipeline leaves (the three inputs as entered,
    the hidden array at its write-backs folded), every other buffer as entered. -/
def afterL0 (c : Dev nD) : Valuation τ sig (Elt F) :=
  Pipeline.withArrays spec0 c (atL0 m c) fun w => (Layer0.dat (inL0 m) c).arrAt w cfg0.N
theorem afterL0_arr (c : Dev nD) (w : Fin cfg0.W) :
    afterL0 m c (Proc.devRef .tc (Pipeline.arrRef spec0 w)) = (Layer0.dat (inL0 m) c).arrAt w cfg0.N := by
  unfold afterL0; exact Pipeline.withArrays_arr spec0 launch0.win.arr_inj c _ _ w
theorem afterL0_of_ne (c : Dev nD) (b : Ref sig .tc) (hb : ∀ w, Pipeline.arrRef spec0 w ≠ b) :
    afterL0 m c (Proc.devRef .tc b) = atL0 m c (Proc.devRef .tc b) := by
  unfold afterL0; exact Pipeline.withArrays_of_ne spec0 c _ _ b hb
/-- The same, read at the TensorCore's references. -/
abbrev outL0 : (c : Dev nD) → (b : Ref sig .tc) → Buf (Elt F) ((c : Thread nD τ).loc b) := fun c b => afterL0 m c b
theorem exitL0_arr (c : Dev nD) (w : Fin cfg0.W) : (Layer0.dat (inL0 m) c).arrAt w cfg0.N = outL0 m c (Pipeline.arrRef spec0 w) :=
  (afterL0_arr m c w).symm
theorem exitL0_rest (c : Dev nD) : ∀ b, b ∉ Finset.univ.image (Pipeline.arrRef spec0) → outL0 m c b = inL0 m c b :=
  fun b hb => afterL0_of_ne m c b fun w e => hb (Finset.mem_image.mpr ⟨w, Finset.mem_univ _, e⟩)

/-- When the second layer's region is entered: b2 has been laid out as the row `main_v2`. -/
abbrev atL1 (c : Dev nD) : Valuation τ sig (Elt F) := StableHlo.after hostOps1 (afterL0 m c)
/-- The same, read at the TensorCore's references: what the second layer's proof data are stated at. -/
abbrev inL1 : (c : Dev nD) → (b : Ref sig .tc) → Buf (Elt F) ((c : Thread nD τ).loc b) := fun c b => atL1 m c b
/-- When the second layer's region is left: the result array at its write-backs folded, every other buffer as entered. -/
def afterL1 (c : Dev nD) : Valuation τ sig (Elt F) :=
  Pipeline.withArrays spec1 c (atL1 m c) fun w => (Layer1.dat (inL1 m) c).arrAt w cfg1.N
theorem afterL1_arr (c : Dev nD) (w : Fin cfg1.W) :
    afterL1 m c (Proc.devRef .tc (Pipeline.arrRef spec1 w)) = (Layer1.dat (inL1 m) c).arrAt w cfg1.N := by
  unfold afterL1; exact Pipeline.withArrays_arr spec1 launch1.win.arr_inj c _ _ w
theorem afterL1_of_ne (c : Dev nD) (b : Ref sig .tc) (hb : ∀ w, Pipeline.arrRef spec1 w ≠ b) :
    afterL1 m c (Proc.devRef .tc b) = atL1 m c (Proc.devRef .tc b) := by
  unfold afterL1; exact Pipeline.withArrays_of_ne spec1 c _ _ b hb
abbrev outL1 : (c : Dev nD) → (b : Ref sig .tc) → Buf (Elt F) ((c : Thread nD τ).loc b) := fun c b => afterL1 m c b
theorem exitL1_arr (c : Dev nD) (w : Fin cfg1.W) : (Layer1.dat (inL1 m) c).arrAt w cfg1.N = outL1 m c (Pipeline.arrRef spec1 w) :=
  (afterL1_arr m c w).symm
theorem exitL1_rest (c : Dev nD) : ∀ b, b ∉ Finset.univ.image (Pipeline.arrRef spec1) → outL1 m c b = inL1 m c b :=
  fun b hb => afterL1_of_ne m c b fun w e => hb (Finset.mem_image.mpr ⟨w, Finset.mem_univ _, e⟩)

/-! ## A host line changes only the buffer it writes -/

/-- Laying b1 out as a row writes `main_v0` only. -/
theorem atL0_of_ne (c : Dev nD) (b : Ref sig .tc) (hb : b ≠ main_v0) : atL0 m c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))
/-- Laying b2 out as a row writes `main_v2` only. -/
theorem atL1_of_ne (c : Dev nD) (b : Ref sig .tc) (hb : b ≠ main_v2) : atL1 m c (Proc.devRef .tc b) = afterL0 m c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ## The proof data family and the thread state -/

/-- No pipeline has a prefetched table. -/
abbrev adm : (p : Fin 2) → (pcfgs (F := F) p).Adm := fun p => (cfgs p).toPCfg_adm
/-- Each layer's proof data at its region's entry contents, as a literal match on the pipeline's number. -/
def pdats : (p : Fin 2) → (c : Dev nD) → Dat τ (Elt F) Unit ℕ (UR sig nD τ) ℕ (Pipeline.pin (pcfgs (F := F)) adm p) c
  | ⟨0, _⟩ => fun c => Layer0.dat (inL0 m) c
  | ⟨1, _⟩ => fun c => Layer1.dat (inL1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev rest (c : Dev nD) : sProp 𝕄 := iprop((∃ r, prngReg c r) ∗ ∃ W, owes (c : Thread nD τ) (0 : CellTallies nD τ sig Unit) W)
/-- A stretch of host lines as a segment over the unscoped buffers from the contents `W`, `rest` riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-- Neither host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the core's `owes` apart: every unscoped buffer at the last contents, the generator register
    at some state. -/
abbrev lastState (c : Dev nD) : sProp 𝕄 := iprop(StableHlo.held (c : Thread nD τ) (Pipeline.ucRefs τ sig) (afterL1 m c) ∗ ∃ r, prngReg c r)

/-! ## The regions as segments -/

set_option backward.isDefEq.respectTransparency.types false in
/-- Layer 0's region as a segment of @main. It is entered with every unscoped buffer at `inL0` and left with them at
    `outL0`: the four arrays of the layer are split out of the unscoped buffers at entry and joined back at exit, the
    output array then holding what the write-backs left; the generator register goes into the region's invariant and comes
    back out; the core owes nothing and the kernel has no semaphore of its own. -/
def layer0Seg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Layer0.body_obligation (inL0 m) c).loose
  hwaits := Pipeline.hwaits_of_owed_zero _ _ _ _ L lv 0 fun _ _ => rfl
  pre c := iprop(StableHlo.held (c : Thread nD τ) (Pipeline.ucRefs τ sig) (atL0 m c) ∗ rest c)
  post c := iprop(StableHlo.held (c : Thread nD τ) (Pipeline.ucRefs τ sig) (afterL0 m c) ∗ rest c)
  X c := iprop(∃ r, prngReg c r)
  Y c := iprop(∃ r, prngReg c r)
  Z c := Pipeline.unscopedRest (Ix := Unit) (Name := ℕ) (U := UR sig nD τ) (Lvl := ℕ) spec0 c (inL0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (inL0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (Layer0.hin (inL0 m) c)
    show (_ : sProp 𝕄) ⊢ _
    unfold Pipeline.ΦA
    iintro ⟨Hp, -, Hr⟩
    isplitl [Hr]; · iexact Hr
    iexact Hp
  hout c := by
    refine BI.Entails.trans (Layer0.hout (inL0 m) c) ?_
    show (_ : sProp 𝕄) ⊢ _
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (inL0 m c) (outL0 m c) ((pdats m 0 c).arrAt · cfg0.N) (exitL0_arr m c) (exitL0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 1's region as a segment of @main. It is entered with every unscoped buffer at `inL1` and left with them at
    `outL1`: the four arrays of the layer are split out of the unscoped buffers at entry and joined back at exit, the
    output array then holding what the write-backs left; the generator register goes into the region's invariant and comes
    back out; the core owes nothing and the kernel has no semaphore of its own. -/
def layer1Seg : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Layer1.body_obligation (inL1 m) c).loose
  hwaits := Pipeline.hwaits_of_owed_zero _ _ _ _ L lv 1 fun _ _ => rfl
  pre c := iprop(StableHlo.held (c : Thread nD τ) (Pipeline.ucRefs τ sig) (atL1 m c) ∗ rest c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (inL1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (inL1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (Layer1.hin (inL1 m) c)
    show (_ : sProp 𝕄) ⊢ _
    unfold Pipeline.ΦA
    iintro ⟨Hp, -, Hr⟩
    isplitl [Hr]; · iexact Hr
    iexact Hp
  hout c := by
    refine BI.Entails.trans (Layer1.hout (inL1 m) c) ?_
    show (_ : sProp 𝕄) ⊢ _
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (inL1 m c) (outL1 m c) ((pdats m 1 c).arrAt · cfg1.N) (exitL1_arr m c) (exitL1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m) () defs₀ 𝒱₀ L lv) :=
  [ .host (hostSeg hostOps0 hostOps0_sub hostOps0_fresh (atLaunch m)),
    .region (layer0Seg m),
    .host (hostSeg hostOps1 hostOps1_sub hostOps1_fresh (afterL0 m)),
    .region (layer1Seg m) ]
/-- @main is the run of the segments. -/
theorem main_run (c : Dev nD) : main (F := F) c = Pipeline.Seg.run (segs m) := (main_chain c).trans (by chain_rfl)

set_option backward.isDefEq.respectTransparency.types false in
/-- THE RUN. From any memory `m` with zero counters and any generator registers, every weakly fair execution of @main
    terminates, nothing faulting, and the final memory holds every unscoped buffer at the last contents `afterL1 m c`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = afterL1 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ rest c)) (Tₙ := lastState m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = afterL1 m c b)
    (hfin := fun c s' => by
      iintro ⟨⟨Hh, -⟩, HSI⟩
      unfold StableHlo.held
      imodintro
      iapply (pointsTo_read_all (Pipeline.ucRefs τ sig) (fun b => (((c : Thread nD τ)).1, b)) (afterL1 m c) s')
      isplitl [Hh] <;> iassumption)
    (hQ := fun s h c => h c)

/-! ## What the last contents hold -/

/-- An argument that no window of the second layer stages and that is not `main_v2`, `main_v0` or an array of the first
    layer other than an input: it ends as launched. The five arguments, one by one. -/
theorem end_arg0 (c : Dev nD) : afterL1 m c (Proc.devRef .tc main_arg0) = m ((c : Thread nD τ).loc main_arg0) :=
  calc afterL1 m c (Proc.devRef .tc main_arg0)
    _ = atL1 m c (Proc.devRef .tc main_arg0) := afterL1_of_ne m c main_arg0 (by decide)
    _ = afterL0 m c (Proc.devRef .tc main_arg0) := atL1_of_ne m c main_arg0 (by decide)
    _ = atL0 m c (Proc.devRef .tc main_arg0) := (afterL0_arr m c 0).trans (((Layer0.dat (inL0 m) c).arrAt_in 0 rfl _).trans (Layer0.A_eq (inL0 m) c 0))
    _ = m ((c : Thread nD τ).loc main_arg0) := atL0_of_ne m c main_arg0 (by decide)
theorem end_arg1 (c : Dev nD) : afterL1 m c (Proc.devRef .tc main_arg1) = m ((c : Thread nD τ).loc main_arg1) :=
  calc afterL1 m c (Proc.devRef .tc main_arg1)
    _ = atL1 m c (Proc.devRef .tc main_arg1) := afterL1_of_ne m c main_arg1 (by decide)
    _ = afterL0 m c (Proc.devRef .tc main_arg1) := atL1_of_ne m c main_arg1 (by decide)
    _ = atL0 m c (Proc.devRef .tc main_arg1) := (afterL0_arr m c 1).trans (((Layer0.dat (inL0 m) c).arrAt_in 1 rfl _).trans (Layer0.A_eq (inL0 m) c 1))
    _ = m ((c : Thread nD τ).loc main_arg1) := atL0_of_ne m c main_arg1 (by decide)
theorem end_arg2 (c : Dev nD) : afterL1 m c (Proc.devRef .tc main_arg2) = m ((c : Thread nD τ).loc main_arg2) :=
  calc afterL1 m c (Proc.devRef .tc main_arg2)
    _ = atL1 m c (Proc.devRef .tc main_arg2) := afterL1_of_ne m c main_arg2 (by decide)
    _ = afterL0 m c (Proc.devRef .tc main_arg2) := atL1_of_ne m c main_arg2 (by decide)
    _ = atL0 m c (Proc.devRef .tc main_arg2) := afterL0_of_ne m c main_arg2 (by decide)
    _ = m ((c : Thread nD τ).loc main_arg2) := atL0_of_ne m c main_arg2 (by decide)
theorem end_arg3 (c : Dev nD) : afterL1 m c (Proc.devRef .tc main_arg3) = m ((c : Thread nD τ).loc main_arg3) :=
  calc afterL1 m c (Proc.devRef .tc main_arg3)
    _ = atL1 m c (Proc.devRef .tc main_arg3) := (afterL1_arr m c 1).trans (((Layer1.dat (inL1 m) c).arrAt_in 1 rfl _).trans (Layer1.A_eq (inL1 m) c 1))
    _ = afterL0 m c (Proc.devRef .tc main_arg3) := atL1_of_ne m c main_arg3 (by decide)
    _ = atL0 m c (Proc.devRef .tc main_arg3) := afterL0_of_ne m c main_arg3 (by decide)
    _ = m ((c : Thread nD τ).loc main_arg3) := atL0_of_ne m c main_arg3 (by decide)
theorem end_arg4 (c : Dev nD) : afterL1 m c (Proc.devRef .tc main_arg4) = m ((c : Thread nD τ).loc main_arg4) :=
  calc afterL1 m c (Proc.devRef .tc main_arg4)
    _ = atL1 m c (Proc.devRef .tc main_arg4) := afterL1_of_ne m c main_arg4 (by decide)
    _ = afterL0 m c (Proc.devRef .tc main_arg4) := atL1_of_ne m c main_arg4 (by decide)
    _ = atL0 m c (Proc.devRef .tc main_arg4) := afterL0_of_ne m c main_arg4 (by decide)
    _ = m ((c : Thread nD τ).loc main_arg4) := atL0_of_ne m c main_arg4 (by decide)

/-- THE FRAME: every weakly fair execution of @main terminates, nothing faulting, and every argument array ends as
    launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (end_arg0 m c),
     (h c _ (mem_uc main_arg1 (by decide))).trans (end_arg1 m c),
     (h c _ (mem_uc main_arg2 (by decide))).trans (end_arg2 m c),
     (h c _ (mem_uc main_arg3 (by decide))).trans (end_arg3 m c),
     (h c _ (mem_uc main_arg4 (by decide))).trans (end_arg4 m c)⟩) (run_all m ρ)

end Cert.Kernel.Net

end
-- ==== Proof.Layer0.Runs.lean ====
/- First dense layer, relu(x · W1ᵀ + b1), computed tile by tile over the grid (i, j, k) = [4, 8, 2]:
   what the two control cases of the tile body share. The body zeroes its accumulator where k = 0, adds the
   product of the current x-tile and W1-tile (contracting the last axis of both), and where k = 1 writes
   max(accumulator + bias row, 0) into the output tile. Here: the tiles of the operands at a grid point, the
   two conditions in closed form over the 64 grid points, where the output tile is live, the staging memrefs
   the body is called on, and the region's resting invariant spelled buffer by buffer. -/
import proofs.«165055_j20504173871714_1_alg».proof.Proof.Gen.KernelIdeal.Launch
import proofs.«165055_j20504173871714_1_alg».proof.Proof.Gen.KernelIdeal.Skeleton
import proofs.«165055_j20504173871714_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Layer0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the layer starts
variable (V : (c : Dev nD) → (b : Ref sig .tc) → Buf (Elt F) ((c : Thread nD τ).loc b))

/-! ## The operands' tiles -/

/-- The tile of operand `w` (0: x, 1: W1, 2: the bias row, 3: the hidden activations) that grid point `t`
    works on, read off the operand as the layer finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x-tile is in its staging buffer at every grid point, whether moved there at this point or left from the
    point before (the tile index is then unchanged), for any proof data that reads `V` and whose body leaves
    the tile in place. -/
theorem found0_of {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- The same for the W1-tile. -/
theorem found1_of {c : Dev nD} (dat : Dat τ (Elt F) Unit ℕ (UR sig nD τ) ℕ cfg0 c) (hA : dat.A 1 = V c (Pipeline.arrRef spec0 1))
    (hafter : ∀ t, dat.after 1 t = tile V c 1 t) (t : Fin cfg0.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- The same for the bias row's tile, which moves only when j changes (at the points with k = 0). -/
theorem found2_of {c : Dev nD} (dat : Dat τ (Elt F) Unit ℕ (UR sig nD τ) ℕ cfg0 c) (hA : dat.A 2 = V c (Pipeline.arrRef spec0 2))
    (hafter : ∀ t, dat.after 2 t = tile V c 2 t) (t : Fin cfg0.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-! ## The two conditions of the tile body -/

/-- "k = 0": the body zeroes the accumulator. -/
abbrev atFirstK (i : grid0.Coords) : Prop := (Scalar.cmpi .ne (Scalar.extui (Scalar.cmpi .eq (BitVec.ofNat 32 (i 2).val) 0#32)) 0#32) = 1#1
/-- k is the last grid axis, of extent 2: k = 0 at the even points. -/
theorem atFirstK_iff : ∀ t : Fin cfg0.N, atFirstK (grid0.coords t) ↔ t.val % 2 = 0 :=
  (by decide +kernel : ∀ t : Fin grid0.N, atFirstK (grid0.coords t) ↔ t.val % 2 = 0)

/-- "k = 1", the last step of the contraction: the body writes the output tile. -/
abbrev atLastK (i : grid0.Coords) : Prop := k0_cond2 i = 1#1
/-- k = 1 at the odd points. -/
theorem atLastK_iff : ∀ t : Fin cfg0.N, atLastK (grid0.coords t) ↔ t.val % 2 = 1 :=
  (by decide +kernel : ∀ t : Fin grid0.N, atLastK (grid0.coords t) ↔ t.val % 2 = 1)

/-! ## Where the operands' tiles are live -/

/-- The three inputs are live at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Where k = 0 the output tile is idle: nothing is stored into it, -/
theorem outIdle_first : ∀ t : Fin cfg0.N, atFirstK (grid0.coords t) → ¬atLastK (grid0.coords t) → cfg0.idle 3 (grid0.coords t) = true := by decide +kernel
/-- and it is not written back to the array. -/
theorem outKept_first : ∀ t : Fin cfg0.N, atFirstK (grid0.coords t) → ¬atLastK (grid0.coords t) → (cfg0.win 3).flush t = false := by decide +kernel
/-- Where k = 1 the output tile is live. -/
theorem outLive_last : ∀ t : Fin cfg0.N, ¬atFirstK (grid0.coords t) → atLastK (grid0.coords t) → cfg0.idle 3 (grid0.coords t) = false := by decide +kernel

/-! ## The memrefs the body is called on -/

/-- One staging buffer of the output tile, through which its contents are stated (any would do). -/
abbrev outV : View sig .tc .vmem S1024x1024 .bf16 := (Memref.whole cc0_stg3_0 : Memref sig .tc .vmem S1024x1024 .bf16).view
/-- The current staging memref of each operand at point `t`, and that it is a whole buffer. -/
abbrev mX (t : Fin cfg0.N) : Memref sig .tc .vmem S1024x1024 .f32 := win0_0.stage (cfg0.slots t 0)
abbrev hX (t : Fin cfg0.N) : (mX t).IsWhole := hstage0_0 ((cfg0.slots t 0).cast nbuf0_0)
abbrev mW (t : Fin cfg0.N) : Memref sig .tc .vmem S1024x1024 .f32 := win0_1.stage (cfg0.slots t 1)
abbrev hW (t : Fin cfg0.N) : (mW t).IsWhole := hstage0_1 ((cfg0.slots t 1).cast nbuf0_1)
abbrev mB (t : Fin cfg0.N) : Memref sig .tc .vmem S1x1024 .f32 := win0_2.stage (cfg0.slots t 2)
abbrev hB (t : Fin cfg0.N) : (mB t).IsWhole := hstage0_2 ((cfg0.slots t 2).cast nbuf0_2)
abbrev mO (t : Fin cfg0.N) : Memref sig .tc .vmem S1024x1024 .bf16 := win0_3.stage (cfg0.slots t 3)
abbrev hO (t : Fin cfg0.N) : (mO t).IsWhole := hstage0_3 ((cfg0.slots t 3).cast nbuf0_3)
/-- The accumulator: a whole buffer of the layer's own, kept from one grid point to the next. -/
abbrev accM : Memref sig .tc .vmem S1024x1024 .f32 := Memref.whole cc0_scratch0
/-- The accumulator as a view: its contents are stated through it. -/
abbrev accV : View sig .tc .vmem S1024x1024 .f32 := accM.view

/-! ## The resting invariant, buffer by buffer -/

/-- The second layer's eight staging buffers and its accumulator, each at some contents: what this layer never touches. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- Between layers the core holds the accumulator at some contents, the other layer's buffers, and the
    generator register at some state. -/
theorem rest_eq (c : Dev nD) :
    (Pipeline.ΦA spec0 c : sProp 𝕄)
      = iprop(iprop((∃ d, owns (c : Thread nD τ) accM fullShare d) ∗ others (F := F) c) ∗ (∃ r, prngReg c r)) := by
  unfold Pipeline.ΦA; rw [scopedRest0_eq]; simp only [accM, owns_whole]; try rfl

end Cert.KernelIdeal.Layer0

end
-- ==== Proof.Layer0.RunA.lean ====
/- First dense layer, the tile body where k = 0 (the first step of the contraction): the accumulator is set to
   zero and the product of the x-tile and the W1-tile is added to it; the output tile is not touched. The run
   below finds what the accumulator is left holding, as the list of blocks stored into it (latest first). -/
import proofs.«165055_j20504173871714_1_alg».proof.Proof.Layer0.Runs

set_option maxRecDepth 16384

noncomputable section

namespace Cert.KernelIdeal.Layer0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The tile body at a point with k = 0, on whole memrefs: the x- and W1-tiles at `xa`, `xw`; the bias row and
    the output tile at any contents, handed back as found; the accumulator at any contents. It ends with the
    accumulator holding the blocks `LS` (the zero block, then zero + xa · xwᵀ over it) written over what it had. -/
noncomputable def runFirst (c : Dev nD) (i : grid0.Coords)
    (a : Memref sig .tc .vmem S1024x1024 .f32) (ha : a.IsWhole) (w : Memref sig .tc .vmem S1024x1024 .f32) (hw : w.IsWhole)
    (b : Memref sig .tc .vmem S1x1024 .f32) (hb : b.IsWhole) (o : Memref sig .tc .vmem S1024x1024 .bf16) (ho : o.IsWhole)
    (acc : Memref sig .tc .vmem S1024x1024 .f32) (hacc : acc.IsWhole) (hc0 : atFirstK i) (hc1 : ¬atLastK i)
    (xa : Vec F S1024x1024 .f32) (xw : Vec F S1024x1024 .f32) :
    { LS : List (View.Piece (Elt F) S1024x1024 .f32) //
      ∀ (xb : Vec F S1x1024 .f32) (xo : Vec F S1024x1024 .bf16) (E : Set ℕ) (K : PUnit → sProp 𝕄),
        iprop(owns (c : Thread nD τ) a fullShare xa ∗ owns (c : Thread nD τ) w fullShare xw ∗ owns (c : Thread nD τ) b fullShare xb
            ∗ owns (c : Thread nD τ) o fullShare xo ∗ (∃ d, owns (c : Thread nD τ) acc fullShare d)
            ∗ (iprop(owns (c : Thread nD τ) a fullShare xa ∗ owns (c : Thread nD τ) w fullShare xw ∗ owns (c : Thread nD τ) b fullShare xb
                ∗ owns (c : Thread nD τ) o fullShare xo ∗ (∃ f, acc.view.loc (c : Thread nD τ) ↦[acc.view.set]{fullShare} acc.view.writes (Elt F) f LS)) -∗ K ⟨⟩))
          ⊢ wp frame (wpE (defs₀ (F := F)) Variants.none c none) E (cc0__linear_relu_kernel i a ha w hw b hb o ho acc hacc) K } := by
  refine ⟨?_, fun xb xo E K => ?run⟩
  case run =>
    simp only [cc0__linear_relu_kernel_eq_skeleton]; unfold cc0__linear_relu_kernel_skel
    unfold owns
    iintro ⟨⟨%fa, %hfa, Ha⟩, ⟨%fw, %hfw, Hw⟩, ⟨%fb, %hfb, Hb⟩, ⟨%fo, %hfo, Ho⟩, ⟨%ds, %fs, -, Hs⟩, Hk⟩
    obtain rfl := ha.eq_unread hfa; obtain rfl := hw.eq_unread hfw
    obtain rfl := hb.eq_unread hfb; obtain rfl := ho.eq_unread hfo
    sl_exec (disch := first | exact hc0 | exact hc1)
    sl_step
    iapply Hk
    isplitl [Ha]
    · iexists _; isplitr; · ipureintro; exact ha.read_unread _
      iexact Ha
    isplitl [Hw]
    · iexists _; isplitr; · ipureintro; exact hw.read_unread _
      iexact Hw
    isplitl [Hb]
    · iexists _; isplitr; · ipureintro; exact hb.read_unread _
      iexact Hb
    isplitl [Ho]
    · iexists _; isplitr; · ipureintro; exact ho.read_unread _
      iexact Ho
    iexists _; iexact Hs

end Cert.KernelIdeal.Layer0

end
-- ==== Proof.Layer0.RunC.lean ====
/- First dense layer, the tile body where k = 1 (the last step of the contraction): the product of the x-tile and
   the W1-tile is added to the accumulator, and max(accumulator + bias row, 0) is written into the output tile.
   The run below finds what the accumulator and the output tile are left holding, as lists of stored blocks. -/
import proofs.«165055_j20504173871714_1_alg».proof.Proof.Layer0.RunA

set_option maxRecDepth 16384

noncomputable section

namespace Cert.KernelIdeal.Layer0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The tile body at a point with k = 1, on whole memrefs: the x-, W1- and bias tiles at `xa`, `xw`, `xb`; the
    accumulator at `xs`, what the point before left; the output tile at any contents. It ends with the output
    tile holding the blocks `LO` and the accumulator the blocks `LS`, written over what they had. -/
noncomputable def runLast (c : Dev nD) (i : grid0.Coords)
    (a : Memref sig .tc .vmem S1024x1024 .f32) (ha : a.IsWhole) (w : Memref sig .tc .vmem S1024x1024 .f32) (hw : w.IsWhole)
    (b : Memref sig .tc .vmem S1x1024 .f32) (hb : b.IsWhole) (o : Memref sig .tc .vmem S1024x1024 .bf16) (ho : o.IsWhole)
    (acc : Memref sig .tc .vmem S1024x1024 .f32) (hacc : acc.IsWhole) (hc0 : ¬atFirstK i) (hc1 : atLastK i)
    (xa : Vec F S1024x1024 .f32) (xw : Vec F S1024x1024 .f32) (xb : Vec F S1x1024 .f32) (xs : Vec F S1024x1024 .f32) :
    Σ' (LO : List (View.Piece (Elt F) S1024x1024 .bf16)), { LS : List (View.Piece (Elt F) S1024x1024 .f32) //
      ∀ (E : Set ℕ) (K : PUnit → sProp 𝕄),
        iprop(owns (c : Thread nD τ) a fullShare xa ∗ owns (c : Thread nD τ) w fullShare xw ∗ owns (c : Thread nD τ) b fullShare xb
            ∗ (∃ d, owns (c : Thread nD τ) o fullShare d) ∗ owns (c : Thread nD τ) acc fullShare xs
            ∗ (iprop(owns (c : Thread nD τ) a fullShare xa ∗ owns (c : Thread nD τ) w fullShare xw ∗ owns (c : Thread nD τ) b fullShare xb
                ∗ (∃ f, o.view.loc (c : Thread nD τ) ↦[o.view.set]{fullShare} o.view.writes (Elt F) f LO)
                ∗ (∃ f, acc.view.loc (c : Thread nD τ) ↦[acc.view.set]{fullShare} acc.view.writes (Elt F) f LS)) -∗ K ⟨⟩))
          ⊢ wp frame (wpE (defs₀ (F := F)) Variants.none c none) E (cc0__linear_relu_kernel i a ha w hw b hb o ho acc hacc) K } := by
  refine ⟨?_, ?_, fun E K => ?run⟩
  case run =>
    simp only [cc0__linear_relu_kernel_eq_skeleton]; unfold cc0__linear_relu_kernel_skel
    unfold owns
    iintro ⟨⟨%fa, %hfa, Ha⟩, ⟨%fw, %hfw, Hw⟩, ⟨%fb, %hfb, Hb⟩, ⟨%d, %fo, -, Ho⟩, ⟨%fs, %hfs, Hs⟩, Hk⟩
    obtain rfl := ha.eq_unread hfa; obtain rfl := hw.eq_unread hfw
    obtain rfl := hb.eq_unread hfb; obtain rfl := hacc.eq_unread hfs
    sl_exec (disch := first | exact hc0 | exact hc1)
    sl_step
    iapply Hk
    isplitl [Ha]
    · iexists _; isplitr; · ipureintro; exact ha.read_unread _
      iexact Ha
    isplitl [Hw]
    · iexists _; isplitr; · ipureintro; exact hw.read_unread _
      iexact Hw
    isplitl [Hb]
    · iexists _; isplitr; · ipureintro; exact hb.read_unread _
      iexact Hb
    isplitl [Ho]; · iexists _; iexact Ho
    iexists _; iexact Hs

end Cert.KernelIdeal.Layer0

end
-- ==== Proof.Layer0.Dat.lean ====
/- First dense layer, relu(x · W1ᵀ + b1), tile by tile: the proof data of its pipeline. What the accumulator and the
   output tile hold after each grid point — the contraction axis has two steps, so after an even point (k = 0) the
   accumulator holds what the first step leaves, and after an odd point (k = 1) what the last step leaves over
   that —, the invariant that carries the accumulator from a point to the next, and the body's obligation at
   every point, by the two cases. -/
import proofs.«165055_j20504173871714_1_alg».proof.Proof.Layer0.RunC

set_option maxRecDepth 16384

noncomputable section

namespace Cert.KernelIdeal.Layer0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each step leaves -/

/-- The blocks the first step stores into the accumulator cover it. -/
theorem accCover_first (c : Dev nD) (i : grid0.Coords)
    (a : Memref sig .tc .vmem S1024x1024 .f32) (ha : a.IsWhole) (w : Memref sig .tc .vmem S1024x1024 .f32) (hw : w.IsWhole)
    (b : Memref sig .tc .vmem S1x1024 .f32) (hb : b.IsWhole) (o : Memref sig .tc .vmem S1024x1024 .bf16) (ho : o.IsWhole)
    (acc : Memref sig .tc .vmem S1024x1024 .f32) (hacc : acc.IsWhole) (hc0 : atFirstK i) (hc1 : ¬atLastK i)
    (xa : Vec F S1024x1024 .f32) (xw : Vec F S1024x1024 .f32) (y : S1024x1024.Idx) :
    ∃ pc ∈ (runFirst c i a ha w hw b hb o ho acc hacc hc0 hc1 xa xw).1, y ∈ pc.1.set :=
  View.cover_of_tiledL (runFirst c i a ha w hw b hb o ho acc hacc hc0 hc1 xa xw).1 S1024x1024.size (by sl_kernel_rfl) y

/-- What the first step leaves in the accumulator: its blocks read back (over contents that do not matter). -/
def accFirst (c : Dev nD) (i : grid0.Coords)
    (a : Memref sig .tc .vmem S1024x1024 .f32) (ha : a.IsWhole) (w : Memref sig .tc .vmem S1024x1024 .f32) (hw : w.IsWhole)
    (b : Memref sig .tc .vmem S1x1024 .f32) (hb : b.IsWhole) (o : Memref sig .tc .vmem S1024x1024 .bf16) (ho : o.IsWhole)
    (acc : Memref sig .tc .vmem S1024x1024 .f32) (hacc : acc.IsWhole) (hc0 : atFirstK i) (hc1 : ¬atLastK i)
    (xa : Vec F S1024x1024 .f32) (xw : Vec F S1024x1024 .f32) : Vec F S1024x1024 .f32 :=
  accV.read (Elt F) (accV.writes (Elt F) accV.junk (runFirst c i a ha w hw b hb o ho acc hacc hc0 hc1 xa xw).1)

/-- The block the last step stores into the output tile covers it. -/
theorem outCover_last (c : Dev nD) (i : grid0.Coords)
    (a : Memref sig .tc .vmem S1024x1024 .f32) (ha : a.IsWhole) (w : Memref sig .tc .vmem S1024x1024 .f32) (hw : w.IsWhole)
    (b : Memref sig .tc .vmem S1x1024 .f32) (hb : b.IsWhole) (o : Memref sig .tc .vmem S1024x1024 .bf16) (ho : o.IsWhole)
    (acc : Memref sig .tc .vmem S1024x1024 .f32) (hacc : acc.IsWhole) (hc0 : ¬atFirstK i) (hc1 : atLastK i)
    (xa : Vec F S1024x1024 .f32) (xw : Vec F S1024x1024 .f32) (xb : Vec F S1x1024 .f32) (xs : Vec F S1024x1024 .f32) (y : S1024x1024.Idx) :
    ∃ pc ∈ (runLast c i a ha w hw b hb o ho acc hacc hc0 hc1 xa xw xb xs).1, y ∈ pc.1.set :=
  View.cover_of_tiledL (runLast c i a ha w hw b hb o ho acc hacc hc0 hc1 xa xw xb xs).1 S1024x1024.size (by sl_kernel_rfl) y

/-- What the last step leaves in the output tile. -/
def outLast (c : Dev nD) (i : grid0.Coords)
    (a : Memref sig .tc .vmem S1024x1024 .f32) (ha : a.IsWhole) (w : Memref sig .tc .vmem S1024x1024 .f32) (hw : w.IsWhole)
    (b : Memref sig .tc .vmem S1x1024 .f32) (hb : b.IsWhole) (o : Memref sig .tc .vmem S1024x1024 .bf16) (ho : o.IsWhole)
    (acc : Memref sig .tc .vmem S1024x1024 .f32) (hacc : acc.IsWhole) (hc0 : ¬atFirstK i) (hc1 : atLastK i)
    (xa : Vec F S1024x1024 .f32) (xw : Vec F S1024x1024 .f32) (xb : Vec F S1x1024 .f32) (xs : Vec F S1024x1024 .f32) : Vec F S1024x1024 .bf16 :=
  outV.read (Elt F) (outV.writes (Elt F) outV.junk (runLast c i a ha w hw b hb o ho acc hacc hc0 hc1 xa xw xb xs).1)

/-- The block the last step stores into the accumulator covers it. -/
theorem accCover_last (c : Dev nD) (i : grid0.Coords)
    (a : Memref sig .tc .vmem S1024x1024 .f32) (ha : a.IsWhole) (w : Memref sig .tc .vmem S1024x1024 .f32) (hw : w.IsWhole)
    (b : Memref sig .tc .vmem S1x1024 .f32) (hb : b.IsWhole) (o : Memref sig .tc .vmem S1024x1024 .bf16) (ho : o.IsWhole)
    (acc : Memref sig .tc .vmem S1024x1024 .f32) (hacc : acc.IsWhole) (hc0 : ¬atFirstK i) (hc1 : atLastK i)
    (xa : Vec F S1024x1024 .f32) (xw : Vec F S1024x1024 .f32) (xb : Vec F S1x1024 .f32) (xs : Vec F S1024x1024 .f32) (y : S1024x1024.Idx) :
    ∃ pc ∈ (runLast c i a ha w hw b hb o ho acc hacc hc0 hc1 xa xw xb xs).2.1, y ∈ pc.1.set :=
  View.cover_of_tiledL (runLast c i a ha w hw b hb o ho acc hacc hc0 hc1 xa xw xb xs).2.1 S1024x1024.size (by sl_kernel_rfl) y

/-- What the last step leaves in the accumulator. -/
def accLast (c : Dev nD) (i : grid0.Coords)
    (a : Memref sig .tc .vmem S1024x1024 .f32) (ha : a.IsWhole) (w : Memref sig .tc .vmem S1024x1024 .f32) (hw : w.IsWhole)
    (b : Memref sig .tc .vmem S1x1024 .f32) (hb : b.IsWhole) (o : Memref sig .tc .vmem S1024x1024 .bf16) (ho : o.IsWhole)
    (acc : Memref sig .tc .vmem S1024x1024 .f32) (hacc : acc.IsWhole) (hc0 : ¬atFirstK i) (hc1 : atLastK i)
    (xa : Vec F S1024x1024 .f32) (xw : Vec F S1024x1024 .f32) (xb : Vec F S1x1024 .f32) (xs : Vec F S1024x1024 .f32) : Vec F S1024x1024 .f32 :=
  accV.read (Elt F) (accV.writes (Elt F) accV.junk (runLast c i a ha w hw b hb o ho acc hacc hc0 hc1 xa xw xb xs).2.1)

/-! ## The accumulator and the output tile after each grid point -/

/-- The grid point before `t` (for an odd `t`: the same (i, j), with k = 0). -/
def before (t : Fin cfg0.N) : Fin cfg0.N := ⟨t.val - 1, Nat.lt_of_le_of_lt (Nat.sub_le _ _) t.isLt⟩

theorem before_even (t : Fin cfg0.N) (h : ¬t.val % 2 = 0) : (before t).val % 2 = 0 := by
  unfold before; dsimp only; omega

theorem odd_of_not_even (t : Fin cfg0.N) (h : ¬t.val % 2 = 0) : t.val % 2 = 1 := by omega

/-- After an even point (k = 0): the accumulator holds what the first step makes of the point's x- and W1-tiles. -/
def accEven (c : Dev nD) (t : Fin cfg0.N) (h : t.val % 2 = 0) : Vec F S1024x1024 .f32 :=
  accFirst c (grid0.coords t) (mX t) (hX t) (mW t) (hW t) (mB t) (hB t) (mO t) (hO t) accM (Memref.isWhole_whole _) ((atFirstK_iff t).mpr h) (fun h' => by have := (atLastK_iff t).mp h'; omega) (tile V c 0 t) (tile V c 1 t)

/-- After an odd point (k = 1): what the last step makes of the point's tiles over what the point before left. -/
def accOdd (c : Dev nD) (t : Fin cfg0.N) (h : ¬t.val % 2 = 0) : Vec F S1024x1024 .f32 :=
  accLast c (grid0.coords t) (mX t) (hX t) (mW t) (hW t) (mB t) (hB t) (mO t) (hO t) accM (Memref.isWhole_whole _) (fun h' => h ((atFirstK_iff t).mp h')) ((atLastK_iff t).mpr (odd_of_not_even t h))
    (tile V c 0 t) (tile V c 1 t) (tile V c 2 t) (accEven V c (before t) (before_even t h))

/-- The accumulator after grid point `t`. -/
def accAt (c : Dev nD) (t : Fin cfg0.N) : Vec F S1024x1024 .f32 :=
  if h : t.val % 2 = 0 then accEven V c t h else accOdd V c t h

/-- The output tile after an odd point: max(accumulator + bias row, 0) of the finished contraction. -/
def outOdd (c : Dev nD) (t : Fin cfg0.N) (h : ¬t.val % 2 = 0) : Vec F S1024x1024 .bf16 :=
  outLast c (grid0.coords t) (mX t) (hX t) (mW t) (hW t) (mB t) (hB t) (mO t) (hO t) accM (Memref.isWhole_whole _) (fun h' => h ((atFirstK_iff t).mp h')) ((atLastK_iff t).mpr (odd_of_not_even t h))
    (tile V c 0 t) (tile V c 1 t) (tile V c 2 t) (accEven V c (before t) (before_even t h))

/-- The output tile after grid point `t`; at an even point nothing is stored there and nothing reads this value. -/
def outAt (c : Dev nD) (t : Fin cfg0.N) : Vec F S1024x1024 .bf16 :=
  if h : t.val % 2 = 0 then outV.read (Elt F) outV.junk else outOdd V c t h

theorem accAt_even (c : Dev nD) (t : Fin cfg0.N) (h : t.val % 2 = 0) : accAt V c t = accEven V c t h := dif_pos h
theorem accAt_odd (c : Dev nD) (t : Fin cfg0.N) (h : ¬t.val % 2 = 0) : accAt V c t = accOdd V c t h := dif_neg h
theorem outAt_odd (c : Dev nD) (t : Fin cfg0.N) (h : ¬t.val % 2 = 0) : outAt V c t = outOdd V c t h := dif_neg h

/-! ## The invariant from point to point -/

/-- Before the first point: the resting invariant. Before point `n + 1`: the accumulator at what point `n` left
    in it, the other layer's buffers and the generator register as they rest. -/
def carried (c : Dev nD) : (n : ℕ) → n ≤ cfg0.N → sProp 𝕄
  | 0, _ => Pipeline.ΦA spec0 c
  | n + 1, hn => iprop(iprop(owns (c : Thread nD τ) accM fullShare (accAt V c ⟨n, hn⟩) ∗ others (F := F) c) ∗ (∃ r, prngReg c r))

theorem carried_zero (c : Dev nD) (n : ℕ) (h : n ≤ cfg0.N) (hz : n = 0) : carried V c n h = Pipeline.ΦA spec0 c := by
  subst hz; rfl

theorem carried_succ (c : Dev nD) (n : ℕ) (hn : n < cfg0.N) :
    carried V c (n + 1) hn = iprop(iprop(owns (c : Thread nD τ) accM fullShare (accAt V c ⟨n, hn⟩) ∗ others (F := F) c) ∗ (∃ r, prngReg c r)) := rfl

theorem carried_pos (c : Dev nD) (n : ℕ) (h : n ≤ cfg0.N) (hz : n ≠ 0) :
    carried V c n h = iprop(iprop(owns (c : Thread nD τ) accM fullShare (accAt V c ⟨n - 1, by omega⟩) ∗ others (F := F) c) ∗ (∃ r, prngReg c r)) := by
  cases n with
  | zero => exact absurd rfl hz
  | succ n => rfl

/-! ## The proof data -/

/-- The layer's pipeline on core `c`: the operands as the layer finds them; after the body at point `t` each input's
    buffer still at its tile and the output's at `outAt`; the accumulator carried by the invariant; full shares,
    nothing owed. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => outAt V c t
  Φ t := carried V c t.val (Nat.le_of_lt_succ t.isLt)
  q _ := fullShare
  owed _ := 0

theorem A_eq (c : Dev nD) (w : Fin cfg0.W) : (dat V c).A w = V c (Pipeline.arrRef spec0 w) := by
  dsimp only [dat]

theorem carried_castSucc (c : Dev nD) (t : Fin cfg0.N) :
    (dat V c).Φ t.castSucc = carried V c t.val (Nat.le_of_lt t.isLt) := by
  dsimp only [dat]; simp only [Fin.coe_castSucc]

theorem after0 (c : Dev nD) (t : Fin cfg0.N) : (dat V c).after 0 t = tile V c 0 t := by dsimp only [dat]
theorem after1 (c : Dev nD) (t : Fin cfg0.N) : (dat V c).after 1 t = tile V c 1 t := by dsimp only [dat]
theorem after2 (c : Dev nD) (t : Fin cfg0.N) : (dat V c).after 2 t = tile V c 2 t := by dsimp only [dat]
theorem after3 (c : Dev nD) (t : Fin cfg0.N) : (dat V c).after 3 t = outAt V c t := by dsimp only [dat]

/-- The body finds each input's tile in its current buffer at every point. -/
theorem found0 (c : Dev nD) (t : Fin cfg0.N) (d) : (dat V c).before 0 t d = tile V c 0 t :=
  found0_of V (dat V c) (A_eq V c 0) (after0 V c) t d
theorem found1 (c : Dev nD) (t : Fin cfg0.N) (d) : (dat V c).before 1 t d = tile V c 1 t :=
  found1_of V (dat V c) (A_eq V c 1) (after1 V c) t d
theorem found2 (c : Dev nD) (t : Fin cfg0.N) (d) : (dat V c).before 2 t d = tile V c 2 t :=
  found2_of V (dat V c) (A_eq V c 2) (after2 V c) t d

/-! ## The body at a grid point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (mX t) fullShare ((dat V c).before 0 t d))
    ∗ (∃ d, owns (c : Thread nD τ) (mW t) fullShare ((dat V c).before 1 t d))
    ∗ (∃ d, owns (c : Thread nD τ) (mB t) fullShare ((dat V c).before 2 t d))
    ∗ (∃ d, owns (c : Thread nD τ) (mO t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point. The inputs' buffers hold their tiles. At an even point (k = 0) the first step runs: the
    accumulator is taken at whatever it holds (the resting invariant's at the very first point, else what the point
    before left) and handed back at `accEven`; the output tile is idle and goes back as found. At an odd point
    (k = 1) the last step runs over what the point before left in the accumulator. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [found0, found1, found2]
  rw [show (dat V c).owesAt () t.succ = (dat V c).owesAt () t.castSucc from rfl]
  rw [show (dat V c).Φ t.succ = carried V c (t.val + 1) t.isLt from rfl, carried_succ]
  rw [show (dat V c).leavesExact 0 t = owns (c : Thread nD τ) (mX t) fullShare ((dat V c).after 0 t) from by
    unfold Dat.leavesExact; rw [live0 t], after0]
  rw [show (dat V c).leavesExact 1 t = owns (c : Thread nD τ) (mW t) fullShare ((dat V c).after 1 t) from by
    unfold Dat.leavesExact; rw [live1 t], after1]
  rw [show (dat V c).leavesExact 2 t = owns (c : Thread nD τ) (mB t) fullShare ((dat V c).after 2 t) from by
    unfold Dat.leavesExact; rw [live2 t], after2]
  have hN : t.val < 64 := lt_of_lt_of_eq t.isLt (show cfg0.N = 64 from N_0)
  by_cases h0 : t.val % 2 = 0
  · have hF : atFirstK (grid0.coords t) := (atFirstK_iff t).mpr h0
    have hL : ¬atLastK (grid0.coords t) := fun h' => by have := (atLastK_iff t).mp h'; omega
    rw [Dat.leavesExact_idle (dat V c) 3 t (outIdle_first t hF hL) (outKept_first t hF hL)]
    rw [show (⟨t.val, t.isLt⟩ : Fin cfg0.N) = t from rfl, accAt_even V c t h0]
    unfold accEven accFirst; (try dsimp only)
    by_cases hz : t.val = 0
    · rw [carried_castSucc V c t, carried_zero V c _ _ hz, rest_eq]
      iintro ⟨⟨⟨Hs, Hr⟩, Hg⟩, Hd, ⟨%d0, H0⟩, ⟨%d1, H1⟩, ⟨%d2, H2⟩, ⟨%d3, H3⟩⟩
      iapply ((runFirst c (grid0.coords t) _ _ _ _ _ _ _ _ _ _ hF hL (tile V c 0 t) (tile V c 1 t)).2 _ _ Set.univ _)
      isplitl [H0]; · iexact H0
      isplitl [H1]; · iexact H1
      isplitl [H2]; · iexact H2
      isplitl [H3]; · iexact H3
      isplitl [Hs]; · iexact Hs
      iintro ⟨H0, H1, H2, H3, ⟨%es, Hs⟩⟩
      isplitl [Hs Hr Hg]
      · isplitl [Hs Hr]
        · isplitl [Hs]
          · unfold owns; iexists _; isplitr
            swap; · iexact Hs
            ipureintro; exact View.read_writes_of_cover _ _ _ _ _ (accCover_first c _ _ _ _ _ _ _ _ _ _ _ _ _ _ _)
          iexact Hr
        iexact Hg
      isplitl [Hd]; · iexact Hd
      isplitl [H0]; · iexact H0
      isplitl [H1]; · iexact H1
      isplitl [H2]; · iexact H2
      iexists _; iexact H3
    · rw [carried_castSucc V c t, carried_pos V c _ _ hz]
      iintro ⟨⟨⟨Hs, Hr⟩, Hg⟩, Hd, ⟨%d0, H0⟩, ⟨%d1, H1⟩, ⟨%d2, H2⟩, ⟨%d3, H3⟩⟩
      iapply ((runFirst c (grid0.coords t) _ _ _ _ _ _ _ _ _ _ hF hL (tile V c 0 t) (tile V c 1 t)).2 _ _ Set.univ _)
      isplitl [H0]; · iexact H0
      isplitl [H1]; · iexact H1
      isplitl [H2]; · iexact H2
      isplitl [H3]; · iexact H3
      isplitl [Hs]; · iexists _; iexact Hs
      iintro ⟨H0, H1, H2, H3, ⟨%es, Hs⟩⟩
      isplitl [Hs Hr Hg]
      · isplitl [Hs Hr]
        · isplitl [Hs]
          · unfold owns; iexists _; isplitr
            swap; · iexact Hs
            ipureintro; exact View.read_writes_of_cover _ _ _ _ _ (accCover_first c _ _ _ _ _ _ _ _ _ _ _ _ _ _ _)
          iexact Hr
        iexact Hg
      isplitl [Hd]; · iexact Hd
      isplitl [H0]; · iexact H0
      isplitl [H1]; · iexact H1
      isplitl [H2]; · iexact H2
      iexists _; iexact H3
  · have hF : ¬atFirstK (grid0.coords t) := fun h' => h0 ((atFirstK_iff t).mp h')
    have hL : atLastK (grid0.coords t) := (atLastK_iff t).mpr (odd_of_not_even t h0)
    have hz : t.val ≠ 0 := fun e => h0 (by rw [e])
    rw [show (dat V c).leavesExact 3 t = owns (c : Thread nD τ) (mO t) fullShare ((dat V c).after 3 t) from by
      unfold Dat.leavesExact; rw [outLive_last t hF hL], after3]
    rw [show (⟨t.val, t.isLt⟩ : Fin cfg0.N) = t from rfl, accAt_odd V c t h0, outAt_odd V c t h0]
    rw [carried_castSucc V c t, carried_pos V c _ _ hz]
    rw [show (⟨t.val - 1, by omega⟩ : Fin cfg0.N) = before t from rfl, accAt_even V c (before t) (before_even t h0)]
    unfold accOdd outOdd accLast outLast; (try dsimp only)
    iintro ⟨⟨⟨Hs, Hr⟩, Hg⟩, Hd, ⟨%d0, H0⟩, ⟨%d1, H1⟩, ⟨%d2, H2⟩, ⟨%d3, H3⟩⟩
    iapply ((runLast c (grid0.coords t) _ _ _ _ _ _ _ _ _ _ hF hL (tile V c 0 t) (tile V c 1 t) (tile V c 2 t) _).2.2 Set.univ _)
    isplitl [H0]; · iexact H0
    isplitl [H1]; · iexact H1
    isplitl [H2]; · iexact H2
    isplitl [H3]; · iexists _; iexact H3
    isplitl [Hs]; · iexact Hs
    iintro ⟨H0, H1, H2, ⟨%e3, H3⟩, ⟨%es, Hs⟩⟩
    isplitl [Hs Hr Hg]
    · isplitl [Hs Hr]
      · isplitl [Hs]
        · unfold owns; iexists _; isplitr
          swap; · iexact Hs
          ipureintro; exact View.read_writes_of_cover _ _ _ _ _ (accCover_last c _ _ _ _ _ _ _ _ _ _ _ _ _ _ _ _ _)
        iexact Hr
      iexact Hg
    isplitl [Hd]; · iexact Hd
    isplitl [H0]; · iexact H0
    isplitl [H1]; · iexact H1
    isplitl [H2]; · iexact H2
    unfold owns; iexists _; isplitr
    swap; · iexact H3
    ipureintro; exact View.read_writes_of_cover _ _ _ _ _ (outCover_last c _ _ _ _ _ _ _ _ _ _ _ _ _ _ _ _ _)

/-- The body's obligation, at every point. -/
theorem body_obligation (c : Dev nD) : BodyObligation (dat (F := F) V c) (defs₀ (F := F)) Variants.none () Set.univ := fun t => by
  rw [bigSep_W0, bigSep_W0]
  exact sound_body V c t

/-- The resting invariant is the invariant before the first point. -/
theorem hin (c : Dev nD) : (Pipeline.ΦA spec0 c : sProp 𝕄) ⊢ (dat V c).Φ 0 := by
  rw [show (dat V c).Φ 0 = carried V c 0 (Nat.zero_le _) from rfl, carried_zero V c 0 _ rfl]
  try exact Idealize.SL.BI.Entails.refl _

/-- After any point the invariant gives the resting invariant back: what the accumulator holds is forgotten. -/
theorem rest_of_carried (c : Dev nD) (t : Fin (cfg0.N + 1)) (ht : t.val ≠ 0) : (dat V c).Φ t ⊢ (Pipeline.ΦA spec0 c : sProp 𝕄) := by
  rw [show (dat V c).Φ t = carried V c t.val (Nat.le_of_lt_succ t.isLt) from rfl, carried_pos V c _ _ ht, rest_eq]
  iintro ⟨⟨Hs, Hr⟩, Hg⟩
  isplitl [Hs Hr]
  · isplitl [Hs]
    · iexists _; iexact Hs
    iexact Hr
  iexact Hg

/-- In particular after the last point. -/
theorem hout (c : Dev nD) : (dat V c).Φ (Fin.last cfg0.N) ⊢ (Pipeline.ΦA spec0 c : sProp 𝕄) :=
  rest_of_carried V c _ (by rw [Fin.val_last]; have : cfg0.N = 64 := N_0; omega)

end Cert.KernelIdeal.Layer0

end
-- ==== Proof.Layer1.Runs.lean ====
/-
# The second dense layer's region: what its three control cases share

The region runs one body over the 64 points (i, j, k) of the grid 4 × 2 × 8. At a point the body adds the product of
the (i, k) block of the hidden array with the transposed (j, k) block of the weights into a 1024 × 1024 accumulator;
at k = 0 it first clears the accumulator, at k = 7 it writes relu(accumulator + bias block) into the (i, j) block of
the result. Here: the blocks of the region's arrays, read off the contents the region is entered with (a parameter);
that each input buffer holds its block at every point; the two conditions as residues of the point number modulo 8;
where the result's window is idle; the memrefs the body is called with; and the region's entry invariant with the
accumulator's buffer singled out.
-/
import proofs.«165055_j20504173871714_1_alg».proof.Proof.Gen.KernelIdeal.Launch
import proofs.«165055_j20504173871714_1_alg».proof.Proof.Gen.KernelIdeal.Skeleton
import proofs.«165055_j20504173871714_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden array's window (0): its current buffer holds its (i, k) block at every point, for any proof data whose
    array is the entry contents and whose body leaves the block in place. The block index moves at every point, so the
    block is fetched at every point. -/
theorem held0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The weights' window (1): its current buffer holds its (j, k) block at every point. -/
theorem held1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The bias row's window (2): its block index (0, j) moves only when k returns to 0, and between those points the
    buffer keeps the block: it holds its block at every point. -/
theorem held2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's two conditions -/

/-- "k = 0": the condition under which the body clears the accumulator, as the body computes it from the point's
    coordinates. -/
abbrev atFirstK (i : grid1.Coords) : Prop := (Scalar.cmpi .ne (Scalar.extui (Scalar.cmpi .eq (BitVec.ofNat 32 (i 2).val) 0#32)) 0#32) = 1#1
/-- k is the point number modulo 8: the condition holds at the points ≡ 0 (mod 8). -/
theorem atFirstK_iff : ∀ t : Fin cfg1.N, atFirstK (grid1.coords t) ↔ t.val % 8 = 0 :=
  (by decide +kernel : ∀ t : Fin grid1.N, atFirstK (grid1.coords t) ↔ t.val % 8 = 0)

/-- "k = 7": the condition under which the body writes the result's block. -/
abbrev atLastK (i : grid1.Coords) : Prop := k1_cond2 i = 1#1
/-- It holds at the points ≡ 7 (mod 8). -/
theorem atLastK_iff : ∀ t : Fin cfg1.N, atLastK (grid1.coords t) ↔ t.val % 8 = 7 :=
  (by decide +kernel : ∀ t : Fin grid1.N, atLastK (grid1.coords t) ↔ t.val % 8 = 7)

/-! ## Where the windows are idle -/

/-- The three inputs are never idle. -/
theorem live0 : ∀ t : Fin cfg1.N, cfg1.idle 0 (grid1.coords t) = false := fun _ => rfl
theorem live1 : ∀ t : Fin cfg1.N, cfg1.idle 1 (grid1.coords t) = false := fun _ => rfl
theorem live2 : ∀ t : Fin cfg1.N, cfg1.idle 2 (grid1.coords t) = false := fun _ => rfl
/-- Where k ≠ 7 the result's window is idle: the body stores nothing into it, -/
theorem idle3 : ∀ t : Fin cfg1.N, ¬atLastK (grid1.coords t) → cfg1.idle 3 (grid1.coords t) = true := by decide +kernel
/-- and its block is not written back there. -/
theorem noFlush3 : ∀ t : Fin cfg1.N, ¬atLastK (grid1.coords t) → (cfg1.win 3).flush t = false := by decide +kernel
/-- Where k = 7 the result's window is live. -/
theorem live3 : ∀ t : Fin cfg1.N, atLastK (grid1.coords t) → cfg1.idle 3 (grid1.coords t) = false := by decide +kernel

/-! ## The memrefs the body is called with -/

/-- One staging buffer of the result's window, through which its contents are stated (the choice does not matter). -/
abbrev outView : View sig .tc .vmem S1024x1024 .f32 := (Memref.whole cc1_stg3_0 : Memref sig .tc .vmem S1024x1024 .f32).view
/-- Each window's current staging memref at point `t`, and its wholeness. -/
abbrev aRef (t : Fin cfg1.N) : Memref sig .tc .vmem S1024x1024 .bf16 := win1_0.stage (cfg1.slots t 0)
abbrev aRef_whole (t : Fin cfg1.N) : (aRef t).IsWhole := hstage1_0 ((cfg1.slots t 0).cast nbuf1_0)
abbrev wRef (t : Fin cfg1.N) : Memref sig .tc .vmem S1024x1024 .f32 := win1_1.stage (cfg1.slots t 1)
abbrev wRef_whole (t : Fin cfg1.N) : (wRef t).IsWhole := hstage1_1 ((cfg1.slots t 1).cast nbuf1_1)
abbrev bRef (t : Fin cfg1.N) : Memref sig .tc .vmem S1x1024 .f32 := win1_2.stage (cfg1.slots t 2)
abbrev bRef_whole (t : Fin cfg1.N) : (bRef t).IsWhole := hstage1_2 ((cfg1.slots t 2).cast nbuf1_2)
abbrev oRef (t : Fin cfg1.N) : Memref sig .tc .vmem S1024x1024 .f32 := win1_3.stage (cfg1.slots t 3)
abbrev oRef_whole (t : Fin cfg1.N) : (oRef t).IsWhole := hstage1_3 ((cfg1.slots t 3).cast nbuf1_3)
/-- The accumulator: a whole scoped buffer of the kernel's own, passed beside the windows and carried from point to point. -/
abbrev accRef : Memref sig .tc .vmem S1024x1024 .f32 := Memref.whole cc1_scratch0
/-- The accumulator as a view: what it holds is stated through it. -/
abbrev accView : View sig .tc .vmem S1024x1024 .f32 := accRef.view

/-! ## The entry invariant -/

/-- The core's nine scoped buffers that belong to the first layer's region (its eight staging buffers and its
    accumulator), each at some contents: this region never touches them. -/
def foreign (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_scratch0), ((c : Thread nD τ).loc cc0_scratch0) ↦{fullShare} f))

/-- The region's entry invariant, the accumulator singled out: the nine foreign buffers, the accumulator's memref
    owned at some contents, and the generator register at some state. -/
theorem entryInv_eq (c : Dev nD) :
    (Pipeline.ΦA spec1 c : sProp 𝕄)
      = iprop(iprop(foreign (F := F) c ∗ (∃ d, owns (c : Thread nD τ) accRef fullShare d)) ∗ (∃ r, prngReg c r)) := by
  unfold Pipeline.ΦA; rw [scopedRest1_eq]; simp only [accRef, owns_whole]; unfold foreign
  refine congrArg (fun X : sProp 𝕄 => iprop(X ∗ (∃ r, prngReg c r))) (BI.equiv_iff.mp ⟨?_, ?_⟩)
  · show (_ : sProp 𝕄) ⊢ _
    iintro ⟨H1, H2, H3, H4, H5, H6, H7, H8, H9, HS⟩
    isplitr [HS]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iexact HS
  · show (_ : sProp 𝕄) ⊢ _
    iintro ⟨⟨H1, H2, H3, H4, H5, H6, H7, H8, H9⟩, HS⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS

end Cert.KernelIdeal.Layer1

end
-- ==== Proof.Layer1.RunFirst.lean ====
/-
# The body at a point with k = 0

The accumulator is cleared and the first product is added: whatever the accumulator held before, it ends at
0 + a·wᵀ of the point's blocks. The result's buffer is not touched.
-/
import proofs.«165055_j20504173871714_1_alg».proof.Proof.Layer1.Runs

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body where k = 0 (the clearing branch taken, the writing branch not). On whole memrefs — the three inputs at
    their contents, the result's buffer at contents it hands back untouched, the accumulator at anything — the body
    runs to a state with the inputs and the result's buffer as they were and the accumulator with the pieces `LS`
    written into it: first the zero block, then over it the zero block read back plus the product of the blocks.
    The result's buffer gets no piece. -/
noncomputable def runFirst (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : atFirstK i) (hc1 : ¬atLastK i)
    (x0 : Vec F S1024x1024 .bf16) (x1 : Vec F S1024x1024 .f32) (x2 : Vec F S1x1024 .f32) :
    Σ' (LO : List (View.Piece (Elt F) S1024x1024 .f32)), { LS : List (View.Piece (Elt F) S1024x1024 .f32) //
      ∀ (xo : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc1__linear_relu_kernel i arg3 harg3 arg4 harg4 arg5 harg5 arg6 harg6 arg7 harg7) K } := by
  refine ⟨[], ?_, fun xo E K => ?run⟩
  case run =>
    simp only [cc1__linear_relu_kernel_eq_skeleton]; unfold cc1__linear_relu_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Layer1

end
-- ==== Proof.Layer1.RunMid.lean ====
/-
# The body at a point with 0 < k < 7

One more product is added to the accumulator: it ends at what it held plus a·wᵀ of the point's blocks. The result's
buffer is not touched.
-/
import proofs.«165055_j20504173871714_1_alg».proof.Proof.Layer1.RunFirst

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body where 0 < k < 7 (neither branch taken). On whole memrefs — the three inputs at their contents, the
    result's buffer at contents it hands back untouched, the accumulator at the contents `xs` the point before left —
    the body runs to a state with the inputs and the result's buffer as they were and the accumulator with the one
    piece `LS` written: `xs` plus the product of the blocks. -/
noncomputable def runMid (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬atFirstK i) (hc1 : ¬atLastK i)
    (x0 : Vec F S1024x1024 .bf16) (x1 : Vec F S1024x1024 .f32) (x2 : Vec F S1x1024 .f32) (xs : Vec F S1024x1024 .f32) :
    Σ' (LO : List (View.Piece (Elt F) S1024x1024 .f32)), { LS : List (View.Piece (Elt F) S1024x1024 .f32) //
      ∀ (xo : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc1__linear_relu_kernel i arg3 harg3 arg4 harg4 arg5 harg5 arg6 harg6 arg7 harg7) K } := by
  refine ⟨[], ?_, fun xo E K => ?run⟩
  case run =>
    simp only [cc1__linear_relu_kernel_eq_skeleton]; unfold cc1__linear_relu_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Layer1

end
-- ==== Proof.Layer1.RunLast.lean ====
/-
# The body at a point with k = 7

The last product is added to the accumulator, and relu(accumulator + bias block) is written into the result's buffer.
-/
import proofs.«165055_j20504173871714_1_alg».proof.Proof.Layer1.RunMid

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body where k = 7 (the clearing branch not taken, the writing branch taken). On whole memrefs — the three
    inputs at their contents, the result's buffer at anything, the accumulator at the contents `xs` the point before
    left — the body runs to a state with the inputs as they were, the accumulator with the one piece `LS` written
    (`xs` plus the product of the blocks) and the result's buffer with the one piece `LO` written (relu of that sum
    read back plus the bias row). -/
noncomputable def runLast (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬atFirstK i) (hc1 : atLastK i)
    (x0 : Vec F S1024x1024 .bf16) (x1 : Vec F S1024x1024 .f32) (x2 : Vec F S1x1024 .f32) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc1__linear_relu_kernel i arg3 harg3 arg4 harg4 arg5 harg5 arg6 harg6 arg7 harg7) K } := by
  refine ⟨?_, ?_, fun E K => ?run⟩
  case run =>
    simp only [cc1__linear_relu_kernel_eq_skeleton]; unfold cc1__linear_relu_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Layer1

end
-- ==== Proof.Layer1.Dat.lean ====
/-
# The second dense layer's region: what it leaves point by point, and its proof data

What each of the three control cases leaves in the accumulator and in the result's buffer, the accumulator's contents
after each of the 64 points by recursion on the point, the invariant that carries it from point to point, the proof
data, and the body's obligation at every point.
-/
import proofs.«165055_j20504173871714_1_alg».proof.Proof.Layer1.RunLast

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

/-- The pieces the k = 0 body writes into the accumulator cover it (the later one alone does). -/
theorem accFirst_cover (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : atFirstK i) (hc1 : ¬atLastK i)
    (x0 : Vec F S1024x1024 .bf16) (x1 : Vec F S1024x1024 .f32) (x2 : Vec F S1x1024 .f32) (y : S1024x1024.Idx) :
    ∃ pc ∈ (runFirst c i arg3 harg3 arg4 harg4 arg5 harg5 arg6 harg6 arg7 harg7 hc0 hc1 x0 x1 x2).2.1, y ∈ pc.1.set :=
  View.cover_of_tiledL (runFirst c i arg3 harg3 arg4 harg4 arg5 harg5 arg6 harg6 arg7 harg7 hc0 hc1 x0 x1 x2).2.1 S1024x1024.size (by sl_kernel_rfl) y

/-- What the k = 0 body leaves in the accumulator: its pieces read back. -/
def accFirst (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : atFirstK i) (hc1 : ¬atLastK i)
    (x0 : Vec F S1024x1024 .bf16) (x1 : Vec F S1024x1024 .f32) (x2 : Vec F S1x1024 .f32) : Vec F S1024x1024 .f32 :=
  accView.read (Elt F) (accView.writes (Elt F) accView.junk (runFirst c i arg3 harg3 arg4 harg4 arg5 harg5 arg6 harg6 arg7 harg7 hc0 hc1 x0 x1 x2).2.1)

/-- The piece the 0 < k < 7 body writes into the accumulator covers it. -/
theorem accMid_cover (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬atFirstK i) (hc1 : ¬atLastK i)
    (x0 : Vec F S1024x1024 .bf16) (x1 : Vec F S1024x1024 .f32) (x2 : Vec F S1x1024 .f32) (xs : Vec F S1024x1024 .f32) (y : S1024x1024.Idx) :
    ∃ pc ∈ (runMid c i arg3 harg3 arg4 harg4 arg5 harg5 arg6 harg6 arg7 harg7 hc0 hc1 x0 x1 x2 xs).2.1, y ∈ pc.1.set :=
  View.cover_of_tiledL (runMid c i arg3 harg3 arg4 harg4 arg5 harg5 arg6 harg6 arg7 harg7 hc0 hc1 x0 x1 x2 xs).2.1 S1024x1024.size (by sl_kernel_rfl) y

/-- What the 0 < k < 7 body leaves in the accumulator. -/
def accMid (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬atFirstK i) (hc1 : ¬atLastK i)
    (x0 : Vec F S1024x1024 .bf16) (x1 : Vec F S1024x1024 .f32) (x2 : Vec F S1x1024 .f32) (xs : Vec F S1024x1024 .f32) : Vec F S1024x1024 .f32 :=
  accView.read (Elt F) (accView.writes (Elt F) accView.junk (runMid c i arg3 harg3 arg4 harg4 arg5 harg5 arg6 harg6 arg7 harg7 hc0 hc1 x0 x1 x2 xs).2.1)

/-- The piece the k = 7 body writes into the accumulator covers it. -/
theorem accLast_cover (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬atFirstK i) (hc1 : atLastK i)
    (x0 : Vec F S1024x1024 .bf16) (x1 : Vec F S1024x1024 .f32) (x2 : Vec F S1x1024 .f32) (xs : Vec F S1024x1024 .f32) (y : S1024x1024.Idx) :
    ∃ pc ∈ (runLast c i arg3 harg3 arg4 harg4 arg5 harg5 arg6 harg6 arg7 harg7 hc0 hc1 x0 x1 x2 xs).2.1, y ∈ pc.1.set :=
  View.cover_of_tiledL (runLast c i arg3 harg3 arg4 harg4 arg5 harg5 arg6 harg6 arg7 harg7 hc0 hc1 x0 x1 x2 xs).2.1 S1024x1024.size (by sl_kernel_rfl) y

/-- What the k = 7 body leaves in the accumulator. -/
def accLast (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬atFirstK i) (hc1 : atLastK i)
    (x0 : Vec F S1024x1024 .bf16) (x1 : Vec F S1024x1024 .f32) (x2 : Vec F S1x1024 .f32) (xs : Vec F S1024x1024 .f32) : Vec F S1024x1024 .f32 :=
  accView.read (Elt F) (accView.writes (Elt F) accView.junk (runLast c i arg3 harg3 arg4 harg4 arg5 harg5 arg6 harg6 arg7 harg7 hc0 hc1 x0 x1 x2 xs).2.1)

/-- The piece the k = 7 body writes into the result's buffer covers it. -/
theorem outLast_cover (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬atFirstK i) (hc1 : atLastK i)
    (x0 : Vec F S1024x1024 .bf16) (x1 : Vec F S1024x1024 .f32) (x2 : Vec F S1x1024 .f32) (xs : Vec F S1024x1024 .f32) (y : S1024x1024.Idx) :
    ∃ pc ∈ (runLast c i arg3 harg3 arg4 harg4 arg5 harg5 arg6 harg6 arg7 harg7 hc0 hc1 x0 x1 x2 xs).1, y ∈ pc.1.set :=
  View.cover_of_tiledL (runLast c i arg3 harg3 arg4 harg4 arg5 harg5 arg6 harg6 arg7 harg7 hc0 hc1 x0 x1 x2 xs).1 S1024x1024.size (by sl_kernel_rfl) y

/-- What the k = 7 body leaves in the result's buffer. -/
def outLast (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬atFirstK i) (hc1 : atLastK i)
    (x0 : Vec F S1024x1024 .bf16) (x1 : Vec F S1024x1024 .f32) (x2 : Vec F S1x1024 .f32) (xs : Vec F S1024x1024 .f32) : Vec F S1024x1024 .f32 :=
  outView.read (Elt F) (outView.writes (Elt F) outView.junk (runLast c i arg3 harg3 arg4 harg4 arg5 harg5 arg6 harg6 arg7 harg7 hc0 hc1 x0 x1 x2 xs).1)

/-! ## The same at a point of the grid, on the point's memrefs and blocks -/

theorem notLast_of_first (t : Fin cfg1.N) (h0 : t.val % 8 = 0) : ¬atLastK (grid1.coords t) :=
  fun h => absurd ((atLastK_iff t).mp h) (by omega)
theorem notFirst_of_last (t : Fin cfg1.N) (h1 : t.val % 8 = 7) : ¬atFirstK (grid1.coords t) :=
  fun h => absurd ((atFirstK_iff t).mp h) (by omega)
theorem notFirst_of (t : Fin cfg1.N) (h0 : ¬t.val % 8 = 0) : ¬atFirstK (grid1.coords t) :=
  fun h => h0 ((atFirstK_iff t).mp h)
theorem notLast_of (t : Fin cfg1.N) (h1 : ¬t.val % 8 = 7) : ¬atLastK (grid1.coords t) :=
  fun h => h1 ((atLastK_iff t).mp h)

/-- The accumulator after a point with k = 0. -/
def accFirstAt (c : Dev nD) (t : Fin cfg1.N) (h0 : t.val % 8 = 0) : Vec F S1024x1024 .f32 :=
  accFirst c (grid1.coords t) (aRef t) (aRef_whole t) (wRef t) (wRef_whole t) (bRef t) (bRef_whole t) (oRef t) (oRef_whole t) accRef (Memref.isWhole_whole _) ((atFirstK_iff t).mpr h0) (notLast_of_first t h0) (blk V c 0 t) (blk V c 1 t) (blk V c 2 t)

/-- The accumulator after a point with 0 < k < 7, over what it held before. -/
def accMidAt (c : Dev nD) (t : Fin cfg1.N) (h0 : ¬t.val % 8 = 0) (h1 : ¬t.val % 8 = 7) (xs : Vec F S1024x1024 .f32) : Vec F S1024x1024 .f32 :=
  accMid c (grid1.coords t) (aRef t) (aRef_whole t) (wRef t) (wRef_whole t) (bRef t) (bRef_whole t) (oRef t) (oRef_whole t) accRef (Memref.isWhole_whole _) (notFirst_of t h0) (notLast_of t h1) (blk V c 0 t) (blk V c 1 t) (blk V c 2 t) xs

/-- The accumulator after a point with k = 7, over what it held before. -/
def accLastAt (c : Dev nD) (t : Fin cfg1.N) (h1 : t.val % 8 = 7) (xs : Vec F S1024x1024 .f32) : Vec F S1024x1024 .f32 :=
  accLast c (grid1.coords t) (aRef t) (aRef_whole t) (wRef t) (wRef_whole t) (bRef t) (bRef_whole t) (oRef t) (oRef_whole t) accRef (Memref.isWhole_whole _) (notFirst_of_last t h1) ((atLastK_iff t).mpr h1) (blk V c 0 t) (blk V c 1 t) (blk V c 2 t) xs

/-- The result's buffer after a point with k = 7, over what the accumulator held before. -/
def outLastAt (c : Dev nD) (t : Fin cfg1.N) (h1 : t.val % 8 = 7) (xs : Vec F S1024x1024 .f32) : Vec F S1024x1024 .f32 :=
  outLast c (grid1.coords t) (aRef t) (aRef_whole t) (wRef t) (wRef_whole t) (bRef t) (bRef_whole t) (oRef t) (oRef_whole t) accRef (Memref.isWhole_whole _) (notFirst_of_last t h1) ((atLastK_iff t).mpr h1) (blk V c 0 t) (blk V c 1 t) (blk V c 2 t) xs

/-! ## The accumulator after each point -/

/-- THE ACCUMULATION: what the accumulator holds after the body at position `n`. At k = 0 it starts afresh; at the
    other points it continues from what position `n - 1` left. -/
def accAt (c : Dev nD) : (n : ℕ) → n < cfg1.N → Vec F S1024x1024 .f32
  | 0, hn => accFirstAt V c ⟨0, hn⟩ (Nat.zero_mod _)
  | n + 1, hn =>
    if h0 : (n + 1) % 8 = 0 then accFirstAt V c ⟨n + 1, hn⟩ h0
    else if h1 : (n + 1) % 8 = 7 then accLastAt V c ⟨n + 1, hn⟩ h1 (accAt c n (Nat.lt_of_succ_lt hn))
    else accMidAt V c ⟨n + 1, hn⟩ h0 h1 (accAt c n (Nat.lt_of_succ_lt hn))

theorem accAt_first (c : Dev nD) (t : Fin cfg1.N) (h0 : t.val % 8 = 0) :
    accAt V c t.val t.isLt = accFirstAt V c t h0 := by
  obtain ⟨n, hn⟩ := t
  cases n with
  | zero => exact rfl
  | succ n => exact (dif_pos h0).trans rfl

theorem accAt_mid (c : Dev nD) (t : Fin cfg1.N) (h0 : ¬t.val % 8 = 0) (h1 : ¬t.val % 8 = 7) :
    accAt V c t.val t.isLt = accMidAt V c t h0 h1 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt_last (c : Dev nD) (t : Fin cfg1.N) (h1 : t.val % 8 = 7) :
    accAt V c t.val t.isLt = accLastAt V c t h1 (accAt V c (t.val - 1) (Nat.lt_of_le_of_lt (Nat.sub_le _ _) t.isLt)) := by
  obtain ⟨n, hn⟩ := t
  cases n with
  | zero => exact absurd (show (0 : ℕ) % 8 = 7 from h1) (by decide)
  | succ n => exact (dif_neg (show ¬(n + 1) % 8 = 0 from fun h => by have := h1; dsimp only at this; omega)).trans ((dif_pos h1).trans rfl)

/-- What the result's buffer holds after the body at point `t`: at k = 7 the block the body wrote, from what the
    accumulator held before the point; elsewhere the window is idle and this value is never consulted (a block read
    off arbitrary contents). -/
def outAt (c : Dev nD) (t : Fin cfg1.N) : Vec F S1024x1024 .f32 :=
  if h1 : t.val % 8 = 7 then outLastAt V c t h1 (accAt V c (t.val - 1) (Nat.lt_of_le_of_lt (Nat.sub_le _ _) t.isLt))
  else outView.read (Elt F) outView.junk

theorem outAt_last (c : Dev nD) (t : Fin cfg1.N) (h1 : t.val % 8 = 7) :
    outAt V c t = outLastAt V c t h1 (accAt V c (t.val - 1) (Nat.lt_of_le_of_lt (Nat.sub_le _ _) t.isLt)) := dif_pos h1

/-! ## The invariant carried from point to point -/

/-- Before position `n`: at the region's entry its entry invariant (every scoped buffer that is no staging buffer of
    this region at anything); afterwards the nine foreign buffers at anything, the accumulator at what position
    `n - 1` left in it, and the generator register at some state. -/
def inv (c : Dev nD) : (n : ℕ) → n ≤ cfg1.N → sProp 𝕄
  | 0, _ => Pipeline.ΦA spec1 c
  | n + 1, hn => iprop(iprop(foreign (F := F) c ∗ owns (c : Thread nD τ) accRef fullShare (accAt V c n hn)) ∗ (∃ r, prngReg c r))

theorem inv_zero (c : Dev nD) (n : ℕ) (h : n ≤ cfg1.N) (hz : n = 0) : inv V c n h = Pipeline.ΦA spec1 c := by
  subst hz; rfl

theorem inv_succ (c : Dev nD) (n : ℕ) (hn : n < cfg1.N) :
    inv V c (n + 1) hn = iprop(iprop(foreign (F := F) c ∗ owns (c : Thread nD τ) accRef fullShare (accAt V c n hn)) ∗ (∃ r, prngReg c r)) := rfl

theorem inv_pos (c : Dev nD) (n : ℕ) (h : n ≤ cfg1.N) (hz : n ≠ 0) :
    inv V c n h = iprop(iprop(foreign (F := F) c ∗ owns (c : Thread nD τ) accRef fullShare (accAt V c (n - 1) (by omega))) ∗ (∃ r, prngReg c r)) := by
  cases n with
  | zero => exact absurd rfl hz
  | succ n => rfl

/-! ## The proof data -/

/-- The region's proof data on core `c`: the arrays as the region finds them; after the body at point `t` each input's
    buffer at its block and the result's at `outAt`; the invariant `inv`; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => outAt V c t
  Φ t := inv V c t.val (Nat.le_of_lt_succ t.isLt)
  q _ := fullShare
  owed _ := 0

/-- The proof data's arrays are the region-entry contents. -/
theorem A_eq (c : Dev nD) (w : Fin cfg1.W) : (dat V c).A w = V c (Pipeline.arrRef spec1 w) := by
  dsimp only [dat]

/-- The invariant at a point's start, restated at the point's number. -/
theorem inv_castSucc (c : Dev nD) (t : Fin cfg1.N) :
    (dat V c).Φ t.castSucc = inv V c t.val (Nat.le_of_lt t.isLt) := by
  dsimp only [dat]; simp only [Fin.coe_castSucc]

/-- What the body leaves, window by window. -/
theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = outAt V c t := by dsimp only [dat]

/-- Each input's current buffer holds its block at every point. -/
theorem held0 (c : Dev nD) (t : Fin cfg1.N) (d) : (dat V c).before 0 t d = blk V c 0 t :=
  held0_of V (dat V c) (A_eq V c 0) (after0 V c) t d
theorem held1 (c : Dev nD) (t : Fin cfg1.N) (d) : (dat V c).before 1 t d = blk V c 1 t :=
  held1_of V (dat V c) (A_eq V c 1) (after1 V c) t d
theorem held2 (c : Dev nD) (t : Fin cfg1.N) (d) : (dat V c).before 2 t d = blk V c 2 t :=
  held2_of V (dat V c) (A_eq V c 2) (after2 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (aRef t) fullShare ((dat V c).before 0 t d))
    ∗ (∃ d, owns (c : Thread nD τ) (wRef t) fullShare ((dat V c).before 1 t d))
    ∗ (∃ d, owns (c : Thread nD τ) (bRef t) fullShare ((dat V c).before 2 t d))
    ∗ (∃ d, owns (c : Thread nD τ) (oRef t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' buffers hold their blocks; the point's number modulo 8 says which case runs;
    the invariant hands the body the accumulator at what the point before left (at anything at the very first point)
    and takes it back at this point's contents, the pieces covering it; the foreign buffers, the generator register
    and the debt pass through; where k ≠ 7 the result's buffer is handed back as found. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [held0, held1, held2]
  rw [show (dat V c).owesAt () t.succ = (dat V c).owesAt () t.castSucc from rfl]
  rw [show (dat V c).Φ t.succ = inv V c (t.val + 1) t.isLt from rfl, inv_succ]
  have hN : t.val < 64 := lt_of_lt_of_eq t.isLt (show cfg1.N = 64 from N_1)
  rw [show (dat V c).leavesExact 0 t = owns (c : Thread nD τ) (aRef t) fullShare ((dat V c).after 0 t) from by
    unfold Dat.leavesExact; rw [live0 t], after0]
  rw [show (dat V c).leavesExact 1 t = owns (c : Thread nD τ) (wRef t) fullShare ((dat V c).after 1 t) from by
    unfold Dat.leavesExact; rw [live1 t], after1]
  rw [show (dat V c).leavesExact 2 t = owns (c : Thread nD τ) (bRef t) fullShare ((dat V c).after 2 t) from by
    unfold Dat.leavesExact; rw [live2 t], after2]
  by_cases h0 : t.val % 8 = 0
  · -- k = 0: the accumulator starts afresh
    rw [Dat.leavesExact_idle (dat V c) 3 t (idle3 t (notLast_of_first t h0)) (noFlush3 t (notLast_of_first t h0))]
    rw [accAt_first V c t h0]
    unfold accFirstAt accFirst; (try dsimp only)
    by_cases hz : t.val = 0
    · rw [inv_castSucc V c t, inv_zero V c _ _ hz, entryInv_eq]
      iintro ⟨⟨⟨Hf, HS⟩, Hg⟩, Ho, ⟨%d0, H0⟩, ⟨%d1, H1⟩, ⟨%d2, H2⟩, ⟨%d3, H3⟩⟩
      iapply ((runFirst c (grid1.coords t) _ _ _ _ _ _ _ _ _ _ ((atFirstK_iff t).mpr h0) (notLast_of_first t h0) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hf HS Hg]
      · isplitl [Hf HS]
        · isplitl [Hf]; · iexact Hf
          unfold owns; iexists _; isplitr
          swap; · iexact HS
          ipureintro; exact View.read_writes_of_cover _ _ _ _ _ (accFirst_cover c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [inv_castSucc V c t, inv_pos V c _ _ hz]
      iintro ⟨⟨⟨Hf, HS⟩, Hg⟩, Ho, ⟨%d0, H0⟩, ⟨%d1, H1⟩, ⟨%d2, H2⟩, ⟨%d3, H3⟩⟩
      iapply ((runFirst c (grid1.coords t) _ _ _ _ _ _ _ _ _ _ ((atFirstK_iff t).mpr h0) (notLast_of_first t h0) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [Hf HS Hg]
      · isplitl [Hf HS]
        · isplitl [Hf]; · iexact Hf
          unfold owns; iexists _; isplitr
          swap; · iexact HS
          ipureintro; exact View.read_writes_of_cover _ _ _ _ _ (accFirst_cover c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · -- k = 7: the last product, and the result's block is written
      rw [show (dat V c).leavesExact 3 t = owns (c : Thread nD τ) (oRef t) fullShare ((dat V c).after 3 t) from by
        unfold Dat.leavesExact; rw [live3 t ((atLastK_iff t).mpr h1)], after3]
      rw [outAt_last V c t h1, accAt_last V c t h1]
      unfold outLastAt outLast accLastAt accLast; (try dsimp only)
      rw [inv_castSucc V c t, inv_pos V c _ _ hz]
      iintro ⟨⟨⟨Hf, HS⟩, Hg⟩, Ho, ⟨%d0, H0⟩, ⟨%d1, H1⟩, ⟨%d2, H2⟩, ⟨%d3, H3⟩⟩
      iapply ((runLast c (grid1.coords t) _ _ _ _ _ _ _ _ _ _ (notFirst_of_last t h1) ((atLastK_iff t).mpr h1) (blk V c 0 t) (blk V c 1 t) (blk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [Hf HS Hg]
      · isplitl [Hf HS]
        · isplitl [Hf]; · iexact Hf
          unfold owns; iexists _; isplitr
          swap; · iexact HS
          ipureintro; exact View.read_writes_of_cover _ _ _ _ _ (accLast_cover c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover c _ _ _ _ _ _ _ _ _ _ _ _ _ _ _ _ _)
    · -- 0 < k < 7: one more product
      rw [Dat.leavesExact_idle (dat V c) 3 t (idle3 t (notLast_of t h1)) (noFlush3 t (notLast_of t h1))]
      rw [accAt_mid V c t h0 h1]
      unfold accMidAt accMid; (try dsimp only)
      rw [inv_castSucc V c t, inv_pos V c _ _ hz]
      iintro ⟨⟨⟨Hf, HS⟩, Hg⟩, Ho, ⟨%d0, H0⟩, ⟨%d1, H1⟩, ⟨%d2, H2⟩, ⟨%d3, H3⟩⟩
      iapply ((runMid c (grid1.coords t) _ _ _ _ _ _ _ _ _ _ (notFirst_of t h0) (notLast_of t h1) (blk V c 0 t) (blk V c 1 t) (blk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hf HS Hg]
      · isplitl [Hf HS]
        · isplitl [Hf]; · iexact Hf
          unfold owns; iexists _; isplitr
          swap; · iexact HS
          ipureintro; exact View.read_writes_of_cover _ _ _ _ _ (accMid_cover c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : (Pipeline.ΦA spec1 c : sProp 𝕄) ⊢ (dat V c).Φ 0 := by
  rw [show (dat V c).Φ 0 = inv V c 0 (Nat.zero_le _) from rfl, inv_zero V c 0 _ rfl]
  try exact Idealize.SL.BI.Entails.refl _

/-- After any point the invariant gives the entry invariant back: the accumulator's contents are forgotten. -/
theorem inv_forget (c : Dev nD) (t : Fin (cfg1.N + 1)) (ht : t.val ≠ 0) : (dat V c).Φ t ⊢ (Pipeline.ΦA spec1 c : sProp 𝕄) := by
  rw [show (dat V c).Φ t = inv V c t.val (Nat.le_of_lt_succ t.isLt) from rfl, inv_pos V c _ _ ht, entryInv_eq]
  iintro ⟨⟨Hf, HS⟩, Hg⟩
  isplitl [Hf HS]
  · isplitl [Hf]; · iexact Hf
    iexists _; iexact HS
  iexact Hg

/-- The same after the last point. -/
theorem hout (c : Dev nD) : (dat V c).Φ (Fin.last cfg1.N) ⊢ (Pipeline.ΦA spec1 c : sProp 𝕄) :=
  inv_forget V c _ (by rw [Fin.val_last]; have : cfg1.N = 64 := N_1; omega)

end Cert.KernelIdeal.Layer1

end
-- ==== Proof.Net.lean ====
import proofs.«165055_j20504173871714_1_alg».proof.Proof.Layer0.Dat
import proofs.«165055_j20504173871714_1_alg».proof.Proof.Layer1.Dat
import Idealize.ShloMosaic.Lib.Pipeline.RegionsLoop
import Idealize.ShloMosaic.Lib.Pipeline.FrameSuffix

/-!
# The two layers in sequence: @main from the launch to the return

@main is four segments: b1 laid out as a row, the first layer's region, b2 laid out as a row, the second layer's
region. The contents of the core's unscoped buffers are followed from segment to segment: a host line changes only the
buffer it writes; a region changes only its output array, which ends holding what the write-backs of its grid points
left in it (the proof data's array after the last point), and leaves every other buffer as it found it. The hidden array
the first region leaves is what the second region's first window reads.

The run's post reads every unscoped buffer off the last of these contents. The frame claim (every argument ends as
launched: no host line and no region writes an argument) and the result array's contents are both read from it.
-/

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each segment boundary -/

/-- Core `c`'s buffers at launch. -/
abbrev atLaunch (c : Dev nD) : Valuation τ sig (Elt F) := fun b => m (c, b)
/-- When the first layer's region is entered: b1 has been laid out as the row `main_v0`. -/
abbrev atL0 (c : Dev nD) : Valuation τ sig (Elt F) := StableHlo.after hostOps0 (atLaunch m c)
/-- The same, read at the TensorCore's references: what the first layer's proof data are stated at. -/
abbrev inL0 : (c : Dev nD) → (b : Ref sig .tc) → Buf (Elt F) ((c : Thread nD τ).loc b) := fun c b => atL0 m c b
/-- When the first layer's region is left: its four arrays at what the pipeline leaves (the three inputs as entered,
    the hidden array at its write-backs folded), every other buffer as entered. -/
def afterL0 (c : Dev nD) : Valuation τ sig (Elt F) :=
  Pipeline.withArrays spec0 c (atL0 m c) fun w => (Layer0.dat (inL0 m) c).arrAt w cfg0.N
theorem afterL0_arr (c : Dev nD) (w : Fin cfg0.W) :
    afterL0 m c (Proc.devRef .tc (Pipeline.arrRef spec0 w)) = (Layer0.dat (inL0 m) c).arrAt w cfg0.N := by
  unfold afterL0; exact Pipeline.withArrays_arr spec0 launch0.win.arr_inj c _ _ w
theorem afterL0_of_ne (c : Dev nD) (b : Ref sig .tc) (hb : ∀ w, Pipeline.arrRef spec0 w ≠ b) :
    afterL0 m c (Proc.devRef .tc b) = atL0 m c (Proc.devRef .tc b) := by
  unfold afterL0; exact Pipeline.withArrays_of_ne spec0 c _ _ b hb
/-- The same, read at the TensorCore's references. -/
abbrev outL0 : (c : Dev nD) → (b : Ref sig .tc) → Buf (Elt F) ((c : Thread nD τ).loc b) := fun c b => afterL0 m c b
theorem exitL0_arr (c : Dev nD) (w : Fin cfg0.W) : (Layer0.dat (inL0 m) c).arrAt w cfg0.N = outL0 m c (Pipeline.arrRef spec0 w) :=
  (afterL0_arr m c w).symm
theorem exitL0_rest (c : Dev nD) : ∀ b, b ∉ Finset.univ.image (Pipeline.arrRef spec0) → outL0 m c b = inL0 m c b :=
  fun b hb => afterL0_of_ne m c b fun w e => hb (Finset.mem_image.mpr ⟨w, Finset.mem_univ _, e⟩)

/-- When the second layer's region is entered: b2 has been laid out as the row `main_v2`. -/
abbrev atL1 (c : Dev nD) : Valuation τ sig (Elt F) := StableHlo.after hostOps1 (afterL0 m c)
/-- The same, read at the TensorCore's references: what the second layer's proof data are stated at. -/
abbrev inL1 : (c : Dev nD) → (b : Ref sig .tc) → Buf (Elt F) ((c : Thread nD τ).loc b) := fun c b => atL1 m c b
/-- When the second layer's region is left: the result array at its write-backs folded, every other buffer as entered. -/
def afterL1 (c : Dev nD) : Valuation τ sig (Elt F) :=
  Pipeline.withArrays spec1 c (atL1 m c) fun w => (Layer1.dat (inL1 m) c).arrAt w cfg1.N
theorem afterL1_arr (c : Dev nD) (w : Fin cfg1.W) :
    afterL1 m c (Proc.devRef .tc (Pipeline.arrRef spec1 w)) = (Layer1.dat (inL1 m) c).arrAt w cfg1.N := by
  unfold afterL1; exact Pipeline.withArrays_arr spec1 launch1.win.arr_inj c _ _ w
theorem afterL1_of_ne (c : Dev nD) (b : Ref sig .tc) (hb : ∀ w, Pipeline.arrRef spec1 w ≠ b) :
    afterL1 m c (Proc.devRef .tc b) = atL1 m c (Proc.devRef .tc b) := by
  unfold afterL1; exact Pipeline.withArrays_of_ne spec1 c _ _ b hb
abbrev outL1 : (c : Dev nD) → (b : Ref sig .tc) → Buf (Elt F) ((c : Thread nD τ).loc b) := fun c b => afterL1 m c b
theorem exitL1_arr (c : Dev nD) (w : Fin cfg1.W) : (Layer1.dat (inL1 m) c).arrAt w cfg1.N = outL1 m c (Pipeline.arrRef spec1 w) :=
  (afterL1_arr m c w).symm
theorem exitL1_rest (c : Dev nD) : ∀ b, b ∉ Finset.univ.image (Pipeline.arrRef spec1) → outL1 m c b = inL1 m c b :=
  fun b hb => afterL1_of_ne m c b fun w e => hb (Finset.mem_image.mpr ⟨w, Finset.mem_univ _, e⟩)

/-! ## A host line changes only the buffer it writes -/

/-- Laying b1 out as a row writes `main_v0` only. -/
theorem atL0_of_ne (c : Dev nD) (b : Ref sig .tc) (hb : b ≠ main_v0) : atL0 m c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))
/-- Laying b2 out as a row writes `main_v2` only. -/
theorem atL1_of_ne (c : Dev nD) (b : Ref sig .tc) (hb : b ≠ main_v2) : atL1 m c (Proc.devRef .tc b) = afterL0 m c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ## The proof data family and the thread state -/

/-- No pipeline has a prefetched table. -/
abbrev adm : (p : Fin 2) → (pcfgs (F := F) p).Adm := fun p => (cfgs p).toPCfg_adm
/-- Each layer's proof data at its region's entry contents, as a literal match on the pipeline's number. -/
def pdats : (p : Fin 2) → (c : Dev nD) → Dat τ (Elt F) Unit ℕ (UR sig nD τ) ℕ (Pipeline.pin (pcfgs (F := F)) adm p) c
  | ⟨0, _⟩ => fun c => Layer0.dat (inL0 m) c
  | ⟨1, _⟩ => fun c => Layer1.dat (inL1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev rest (c : Dev nD) : sProp 𝕄 := iprop((∃ r, prngReg c r) ∗ ∃ W, owes (c : Thread nD τ) (0 : CellTallies nD τ sig Unit) W)
/-- A stretch of host lines as a segment over the unscoped buffers from the contents `W`, `rest` riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-- Neither host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the core's `owes` apart: every unscoped buffer at the last contents, the generator register
    at some state. -/
abbrev lastState (c : Dev nD) : sProp 𝕄 := iprop(StableHlo.held (c : Thread nD τ) (Pipeline.ucRefs τ sig) (afterL1 m c) ∗ ∃ r, prngReg c r)

/-! ## The regions as segments -/

set_option backward.isDefEq.respectTransparency.types false in
/-- Layer 0's region as a segment of @main. It is entered with every unscoped buffer at `inL0` and left with them at
    `outL0`: the four arrays of the layer are split out of the unscoped buffers at entry and joined back at exit, the
    output array then holding what the write-backs left; the generator register goes into the region's invariant and comes
    back out; the core owes nothing and the kernel has no semaphore of its own. -/
def layer0Seg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Layer0.body_obligation (inL0 m) c).loose
  hwaits := Pipeline.hwaits_of_owed_zero _ _ _ _ L lv 0 fun _ _ => rfl
  pre c := iprop(StableHlo.held (c : Thread nD τ) (Pipeline.ucRefs τ sig) (atL0 m c) ∗ rest c)
  post c := iprop(StableHlo.held (c : Thread nD τ) (Pipeline.ucRefs τ sig) (afterL0 m c) ∗ rest c)
  X c := iprop(∃ r, prngReg c r)
  Y c := iprop(∃ r, prngReg c r)
  Z c := Pipeline.unscopedRest (Ix := Unit) (Name := ℕ) (U := UR sig nD τ) (Lvl := ℕ) spec0 c (inL0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (inL0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (Layer0.hin (inL0 m) c)
    show (_ : sProp 𝕄) ⊢ _
    unfold Pipeline.ΦA
    iintro ⟨Hp, -, Hr⟩
    isplitl [Hr]; · iexact Hr
    iexact Hp
  hout c := by
    refine BI.Entails.trans (Layer0.hout (inL0 m) c) ?_
    show (_ : sProp 𝕄) ⊢ _
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (inL0 m c) (outL0 m c) ((pdats m 0 c).arrAt · cfg0.N) (exitL0_arr m c) (exitL0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 1's region as a segment of @main. It is entered with every unscoped buffer at `inL1` and left with them at
    `outL1`: the four arrays of the layer are split out of the unscoped buffers at entry and joined back at exit, the
    output array then holding what the write-backs left; the generator register goes into the region's invariant and comes
    back out; the core owes nothing and the kernel has no semaphore of its own. -/
def layer1Seg : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Layer1.body_obligation (inL1 m) c).loose
  hwaits := Pipeline.hwaits_of_owed_zero _ _ _ _ L lv 1 fun _ _ => rfl
  pre c := iprop(StableHlo.held (c : Thread nD τ) (Pipeline.ucRefs τ sig) (atL1 m c) ∗ rest c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (inL1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (inL1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (Layer1.hin (inL1 m) c)
    show (_ : sProp 𝕄) ⊢ _
    unfold Pipeline.ΦA
    iintro ⟨Hp, -, Hr⟩
    isplitl [Hr]; · iexact Hr
    iexact Hp
  hout c := by
    refine BI.Entails.trans (Layer1.hout (inL1 m) c) ?_
    show (_ : sProp 𝕄) ⊢ _
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (inL1 m c) (outL1 m c) ((pdats m 1 c).arrAt · cfg1.N) (exitL1_arr m c) (exitL1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m) () defs₀ 𝒱₀ L lv) :=
  [ .host (hostSeg hostOps0 hostOps0_sub hostOps0_fresh (atLaunch m)),
    .region (layer0Seg m),
    .host (hostSeg hostOps1 hostOps1_sub hostOps1_fresh (afterL0 m)),
    .region (layer1Seg m) ]
/-- @main is the run of the segments. -/
theorem main_run (c : Dev nD) : main (F := F) c = Pipeline.Seg.run (segs m) := (main_chain c).trans (by chain_rfl)

set_option backward.isDefEq.respectTransparency.types false in
/-- THE RUN. From any memory `m` with zero counters and any generator registers, every weakly fair execution of @main
    terminates, nothing faulting, and the final memory holds every unscoped buffer at the last contents `afterL1 m c`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = afterL1 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ rest c)) (Tₙ := lastState m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = afterL1 m c b)
    (hfin := fun c s' => by
      iintro ⟨⟨Hh, -⟩, HSI⟩
      unfold StableHlo.held
      imodintro
      iapply (pointsTo_read_all (Pipeline.ucRefs τ sig) (fun b => (((c : Thread nD τ)).1, b)) (afterL1 m c) s')
      isplitl [Hh] <;> iassumption)
    (hQ := fun s h c => h c)

/-! ## What the last contents hold -/

/-- An argument that no window of the second layer stages and that is not `main_v2`, `main_v0` or an array of the first
    layer other than an input: it ends as launched. The five arguments, one by one. -/
theorem end_arg0 (c : Dev nD) : afterL1 m c (Proc.devRef .tc main_arg0) = m ((c : Thread nD τ).loc main_arg0) :=
  calc afterL1 m c (Proc.devRef .tc main_arg0)
    _ = atL1 m c (Proc.devRef .tc main_arg0) := afterL1_of_ne m c main_arg0 (by decide)
    _ = afterL0 m c (Proc.devRef .tc main_arg0) := atL1_of_ne m c main_arg0 (by decide)
    _ = atL0 m c (Proc.devRef .tc main_arg0) := (afterL0_arr m c 0).trans (((Layer0.dat (inL0 m) c).arrAt_in 0 rfl _).trans (Layer0.A_eq (inL0 m) c 0))
    _ = m ((c : Thread nD τ).loc main_arg0) := atL0_of_ne m c main_arg0 (by decide)
theorem end_arg1 (c : Dev nD) : afterL1 m c (Proc.devRef .tc main_arg1) = m ((c : Thread nD τ).loc main_arg1) :=
  calc afterL1 m c (Proc.devRef .tc main_arg1)
    _ = atL1 m c (Proc.devRef .tc main_arg1) := afterL1_of_ne m c main_arg1 (by decide)
    _ = afterL0 m c (Proc.devRef .tc main_arg1) := atL1_of_ne m c main_arg1 (by decide)
    _ = atL0 m c (Proc.devRef .tc main_arg1) := (afterL0_arr m c 1).trans (((Layer0.dat (inL0 m) c).arrAt_in 1 rfl _).trans (Layer0.A_eq (inL0 m) c 1))
    _ = m ((c : Thread nD τ).loc main_arg1) := atL0_of_ne m c main_arg1 (by decide)
theorem end_arg2 (c : Dev nD) : afterL1 m c (Proc.devRef .tc main_arg2) = m ((c : Thread nD τ).loc main_arg2) :=
  calc afterL1 m c (Proc.devRef .tc main_arg2)
    _ = atL1 m c (Proc.devRef .tc main_arg2) := afterL1_of_ne m c main_arg2 (by decide)
    _ = afterL0 m c (Proc.devRef .tc main_arg2) := atL1_of_ne m c main_arg2 (by decide)
    _ = atL0 m c (Proc.devRef .tc main_arg2) := afterL0_of_ne m c main_arg2 (by decide)
    _ = m ((c : Thread nD τ).loc main_arg2) := atL0_of_ne m c main_arg2 (by decide)
theorem end_arg3 (c : Dev nD) : afterL1 m c (Proc.devRef .tc main_arg3) = m ((c : Thread nD τ).loc main_arg3) :=
  calc afterL1 m c (Proc.devRef .tc main_arg3)
    _ = atL1 m c (Proc.devRef .tc main_arg3) := (afterL1_arr m c 1).trans (((Layer1.dat (inL1 m) c).arrAt_in 1 rfl _).trans (Layer1.A_eq (inL1 m) c 1))
    _ = afterL0 m c (Proc.devRef .tc main_arg3) := atL1_of_ne m c main_arg3 (by decide)
    _ = atL0 m c (Proc.devRef .tc main_arg3) := afterL0_of_ne m c main_arg3 (by decide)
    _ = m ((c : Thread nD τ).loc main_arg3) := atL0_of_ne m c main_arg3 (by decide)
theorem end_arg4 (c : Dev nD) : afterL1 m c (Proc.devRef .tc main_arg4) = m ((c : Thread nD τ).loc main_arg4) :=
  calc afterL1 m c (Proc.devRef .tc main_arg4)
    _ = atL1 m c (Proc.devRef .tc main_arg4) := afterL1_of_ne m c main_arg4 (by decide)
    _ = afterL0 m c (Proc.devRef .tc main_arg4) := atL1_of_ne m c main_arg4 (by decide)
    _ = atL0 m c (Proc.devRef .tc main_arg4) := afterL0_of_ne m c main_arg4 (by decide)
    _ = m ((c : Thread nD τ).loc main_arg4) := atL0_of_ne m c main_arg4 (by decide)

/-- THE FRAME: every weakly fair execution of @main terminates, nothing faulting, and every argument array ends as
    launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (end_arg0 m c),
     (h c _ (mem_uc main_arg1 (by decide))).trans (end_arg1 m c),
     (h c _ (mem_uc main_arg2 (by decide))).trans (end_arg2 m c),
     (h c _ (mem_uc main_arg3 (by decide))).trans (end_arg3 m c),
     (h c _ (mem_uc main_arg4 (by decide))).trans (end_arg4 m c)⟩) (run_all m ρ)

end Cert.KernelIdeal.Net

end
-- ==== Proof.Layer0.Pieces.lean ====
/- First dense layer, relu(x · W1ᵀ + b1), tile by tile: what the two steps of the tile body leave, as the tile body's own
   arithmetic on the tiles — the first step zero + (x-tile) · (W1-tile)ᵀ in the accumulator, the last step the
   accumulator plus its product, and max(that + bias row, 0) in the output tile —, and where in the operands each
   tile of a grid point lies: point t = 16 i + 2 j + k reads rows 1024 i … of x and rows 1024 j … of W1, columns
   1024 k … of both, and columns 1024 j … of the bias row. -/
import proofs.«165055_j20504173871714_1_alg».proof.Proof.Layer0.Dat
import Idealize.ShloMosaic.Lib.Pipeline.Value

set_option maxRecDepth 16384

noncomputable section

namespace Cert.KernelIdeal.Layer0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The origin of a tile, as a function. -/
theorem origin_eq : (![0, 0] : Fin 2 → Nat) = fun _ => 0 := funext fun a => by fin_cases a <;> rfl

/-- The first step leaves zero + xa · xwᵀ: the accumulator is set to the zero block, read back, and the product added. -/
theorem accFirst_eq (c : Dev nD) (i : grid0.Coords)
    (a : Memref sig .tc .vmem S1024x1024 .f32) (ha : a.IsWhole) (w : Memref sig .tc .vmem S1024x1024 .f32) (hw : w.IsWhole)
    (b : Memref sig .tc .vmem S1x1024 .f32) (hb : b.IsWhole) (o : Memref sig .tc .vmem S1024x1024 .bf16) (ho : o.IsWhole)
    (acc : Memref sig .tc .vmem S1024x1024 .f32) (hacc : acc.IsWhole) (hc0 : atFirstK i) (hc1 : ¬atLastK i)
    (xa : Vec F S1024x1024 .f32) (xw : Vec F S1024x1024 .f32) :
    accFirst c i a ha w hw b hb o ho acc hacc hc0 hc1 xa xw = k0_pay2 xa xw (k0_pay1 (F := F)) := by
  unfold accFirst
  rw [View.read_writes_eq_canon _ _ _ (accCover_first c i a ha w hw b hb o ho acc hacc hc0 hc1 xa xw)]
  unfold runFirst
  dsimp only
  sl_unfold_words
  rw [View.canon_cons_unit_zero (S := S1024x1024) origin_eq, View.readCov_unit_zero (S := S1024x1024) _ origin_eq]
  simp only [View.readAt_eq_ld, ha.read_unread, hw.read_unread, View.ld_unit_zero (S := S1024x1024) origin_eq]

/-- The last step leaves xs + xa · xwᵀ in the accumulator, `xs` what it held. -/
theorem accLast_eq (c : Dev nD) (i : grid0.Coords)
    (a : Memref sig .tc .vmem S1024x1024 .f32) (ha : a.IsWhole) (w : Memref sig .tc .vmem S1024x1024 .f32) (hw : w.IsWhole)
    (b : Memref sig .tc .vmem S1x1024 .f32) (hb : b.IsWhole) (o : Memref sig .tc .vmem S1024x1024 .bf16) (ho : o.IsWhole)
    (acc : Memref sig .tc .vmem S1024x1024 .f32) (hacc : acc.IsWhole) (hc0 : ¬atFirstK i) (hc1 : atLastK i)
    (xa : Vec F S1024x1024 .f32) (xw : Vec F S1024x1024 .f32) (xb : Vec F S1x1024 .f32) (xs : Vec F S1024x1024 .f32) :
    accLast c i a ha w hw b hb o ho acc hacc hc0 hc1 xa xw xb xs = k0_pay2 xa xw xs := by
  unfold accLast
  rw [View.read_writes_eq_canon _ _ _ (accCover_last c i a ha w hw b hb o ho acc hacc hc0 hc1 xa xw xb xs)]
  unfold runLast
  dsimp only
  sl_unfold_words
  rw [View.canon_unit_zero origin_eq]
  simp only [View.readAt_eq_ld, ha.read_unread, hw.read_unread, hacc.read_unread, View.ld_unit_zero (S := S1024x1024) origin_eq]

/-- The last step leaves max((xs + xa · xwᵀ) + bias row, 0) in the output tile. -/
theorem outLast_eq (c : Dev nD) (i : grid0.Coords)
    (a : Memref sig .tc .vmem S1024x1024 .f32) (ha : a.IsWhole) (w : Memref sig .tc .vmem S1024x1024 .f32) (hw : w.IsWhole)
    (b : Memref sig .tc .vmem S1x1024 .f32) (hb : b.IsWhole) (o : Memref sig .tc .vmem S1024x1024 .bf16) (ho : o.IsWhole)
    (acc : Memref sig .tc .vmem S1024x1024 .f32) (hacc : acc.IsWhole) (hc0 : ¬atFirstK i) (hc1 : atLastK i)
    (xa : Vec F S1024x1024 .f32) (xw : Vec F S1024x1024 .f32) (xb : Vec F S1x1024 .f32) (xs : Vec F S1024x1024 .f32) :
    outLast c i a ha w hw b hb o ho acc hacc hc0 hc1 xa xw xb xs = k0_pay3 (k0_pay2 xa xw xs) xb := by
  unfold outLast
  rw [View.read_writes_eq_canon _ _ _ (outCover_last c i a ha w hw b hb o ho acc hacc hc0 hc1 xa xw xb xs)]
  unfold runLast
  dsimp only
  sl_unfold_words
  rw [View.canon_unit_zero origin_eq]
  simp only [View.readAt_eq_ld, ha.read_unread, hw.read_unread, hb.read_unread, hacc.read_unread, View.ld_unit_zero (S := S1024x1024) origin_eq, View.ld_unit_zero (S := S1x1024) origin_eq, View.readCov_unit_zero (S := S1024x1024) _ origin_eq]

variable (V : (c : Dev nD) → (b : Ref sig .tc) → Buf (Elt F) ((c : Thread nD τ).loc b))

/-! ## The accumulator and the output tile after a point, as the body's arithmetic on the point's tiles -/

theorem accEven_eq (c : Dev nD) (t : Fin cfg0.N) (h : t.val % 2 = 0) :
    accEven V c t h = k0_pay2 (tile V c 0 t) (tile V c 1 t) (k0_pay1 (F := F)) := by
  unfold accEven
  exact accFirst_eq c (grid0.coords t) (mX t) (hX t) (mW t) (hW t) (mB t) (hB t) (mO t) (hO t) accM (Memref.isWhole_whole _) _ _ (tile V c 0 t) (tile V c 1 t)

theorem outOdd_eq (c : Dev nD) (t : Fin cfg0.N) (h : ¬t.val % 2 = 0) :
    outOdd V c t h = k0_pay3 (k0_pay2 (tile V c 0 t) (tile V c 1 t) (accEven V c (before t) (before_even t h))) (tile V c 2 t) := by
  unfold outOdd
  exact outLast_eq c (grid0.coords t) (mX t) (hX t) (mW t) (hW t) (mB t) (hB t) (mO t) (hO t) accM (Memref.isWhole_whole _) _ _ (tile V c 0 t) (tile V c 1 t) (tile V c 2 t) (accEven V c (before t) (before_even t h))

/-! ## Where a grid point's tiles lie -/

/-- The tile indices of the four operands at point t = 16 i + 2 j + k: (i, k), (j, k), (0, j), (i, j). -/
theorem where0 : ∀ t : Fin cfg0.N, win0_0.index t (0 : Fin 2) = t.val / 16 ∧ win0_0.index t (1 : Fin 2) = t.val % 2 :=
  (by decide +kernel : ∀ t : Fin grid0.N, win0_0.index t (0 : Fin 2) = t.val / 16 ∧ win0_0.index t (1 : Fin 2) = t.val % 2)
theorem where1 : ∀ t : Fin cfg0.N, win0_1.index t (0 : Fin 2) = t.val / 2 % 8 ∧ win0_1.index t (1 : Fin 2) = t.val % 2 :=
  (by decide +kernel : ∀ t : Fin grid0.N, win0_1.index t (0 : Fin 2) = t.val / 2 % 8 ∧ win0_1.index t (1 : Fin 2) = t.val % 2)
theorem where2 : ∀ t : Fin cfg0.N, win0_2.index t (0 : Fin 2) = 0 ∧ win0_2.index t (1 : Fin 2) = t.val / 2 % 8 :=
  (by decide +kernel : ∀ t : Fin grid0.N, win0_2.index t (0 : Fin 2) = 0 ∧ win0_2.index t (1 : Fin 2) = t.val / 2 % 8)
theorem where3 : ∀ t : Fin cfg0.N, win0_3.index t (0 : Fin 2) = t.val / 16 ∧ win0_3.index t (1 : Fin 2) = t.val / 2 % 8 :=
  (by decide +kernel : ∀ t : Fin grid0.N, win0_3.index t (0 : Fin 2) = t.val / 16 ∧ win0_3.index t (1 : Fin 2) = t.val / 2 % 8)

/-- Entry x of the x-tile at point t is entry (1024 i + x₀, 1024 k + x₁) of x. -/
theorem tile0_apply (c : Dev nD) (t : Fin cfg0.N) (x : S1024x1024.Idx) (k : S4096x2048.Idx)
    (h0 : (k 0).val = t.val / 16 * 1024 + (x 0).val) (h1 : (k 1).val = t.val % 2 * 1024 + (x 1).val) :
    (tile V c 0 t : Vec F S1024x1024 .f32) x = (V c main_arg0 : S4096x2048.Idx → Elt F .f32) k := by
  obtain ⟨e0, e1⟩ := where0 t
  unfold tile
  rw [View.read_apply]
  show V c main_arg0 _ = V c main_arg0 _
  congr 1
  funext a
  apply Fin.ext
  match a with
  | ⟨0, _⟩ => show win0_0.index t (0 : Fin 2) * 1024 + 1 * (x 0).val = (k 0).val; rw [e0, h0]; omega
  | ⟨1, _⟩ => show win0_0.index t (1 : Fin 2) * 1024 + 1 * (x 1).val = (k 1).val; rw [e1, h1]; omega

/-- Entry x of the W1-tile at point t is entry (1024 j + x₀, 1024 k + x₁) of W1. -/
theorem tile1_apply (c : Dev nD) (t : Fin cfg0.N) (x : S1024x1024.Idx) (k : S8192x2048.Idx)
    (h0 : (k 0).val = t.val / 2 % 8 * 1024 + (x 0).val) (h1 : (k 1).val = t.val % 2 * 1024 + (x 1).val) :
    (tile V c 1 t : Vec F S1024x1024 .f32) x = (V c main_arg1 : S8192x2048.Idx → Elt F .f32) k := by
  obtain ⟨e0, e1⟩ := where1 t
  unfold tile
  rw [View.read_apply]
  show V c main_arg1 _ = V c main_arg1 _
  congr 1
  funext a
  apply Fin.ext
  match a with
  | ⟨0, _⟩ => show win0_1.index t (0 : Fin 2) * 1024 + 1 * (x 0).val = (k 0).val; rw [e0, h0]; omega
  | ⟨1, _⟩ => show win0_1.index t (1 : Fin 2) * 1024 + 1 * (x 1).val = (k 1).val; rw [e1, h1]; omega

/-- Entry x of the bias tile at point t is entry (x₀, 1024 j + x₁) of the bias row. -/
theorem tile2_apply (c : Dev nD) (t : Fin cfg0.N) (x : S1x1024.Idx) (k : S1x8192.Idx)
    (h0 : (k 0).val = 0 * 1 + (x 0).val) (h1 : (k 1).val = t.val / 2 % 8 * 1024 + (x 1).val) :
    (tile V c 2 t : Vec F S1x1024 .f32) x = (V c main_v0 : S1x8192.Idx → Elt F .f32) k := by
  obtain ⟨e0, e1⟩ := where2 t
  unfold tile
  rw [View.read_apply]
  show V c main_v0 _ = V c main_v0 _
  congr 1
  funext a
  apply Fin.ext
  match a with
  | ⟨0, _⟩ => show win0_2.index t (0 : Fin 2) * 1 + 1 * (x 0).val = (k 0).val; rw [e0, h0]; omega
  | ⟨1, _⟩ => show win0_2.index t (1 : Fin 2) * 1024 + 1 * (x 1).val = (k 1).val; rw [e1, h1]; omega

end Cert.KernelIdeal.Layer0

end
-- ==== Proof.LibDenseDefs.lean ====
import Idealize.ShloMosaic.PureOps.Ideal
import Idealize.ShloMosaic.Lib.ValueIdx

/-!
# Dense layers on rows of extended reals: the definitions

A dense layer sends the rows of an `M × K` array `x` to `x · w + b`: entry `(r, q)` is `∑ k, x[r, k] · w[k, q] + b[q]`
(`lin`). `relu x = max x 0`; `cat` joins two arrays along the columns. All at an arbitrary number of rows.
-/

noncomputable section

namespace Cert.LibDense

open Idealize.ShloMosaic Idealize.ShloMosaic.ValueIdx

/-- An `m × n` array of extended reals. -/
abbrev Mat (m n : Nat) := (⟨2, ![m, n]⟩ : Shape).Idx → EReal
/-- A vector of `n` extended reals. -/
abbrev Row (n : Nat) := (⟨1, ![n]⟩ : Shape).Idx → EReal

/-- `max x 0`. -/
def relu (x : EReal) : EReal := max x 0

/-- `relu` entry by entry, over any index type. -/
def reluM {ι : Type} (x : ι → EReal) : ι → EReal := fun i => relu (x i)

/-- The dense layer `x · w + b`: entry `(r, q)` is `∑ k, x[r, k] · w[k, q] + b[q]`. -/
def lin {M K N : Nat} (x : Mat M K) (w : Mat K N) (b : Row N) : Mat M N :=
  fun i => (∑ k : Fin K, x (ix2 (i 0) k) * w (ix2 k (i 1))) + b (ix1 (i 1))

/-- Two arrays side by side: columns `0 … A-1` are `s`'s, columns `A … A+B-1` are `d`'s. -/
def cat {M A B : Nat} (s : Mat M A) (d : Mat M B) : Mat M (A + B) :=
  fun i => if h : (i 1).val < A then s (ix2 (i 0) ⟨(i 1).val, h⟩)
    else d (ix2 (i 0) ⟨(i 1).val - A, by have := (i 1).isLt; change (i 1).val < A + B at this; omega⟩)

theorem lin_apply {M K N : Nat} (x : Mat M K) (w : Mat K N) (b : Row N) (r : Fin M) (q : Fin N) :
    lin x w b (ix2 r q) = (∑ k : Fin K, x (ix2 r k) * w (ix2 k q)) + b (ix1 q) := rfl

end Cert.LibDense

end
-- ==== Proof.Spec.lean ====
import proofs.«165055_j20504173871714_1_alg».proof.Proof.LibDenseDefs
import Idealize.ShloMosaic.Lib.ValueIdx

/-!
# Two dense layers with relu, the weights stored output-major

A layer sends the rows of an M × K array x to relu(x · Wᵀ + b), where W is N × K (one row per output feature):
entry (p, q) is max(∑ k, x[p, k] · W[q, k] + b[q], 0). The network is two such layers, the hidden array of the
first being the input of the second.
-/

noncomputable section

namespace Cert.Mlp

open Idealize.ShloMosaic Idealize.ShloMosaic.ValueIdx Cert.LibDense

/-- The affine part of a layer: entry (p, q) is ∑ k, x[p, k] · W[q, k] + b[q]. -/
def affine {M K N : Nat} (x : Mat M K) (W : Mat N K) (b : Fin N → EReal) : Mat M N :=
  fun i => (∑ k : Fin K, x (ix2 (i 0) k) * W (ix2 (i 1) k)) + b (i 1)

/-- One layer: relu of the affine part, entry by entry. -/
def layer {M K N : Nat} (x : Mat M K) (W : Mat N K) (b : Fin N → EReal) : Mat M N :=
  fun i => relu (affine x W b i)

theorem affine_apply {M K N : Nat} (x : Mat M K) (W : Mat N K) (b : Fin N → EReal) (p : Fin M) (q : Fin N) :
    affine x W b (ix2 p q) = (∑ k : Fin K, x (ix2 p k) * W (ix2 q k)) + b q := rfl

theorem layer_apply {M K N : Nat} (x : Mat M K) (W : Mat N K) (b : Fin N → EReal) (p : Fin M) (q : Fin N) :
    layer x W b (ix2 p q) = relu ((∑ k : Fin K, x (ix2 p k) * W (ix2 q k)) + b q) := rfl

/-- The whole network on arrays of the program's sizes: x is 4096 × 2048, W1 8192 × 2048, W2 2048 × 8192. -/
def net (x : Mat 4096 2048) (W1 : Mat 8192 2048) (b1 : Fin 8192 → EReal) (W2 : Mat 2048 8192) (b2 : Fin 2048 → EReal) :
    Mat 4096 2048 :=
  layer (layer x W1 b1) W2 b2

end Cert.Mlp

end
-- ==== Proof.LibTiles.lean ====
/-
  Regrouping finite sums over index sets that are cut into tiles. A sum over a · b consecutive indices is
  the sum over the a tiles of the sums over the b indices of a tile; for 4096 = 4 · 1024 the outer sum,
  written out from a zero start, is ((((0 + S₀) + S₁) + S₂) + S₃). A sum over 8192 = 4096 + 4096
  indices is the sum over the lower half plus the sum over the upper half. A sum over the index set
  of an n × 1 array is the sum over its n rows.
-/
import Mathlib.Algebra.BigOperators.Fin
import Mathlib.Data.Fintype.BigOperators
import Mathlib.Logic.Equiv.Fin.Basic
import Idealize.ShloMosaic.Lib.ValueIdx

namespace Cert.LibTiles

open Idealize.ShloMosaic Idealize.ShloMosaic.ValueIdx

variable {M : Type*} [AddCommMonoid M]

/-! ## Tiles of equal length -/

/-- Index k of tile j, among a tiles of length b, lies below a · b: j · b + k < (j + 1) · b ≤ a · b. -/
theorem tile_lt {a b : ℕ} (j : Fin a) (k : Fin b) : j.val * b + k.val < a * b :=
  calc j.val * b + k.val < j.val * b + b := Nat.add_lt_add_left k.isLt _
    _ = (j.val + 1) * b := (Nat.succ_mul _ _).symm
    _ ≤ a * b := Nat.mul_le_mul_right b j.isLt

/-- A sum over a · b indices is the sum over the a tiles of the sum over each tile's b indices:
    (j, k) ↦ j · b + k is a bijection from pairs onto the indices below a · b. -/
theorem tile_sum (a b : ℕ) (f : Fin (a * b) → M) :
    ∑ i : Fin (a * b), f i = ∑ j : Fin a, ∑ k : Fin b, f ⟨j.val * b + k.val, tile_lt j k⟩ := by
  rw [← Equiv.sum_comp finProdFinEquiv f, Fintype.sum_prod_type]
  refine Finset.sum_congr rfl fun j _ => Finset.sum_congr rfl fun k _ => ?_
  congr 1
  apply Fin.ext
  show k.val + b * j.val = j.val * b + k.val
  rw [Nat.mul_comm, Nat.add_comm]

/-! ## 4096 = 4 · 1024 -/

/-- Index q of tile j, among 4 tiles of length 1024, lies below 4096. -/
theorem tile_lt_4096 (j : Fin 4) (q : Fin 1024) : j.val * 1024 + q.val < 4096 :=
  tile_lt j q

/-- The same bound with the tile's number a natural number below 4. -/
theorem tile_lt_nat {j : ℕ} (hj : j < 4) (q : Fin 1024) : j * 1024 + q.val < 4096 :=
  tile_lt_4096 ⟨j, hj⟩ q

/-- A sum over 4096 indices is the sum over 4 tiles of the sums over each tile's 1024 indices. -/
theorem tile_sum_4096 (f : Fin 4096 → M) :
    ∑ c : Fin 4096, f c =
      ∑ j : Fin 4, ∑ q : Fin 1024, f ⟨j.val * 1024 + q.val, tile_lt_4096 j q⟩ :=
  tile_sum 4 1024 f

/-- With S j the sum over tile j, the sum over 4096 indices is the four tile sums added one after the
    other onto zero. -/
theorem tile_sum_4096_of (f : Fin 4096 → M) (S : Fin 4 → M)
    (hS : ∀ j : Fin 4, S j = ∑ q : Fin 1024, f ⟨j.val * 1024 + q.val, tile_lt_4096 j q⟩) :
    ∑ c : Fin 4096, f c = (((0 + S 0) + S 1) + S 2) + S 3 := by
  rw [tile_sum_4096, Fin.sum_univ_four, zero_add, hS 0, hS 1, hS 2, hS 3]

/-- The same with the tile sums written out, the tile's number a numeral. -/
theorem tile_sum_4096_acc (f : Fin 4096 → M) :
    ∑ c : Fin 4096, f c =
      (((0 + ∑ q : Fin 1024, f ⟨0 * 1024 + q.val, tile_lt_nat (by decide) q⟩)
          + ∑ q : Fin 1024, f ⟨1 * 1024 + q.val, tile_lt_nat (by decide) q⟩)
          + ∑ q : Fin 1024, f ⟨2 * 1024 + q.val, tile_lt_nat (by decide) q⟩)
          + ∑ q : Fin 1024, f ⟨3 * 1024 + q.val, tile_lt_nat (by decide) q⟩ := by
  rw [tile_sum_4096, Fin.sum_univ_four, zero_add]
  rfl

/-! ## 8192 = 4096 + 4096 -/

/-- An index of the lower half lies below 8192. -/
theorem lo_lt (r : Fin 4096) : r.val < 8192 := lt_trans r.isLt (by decide)

/-- An index of the upper half lies below 8192. -/
theorem hi_lt (r : Fin 4096) : 4096 + r.val < 8192 := Nat.add_lt_add_left r.isLt 4096

/-- A sum over 8192 indices is the sum over the lower 4096 plus the sum over the upper 4096. -/
theorem sum_halves (f : Fin 8192 → M) :
    ∑ i : Fin 8192, f i =
      (∑ r : Fin 4096, f ⟨r.val, lo_lt r⟩) + ∑ r : Fin 4096, f ⟨4096 + r.val, hi_lt r⟩ :=
  Fin.sum_univ_add (a := 4096) (b := 4096) f

/-- If f is g on the lower half and h on the upper half, the sum of f is the sum of g plus the sum of h. -/
theorem sum_halves_of (f : Fin 8192 → M) (g h : Fin 4096 → M)
    (hg : ∀ r : Fin 4096, f ⟨r.val, lo_lt r⟩ = g r)
    (hh : ∀ r : Fin 4096, f ⟨4096 + r.val, hi_lt r⟩ = h r) :
    ∑ i : Fin 8192, f i = (∑ r : Fin 4096, g r) + ∑ r : Fin 4096, h r := by
  rw [sum_halves]
  congr 1
  · exact Finset.sum_congr rfl fun r _ => hg r
  · exact Finset.sum_congr rfl fun r _ => hh r

/-- The lower half alone: where f vanishes on the upper half, its sum is the sum over the lower half. -/
theorem sum_lo_of_hi_zero (f : Fin 8192 → M) (hz : ∀ r : Fin 4096, f ⟨4096 + r.val, hi_lt r⟩ = 0) :
    ∑ i : Fin 8192, f i = ∑ r : Fin 4096, f ⟨r.val, lo_lt r⟩ := by
  rw [sum_halves, Finset.sum_eq_zero (fun r _ => hz r), add_zero]

/-- The upper half alone: where f vanishes on the lower half, its sum is the sum over the upper half. -/
theorem sum_hi_of_lo_zero (f : Fin 8192 → M) (hz : ∀ r : Fin 4096, f ⟨r.val, lo_lt r⟩ = 0) :
    ∑ i : Fin 8192, f i = ∑ r : Fin 4096, f ⟨4096 + r.val, hi_lt r⟩ := by
  rw [sum_halves, Finset.sum_eq_zero (fun r _ => hz r), zero_add]

/-! ## One column -/

/-- A sum over the index set of an n × 1 array is the sum over its rows: the column coordinate has the
    one value 0. -/
theorem one_col {n : ℕ} (g : (⟨2, ![n, 1]⟩ : Shape).Idx → M) :
    ∑ i : (⟨2, ![n, 1]⟩ : Shape).Idx, g i = ∑ r : Fin n, g (ix2 r 0) := by
  rw [sum_idx2]
  exact Finset.sum_congr rfl fun r _ => Fin.sum_univ_one _

end Cert.LibTiles
-- ==== Proof.LibLayout.lean ====
import proofs.«165055_j20504173871714_1_alg».proof.Proof.LibDenseDefs
import Idealize.ShloMosaic.PureOps.Ideal.Laws
import Idealize.ShloMosaic.Lib.ValueLayout
import Idealize.ShloMosaic.Lib.Pipeline.Value
import Idealize.ShloMosaic.Lib.StableHlo.Predicate

/-!
# Bias, `relu` and the column join, in the host's spelling and in a kernel's, read at an entry

* the bias of a row vector, as the host spells it (`broadcast_in_dim` twice: `[N] → [1, N] → [M, N]`) and as a kernel
  spells it (`shape_cast` to `[1, N]`, `broadcast` to `[M, N]`): both are `b[q]` at `(p, q)`;
* `max · 0` against the zero splat, in the host's and in a kernel's spelling: `relu` entry by entry;
* `concatenate` of two arrays along the columns: `cat`.
-/

noncomputable section

namespace Cert.LibDense

open Idealize.ShloMosaic Idealize.ShloMosaic.ValueIdx

/-! ## The bias read at an entry -/

/-- The host's bias: a row vector broadcast `[N] → [1, N] → [M, N]` reads `b[q]` at `(p, q)`. -/
theorem hostBias_apply {α : Type} (M N : Nat) (h₁ : (⟨1, ![N]⟩ : Shape).BroadcastsInDim ⟨2, ![1, N]⟩ ![1])
    (h₂ : (⟨2, ![1, N]⟩ : Shape).BroadcastsInDim ⟨2, ![M, N]⟩ ![0, 1]) (b : (⟨1, ![N]⟩ : Shape).Idx → α) (p : Fin M) (q : Fin N) :
    broadcastInDim ⟨2, ![M, N]⟩ ![0, 1] h₂ (broadcastInDim ⟨2, ![1, N]⟩ ![1] h₁ b) (ix2 p q) = b (ix1 q) := by
  -- the two spellings of the index (p, q), and of the index q, are the same function of the coordinate
  have e2 : (ix2 p q : (⟨2, ![M, N]⟩ : Shape).Idx) = StableHlo.Predicate.ij p q := by
    funext a; match a with | ⟨0, _⟩ => rfl | ⟨1, _⟩ => rfl
  have e1 : (ix1 q : (⟨1, ![N]⟩ : Shape).Idx) = Shape.Idx.ofFin q := by
    funext a; match a with | ⟨0, _⟩ => rfl
  rw [e2, e1]
  exact StableHlo.Predicate.bcast_cols h₁ h₂ b p q

/-- A kernel's bias: a row vector shape-cast to `[1, N]` and broadcast to `[M, N]` reads `b[q]` at `(p, q)`. -/
theorem kernBias_apply {α : Type} (M N : Nat) (hc : (⟨1, ![N]⟩ : Shape).ShapeCasts ⟨2, ![1, N]⟩)
    (hb : (⟨2, ![1, N]⟩ : Shape).Broadcasts ⟨2, ![M, N]⟩) (b : (⟨1, ![N]⟩ : Shape).Idx → α) (p : Fin M) (q : Fin N) :
    broadcastTo ⟨2, ![M, N]⟩ (shapeCast ⟨2, ![1, N]⟩ b hc) hb (ix2 p q) = b (ix1 q) := by
  have hq := q.isLt
  -- the broadcast reads the [1, N] row at (0, q): axis 0 of the row is a unit axis, axis 1 keeps the column
  refine (broadcastTo_apply (shapeCast ⟨2, ![1, N]⟩ b hc) hb (ix2 p q) (ix2 (0 : Fin 1) q) ?_).trans ?_
  · intro a
    match a with
    | ⟨0, _⟩ => exact (if_pos rfl).symm
    | ⟨1, _⟩ =>
      show q.val = if N = 1 then 0 else q.val
      split
      · omega
      · rfl
  -- the shape cast keeps the row-major position: 0 * N + q = q
  · refine shapeCast_apply b hc (ix2 (0 : Fin 1) q) (ix1 q) ?_
    rw [Shape.rowMajor_val_one, Shape.rowMajor_val_two]
    show q.val = 0 * N + q.val
    omega

/-! ## `relu` in the two spellings -/

/-- The host's `maximum(x, broadcast(0.0))` is `relu` entry by entry. -/
theorem hostRelu_eq {s : Shape} (h : (⟨0, ![]⟩ : Shape).BroadcastsInDim s ![]) (x : FVec Ideal s .f32) :
    maximumf x (broadcastInDim s ![] h (constant (F := Ideal) (⟨0, ![]⟩ : Shape) .f32 0x00000000#32)) = reluM x := by
  funext i
  show max (x i) (broadcastInDim s ![] h (constant (F := Ideal) (⟨0, ![]⟩ : Shape) .f32 0x00000000#32) i) = relu (x i)
  rw [StableHlo.Predicate.bcast_scalar h (by decide) _ i, constant_apply, Ideal.ofBits_zero_f32]
  rfl

/-- A kernel's `maximumf(x, broadcast 0.0)` is `relu` entry by entry. -/
theorem kernRelu_eq {s : Shape} (x : FVec Ideal s .f32) :
    maximumf x (broadcast s (Scalar.ofBits (F := Ideal) .f32 0x00000000#32)) = reluM x := by
  funext i
  show max (x i) (Ideal.ofBits .f32 0x00000000#32) = relu (x i)
  rw [Ideal.ofBits_zero_f32]
  rfl

/-! ## The column join -/

/-- `concatenate` of two arrays along the columns is `cat`. -/
theorem concat_eq (M A B : Nat) (h : Shape.Concatenates [(⟨2, ![M, A]⟩ : Shape), (⟨2, ![M, B]⟩ : Shape)] (⟨2, ![M, A + B]⟩ : Shape) 1)
    (s : Mat M A) (d : Mat M B) :
    concatenate (⟨2, ![M, A + B]⟩ : Shape) 1 [⟨(⟨2, ![M, A]⟩ : Shape), s⟩, ⟨(⟨2, ![M, B]⟩ : Shape), d⟩] h = cat s d := by
  funext i
  have hi1 : (i 1).val < A + B := (i 1).isLt
  unfold cat
  by_cases hlt : (i 1).val < A
  -- a column below A lies in the first piece, at the same coordinates
  · rw [dif_pos hlt]
    refine concatenate_pair_apply_left (1 : Fin 2) s d h i rfl (ix2 (i 0) ⟨(i 1).val, hlt⟩) ?_
    intro b
    match b with
    | ⟨0, _⟩ => rfl
    | ⟨1, _⟩ => rfl
  -- a column at or past A lies in the second piece, A columns to the left
  · rw [dif_neg hlt]
    refine concatenate_pair_apply_right (1 : Fin 2) s d h i rfl rfl (ix2 (i 0) ⟨(i 1).val - A, by omega⟩) ?_ ?_
    · intro b hb
      match b, hb with
      | ⟨0, _⟩, _ => rfl
      | ⟨1, _⟩, hb => exact absurd rfl hb
    · show (i 1).val - A + A = (i 1).val
      omega

end Cert.LibDense

end
-- ==== Proof.LibContractRhsT.lean ====
import Idealize.ShloMosaic.PureOps.Ideal.Laws
import Idealize.ShloMosaic.Lib.ValueIdx

/-!
# The contraction `[M, K] × [N, K]` read at an entry, on the extended reals

`DotDims.transposedRhs M K N` has the fields of every printed `…_1_1_0_0_n_n` record of rank-2 operands (contract the
left operand's axis 1 with the right operand's axis 1, no batch axes): the product `a · bᵀ`. Over it the host's
`dot_general` and a kernel's `tpu.matmul` into the zero splat are both, at entry `(p, q)`, the sum over `k` of
`a[p, k] · b[q, k]`.
-/

noncomputable section

namespace Cert.LibContractRhsT

open Idealize.ShloMosaic Idealize.ShloMosaic.ValueIdx

/-! ## The operand indices, axis by axis

At result index `j` and contraction index `c` the left operand is read at `(j 0, c)` and the right one at `(j 1, c)`:
a kept axis reads the result index at its place, the contracted axis reads the one coordinate of `c`. -/

/-- The left operand's row is the result's row. -/
theorem lhs_0 (M K N : Nat) (j : (⟨2, ![M, N]⟩ : Shape).Idx) (c : (DotDims.transposedRhs M K N).contr.Idx) :
    ((DotDims.transposedRhs M K N).lhsIdx j c 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction index's coordinate. -/
theorem lhs_1 (M K N : Nat) (j : (⟨2, ![M, N]⟩ : Shape).Idx) (c : (DotDims.transposedRhs M K N).contr.Idx) :
    ((DotDims.transposedRhs M K N).lhsIdx j c 1).val = (c ⟨0, Nat.one_pos⟩).val :=
  (DotDims.transposedRhs M K N).lhsIdx_val_of_single rfl j c

/-- The right operand's row is the result's column. -/
theorem rhs_0 (M K N : Nat) (j : (⟨2, ![M, N]⟩ : Shape).Idx) (c : (DotDims.transposedRhs M K N).contr.Idx) :
    ((DotDims.transposedRhs M K N).rhsIdx j c 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction index's coordinate. -/
theorem rhs_1 (M K N : Nat) (j : (⟨2, ![M, N]⟩ : Shape).Idx) (c : (DotDims.transposedRhs M K N).contr.Idx) :
    ((DotDims.transposedRhs M K N).rhsIdx j c 1).val = (c ⟨0, Nat.one_pos⟩).val :=
  (DotDims.transposedRhs M K N).rhsIdx_val_of_single rfl j c

/-- The sum over the one-axis contraction index, re-indexed by its coordinate `k : Fin K` and with both operand
    indices read off: `∑ k, a[p, k] · b[q, k]`. -/
theorem sum_eq (M K N : Nat) {φ₁ φ₂ : FTy} (a : FVec Ideal (⟨2, ![M, K]⟩ : Shape) φ₁)
    (b : FVec Ideal (⟨2, ![N, K]⟩ : Shape) φ₂) (p : Fin M) (q : Fin N) :
    (∑ c : (DotDims.transposedRhs M K N).contr.Idx,
        a ((DotDims.transposedRhs M K N).lhsIdx (ix2 p q) c) * b ((DotDims.transposedRhs M K N).rhsIdx (ix2 p q) c))
      = ∑ k : Fin K, a (ix2 p k) * b (ix2 q k) := by
  rw [← Equiv.sum_comp (ValueIdx.contrEquiv1 (DotDims.transposedRhs M K N) K rfl rfl).symm]
  refine Finset.sum_congr rfl fun k _ => ?_
  have hk := ValueIdx.contrEquiv1_symm_val (DotDims.transposedRhs M K N) K rfl rfl k
  have el : (DotDims.transposedRhs M K N).lhsIdx (ix2 p q) ((ValueIdx.contrEquiv1 (DotDims.transposedRhs M K N) K rfl rfl).symm k)
      = ix2 p k := funext fun x => Fin.ext (by
    match x with
    | ⟨0, _⟩ => exact lhs_0 M K N _ _
    | ⟨1, _⟩ => exact (lhs_1 M K N _ _).trans hk)
  have er : (DotDims.transposedRhs M K N).rhsIdx (ix2 p q) ((ValueIdx.contrEquiv1 (DotDims.transposedRhs M K N) K rfl rfl).symm k)
      = ix2 q k := funext fun x => Fin.ext (by
    match x with
    | ⟨0, _⟩ => exact rhs_0 M K N _ _
    | ⟨1, _⟩ => exact (rhs_1 M K N _ _).trans hk)
  rw [el, er]

/-! ## The contraction read at an entry -/

/-- The host's `dot_general` contracting both operands' last axes, at entry `(p, q)`: `∑ k, a[p, k] · b[q, k]`. -/
theorem dotGeneral_apply (M K N : Nat) {φ₁ φ₂ : FTy} (prec : Option ContractPrecision)
    (a : FVec Ideal (⟨2, ![M, K]⟩ : Shape) φ₁) (b : FVec Ideal (⟨2, ![N, K]⟩ : Shape) φ₂) (p : Fin M) (q : Fin N) :
    Host.dotGeneral (DotDims.transposedRhs M K N) prec a b (ix2 p q) = ∑ k : Fin K, a (ix2 p k) * b (ix2 q k) := by
  simp only [Host.dotGeneral]
  rw [Ideal.dotGeneral_apply]
  exact sum_eq M K N a b p q

/-- A kernel's `tpu.matmul` contracting both operands' last axes into the zero splat, at entry `(p, q)`: the same sum. -/
theorem matmul_zero_apply (M K N : Nat) {φ₁ φ₂ : FTy} (prec : Option ContractPrecision)
    (a : FVec Ideal (⟨2, ![M, K]⟩ : Shape) φ₁) (b : FVec Ideal (⟨2, ![N, K]⟩ : Shape) φ₂) (p : Fin M) (q : Fin N) :
    matmul (DotDims.transposedRhs M K N) prec a b (constant (F := Ideal) (⟨2, ![M, N]⟩ : Shape) .f32 0x00000000#32) (ix2 p q)
      = ∑ k : Fin K, a (ix2 p k) * b (ix2 q k) := by
  simp only [matmul]
  rw [Ideal.matmul_constant_zero_apply]
  exact sum_eq M K N a b p q

end Cert.LibContractRhsT

end
-- ==== Proof.Payloads.lean ====
import proofs.«165055_j20504173871714_1_alg».proof.Proof.Gen.KernelIdeal.Skeleton
import proofs.«165055_j20504173871714_1_alg».proof.Proof.LibLayout
import proofs.«165055_j20504173871714_1_alg».proof.Proof.LibContractRhsT
import Idealize.ShloMosaic.Lib.Pipeline.Value
import Idealize.ShloMosaic.Lib.ValueIdx
import Idealize.ShloMosaic.PureOps.Ideal.Laws

/-!
# The values the two kernel bodies store, read at an entry

Each body stores three values, all 1024 × 1024 blocks of extended reals at the ideal instance:

* at the first step of the contraction axis, the zero block;
* at every step, the accumulator plus the product a · wᵀ of the two operand blocks: entry (p, q) is
  acc[p, q] + ∑ r, a[p, r] · w[q, r] (the narrowing of an operand to bf16 changes no value here, nor does a
  reshape to the same shape);
* at the last step, the accumulator plus the bias row broadcast down the rows, clipped at zero: entry (p, q) is
  max(acc[p, q] + b[0, q], 0).

The two bodies differ only in the element types of the first operand and of the stored result, which the ideal
instance does not see.
-/

noncomputable section

namespace Cert.KernelIdeal.Payloads

open Cert.KernelIdeal Cert.KernelIdeal.Gen Cert.LibDense Idealize.ShloMosaic Idealize.ShloMosaic.ValueIdx

/-- The printed contraction record contracts the last axis of both operands: it is a · bᵀ. -/
theorem dot_eq : dot_S1024x1024_S1024x1024_S1024x1024_1_1_0_0_n_n = DotDims.transposedRhs 1024 1024 1024 := rfl

/-! ## The three values over arbitrary operands -/

/-- The zero splat, reshaped to its own shape, is zero at every entry. -/
theorem zeroBlock_apply (h : S1024x1024.ShapeCasts S1024x1024) (i : S1024x1024.Idx) :
    shapeCast S1024x1024 (broadcast S1024x1024 (Scalar.ofBits (F := Ideal) .f32 0x00000000#32)) h i = 0 := by
  rw [shapeCast_self]
  exact Ideal.ofBits_zero_f32

/-- One accumulation step at entry (p, q): acc[p, q] + ∑ r, a[p, r] · w[q, r]. -/
theorem accumulate_apply {φ₁ φ₂ : FTy} (a : FVec Ideal S1024x1024 φ₁) (w : FVec Ideal S1024x1024 φ₂) (acc : FVec Ideal S1024x1024 .f32)
    (h : S1024x1024.ShapeCasts S1024x1024) (p q : Fin 1024) :
    shapeCast S1024x1024 (addf acc (matmul dot_S1024x1024_S1024x1024_S1024x1024_1_1_0_0_n_n none a w
        (constant S1024x1024 .f32 0x00000000#32))) h (ix2 p q)
      = acc (ix2 p q) + ∑ r : Fin 1024, a (ix2 p r) * w (ix2 q r) := by
  rw [shapeCast_self, dot_eq]
  show acc (ix2 p q) + _ = _
  exact congrArg (acc (ix2 p q) + ·) (Cert.LibContractRhsT.matmul_zero_apply 1024 1024 1024 none a w p q)

/-- The bias row, reshaped to its own shape and broadcast down the rows, is b[0, q] at (p, q). -/
theorem biasRow_apply (b : FVec Ideal S1x1024 .f32) (h₁ : S1x1024.ShapeCasts S1x1024) (h₂ : S1x1024.Broadcasts S1024x1024)
    (p q : Fin 1024) :
    broadcastTo S1024x1024 (shapeCast S1x1024 b h₁) h₂ (ix2 p q) = b (ix2 (0 : Fin 1) q) := by
  rw [shapeCast_self]
  refine broadcastTo_apply b h₂ (ix2 p q) (ix2 (0 : Fin 1) q) fun a => ?_
  match a with
  | ⟨0, _⟩ => exact (if_pos rfl).symm
  | ⟨1, _⟩ =>
    show q.val = if (1024 : Nat) = 1 then 0 else q.val
    rw [if_neg (by decide)]

/-- The closing step at entry (p, q): max(acc[p, q] + b[0, q], 0). -/
theorem biasRelu_apply (acc : FVec Ideal S1024x1024 .f32) (b : FVec Ideal S1x1024 .f32) (h₁ : S1x1024.ShapeCasts S1x1024)
    (h₂ : S1x1024.Broadcasts S1024x1024) (p q : Fin 1024) :
    maximumf (addf acc (broadcastTo S1024x1024 (shapeCast S1x1024 b h₁) h₂))
        (broadcast S1024x1024 (Scalar.ofBits (F := Ideal) .f32 0x00000000#32)) (ix2 p q)
      = relu (acc (ix2 p q) + b (ix2 (0 : Fin 1) q)) := by
  rw [kernRelu_eq]
  show relu (acc (ix2 p q) + broadcastTo S1024x1024 (shapeCast S1x1024 b h₁) h₂ (ix2 p q)) = _
  rw [biasRow_apply]

/-! ## The first body (f32 operands, bf16 result) -/

theorem pay1_apply_0 (i : S1024x1024.Idx) : (k0_pay1 (F := Ideal)) i = 0 := by
  unfold k0_pay1
  exact zeroBlock_apply _ i

theorem pay2_apply_0 (a : Vec Ideal S1024x1024 .f32) (w acc : Vec Ideal S1024x1024 .f32) (p q : Fin 1024) :
    k0_pay2 (F := Ideal) a w acc (ix2 p q) = acc (ix2 p q) + ∑ r : Fin 1024, a (ix2 p r) * w (ix2 q r) := by
  unfold k0_pay2
  -- narrowing an operand to bf16 is the identity on the extended reals
  exact accumulate_apply (truncf .bf16 a bitsLt_bf16_f32) (truncf .bf16 w bitsLt_bf16_f32) acc _ p q

theorem pay3_apply_0 (acc : Vec Ideal S1024x1024 .f32) (b : Vec Ideal S1x1024 .f32) (p q : Fin 1024) :
    k0_pay3 (F := Ideal) acc b (ix2 p q) = relu (acc (ix2 p q) + b (ix2 (0 : Fin 1) q)) := by
  unfold k0_pay3
  -- narrowing the result to bf16 is the identity on the extended reals
  exact biasRelu_apply acc b _ _ p q

/-! ## The second body (bf16 first operand, f32 result) -/

theorem pay1_apply_1 (i : S1024x1024.Idx) : (k1_pay1 (F := Ideal)) i = 0 := by
  unfold k1_pay1
  exact zeroBlock_apply _ i

theorem pay2_apply_1 (a : Vec Ideal S1024x1024 .bf16) (w acc : Vec Ideal S1024x1024 .f32) (p q : Fin 1024) :
    k1_pay2 (F := Ideal) a w acc (ix2 p q) = acc (ix2 p q) + ∑ r : Fin 1024, a (ix2 p r) * w (ix2 q r) := by
  unfold k1_pay2
  -- the first operand is reshaped to its own shape, the second narrowed to bf16: both the identity here
  rw [shapeCast_self a]
  exact accumulate_apply a (truncf .bf16 w bitsLt_bf16_f32) acc _ p q

theorem pay3_apply_1 (acc : Vec Ideal S1024x1024 .f32) (b : Vec Ideal S1x1024 .f32) (p q : Fin 1024) :
    k1_pay3 (F := Ideal) acc b (ix2 p q) = relu (acc (ix2 p q) + b (ix2 (0 : Fin 1) q)) := by
  unfold k1_pay3
  exact biasRelu_apply acc b _ _ p q

end Cert.KernelIdeal.Payloads

end
-- ==== Proof.Layer0.Value.lean ====
/- First dense layer at the exact (extended-real) instance: the array of hidden activations the layer leaves is
   relu(x · W1ᵀ + b1). Grid point t = 16 i + 2 j + k works on rows 1024 i … of x, rows 1024 j … of W1 and columns
   1024 k … of both. After the point with k = 0 entry (p, q) of the accumulator is 0 + the contraction over columns
   0 … 1023; the point with k = 1 adds the contraction over columns 1024 … 2047, and writes relu of that plus the bias
   entry 1024 j + q into the output tile. The two partial contractions are the contraction over all 2048 columns, so
   the tile written back is tile (i, j) of relu(x · W1ᵀ + b1); the 32 tiles (i, j) fill the 4096 × 8192 array. -/
import proofs.«165055_j20504173871714_1_alg».proof.Proof.Layer0.Pieces
import proofs.«165055_j20504173871714_1_alg».proof.Proof.Spec
import proofs.«165055_j20504173871714_1_alg».proof.Proof.LibTiles
import proofs.«165055_j20504173871714_1_alg».proof.Proof.Payloads
import Idealize.ShloMosaic.Lib.Pipeline.Value
import Idealize.ShloMosaic.Lib.ValueIdx

set_option maxRecDepth 16384

noncomputable section

namespace Cert.KernelIdeal.Layer0

open Cert.KernelIdeal Cert.KernelIdeal.Gen Cert.KernelIdeal.Payloads Cert.LibDense
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The operands and their tiles, by their literal types -/

abbrev xArr (c : Dev nD) : Vec Ideal S4096x2048 .f32 := V c main_arg0
abbrev wArr (c : Dev nD) : Vec Ideal S8192x2048 .f32 := V c main_arg1
abbrev bRow (c : Dev nD) : Vec Ideal S1x8192 .f32 := V c main_v0
abbrev xTile (c : Dev nD) (t : Fin cfg0.N) : Vec Ideal S1024x1024 .f32 := tile V c 0 t
abbrev wTile (c : Dev nD) (t : Fin cfg0.N) : Vec Ideal S1024x1024 .f32 := tile V c 1 t
abbrev bTile (c : Dev nD) (t : Fin cfg0.N) : Vec Ideal S1x1024 .f32 := tile V c 2 t

/-- The hidden activations relu(x · W1ᵀ + b1) of the operands as the layer finds them. -/
abbrev hidden (c : Dev nD) : Mat 4096 8192 :=
  Cert.Mlp.layer (xArr V c) (wArr V c) (fun q : Fin 8192 => bRow V c (ix2 (0 : Fin 1) q))

/-- Entry (p, r) of the x-tile at point t is entry (P, R) of x, with P = 1024 i + p and R = 1024 k + r. -/
theorem xTile_at (c : Dev nD) (t : Fin cfg0.N) (p r : Fin 1024) (P : Fin 4096) (R : Fin 2048)
    (hP : P.val = t.val / 16 * 1024 + p.val) (hR : R.val = t.val % 2 * 1024 + r.val) :
    xTile V c t (ix2 p r) = xArr V c (ix2 P R) :=
  tile0_apply V c t (ix2 p r) (ix2 P R) hP hR

/-- Entry (q, r) of the W1-tile at point t is entry (Q, R) of W1, with Q = 1024 j + q and R = 1024 k + r. -/
theorem wTile_at (c : Dev nD) (t : Fin cfg0.N) (q r : Fin 1024) (Q : Fin 8192) (R : Fin 2048)
    (hQ : Q.val = t.val / 2 % 8 * 1024 + q.val) (hR : R.val = t.val % 2 * 1024 + r.val) :
    wTile V c t (ix2 q r) = wArr V c (ix2 Q R) :=
  tile1_apply V c t (ix2 q r) (ix2 Q R) hQ hR

/-- Entry (0, q) of the bias tile at point t is entry (0, Q) of the bias row, with Q = 1024 j + q. -/
theorem bTile_at (c : Dev nD) (t : Fin cfg0.N) (q : Fin 1024) (Q : Fin 8192)
    (hQ : Q.val = t.val / 2 % 8 * 1024 + q.val) :
    bTile V c t (ix2 (0 : Fin 1) q) = bRow V c (ix2 (0 : Fin 1) Q) :=
  tile2_apply V c t (ix2 (0 : Fin 1) q) (ix2 (0 : Fin 1) Q) rfl hQ

/-! ## The partial contractions -/

/-- The contraction of the tiles at a point with k = kb is the contraction of row P of x with row Q of W1 over the
    columns 1024 kb … 1024 kb + 1023. -/
theorem tile_contraction (c : Dev nD) (t : Fin cfg0.N) (p q : Fin 1024) (P : Fin 4096) (Q : Fin 8192) (kb : Fin 2)
    (hP : P.val = t.val / 16 * 1024 + p.val) (hQ : Q.val = t.val / 2 % 8 * 1024 + q.val) (hk : kb.val = t.val % 2) :
    ∑ r : Fin 1024, xTile V c t (ix2 p r) * wTile V c t (ix2 q r)
      = ∑ r : Fin 1024, xArr V c (ix2 P ⟨kb.val * 1024 + r.val, Cert.LibTiles.tile_lt kb r⟩)
          * wArr V c (ix2 Q ⟨kb.val * 1024 + r.val, Cert.LibTiles.tile_lt kb r⟩) :=
  Finset.sum_congr rfl fun r _ =>
    congrArg₂ (· * ·) (xTile_at V c t p r P ⟨kb.val * 1024 + r.val, Cert.LibTiles.tile_lt kb r⟩ hP (congrArg (fun z => z * 1024 + r.val) hk))
      (wTile_at V c t q r Q ⟨kb.val * 1024 + r.val, Cert.LibTiles.tile_lt kb r⟩ hQ (congrArg (fun z => z * 1024 + r.val) hk))

/-- A sum over 2048 columns is zero plus the sum over the first 1024 plus the sum over the last 1024. -/
theorem two_halves (f : Fin 2048 → EReal) :
    ∑ k : Fin 2048, f k
      = (0 + ∑ r : Fin 1024, f ⟨(0 : Fin 2).val * 1024 + r.val, Cert.LibTiles.tile_lt (0 : Fin 2) r⟩)
          + ∑ r : Fin 1024, f ⟨(1 : Fin 2).val * 1024 + r.val, Cert.LibTiles.tile_lt (1 : Fin 2) r⟩ := by
  rw [zero_add]
  exact (Cert.LibTiles.tile_sum 2 1024 f).trans (Fin.sum_univ_two _)

/-! ## The accumulator and the output tile, entry by entry -/

/-- After a point with k = 0: zero plus the contraction of the point's tiles. -/
theorem accEven_entry (c : Dev nD) (t : Fin cfg0.N) (h : t.val % 2 = 0) (p q : Fin 1024) :
    accEven V c t h (ix2 p q) = 0 + ∑ r : Fin 1024, xTile V c t (ix2 p r) * wTile V c t (ix2 q r) :=
  (congrFun (accEven_eq V c t h) (ix2 p q)).trans
    ((pay2_apply_0 (xTile V c t) (wTile V c t) (k0_pay1 (F := Ideal)) p q).trans
      (congrArg (· + ∑ r : Fin 1024, xTile V c t (ix2 p r) * wTile V c t (ix2 q r)) (pay1_apply_0 (ix2 p q))))

/-- After a point with k = 1 the output tile holds relu of: what the point before left, plus the contraction of this
    point's tiles, plus the bias entry. -/
theorem outOdd_entry (c : Dev nD) (t : Fin cfg0.N) (h : ¬t.val % 2 = 0) (p q : Fin 1024) :
    outOdd V c t h (ix2 p q)
      = relu (((0 + ∑ r : Fin 1024, xTile V c (before t) (ix2 p r) * wTile V c (before t) (ix2 q r))
          + ∑ r : Fin 1024, xTile V c t (ix2 p r) * wTile V c t (ix2 q r)) + bTile V c t (ix2 (0 : Fin 1) q)) :=
  (congrFun (outOdd_eq V c t h) (ix2 p q)).trans
    ((pay3_apply_0 (k0_pay2 (xTile V c t) (wTile V c t) (accEven V c (before t) (before_even t h))) (bTile V c t) p q).trans
      (congrArg (fun z => relu (z + bTile V c t (ix2 (0 : Fin 1) q)))
        ((pay2_apply_0 (xTile V c t) (wTile V c t) (accEven V c (before t) (before_even t h)) p q).trans
          (congrArg (· + ∑ r : Fin 1024, xTile V c t (ix2 p r) * wTile V c t (ix2 q r))
            (accEven_entry V c (before t) (before_even t h) p q)))))

/-- So entry (p, q) of the tile written at the odd point t = 16 i + 2 j + 1 is entry (1024 i + p, 1024 j + q) of the
    hidden activations. -/
theorem outOdd_hidden (c : Dev nD) (t : Fin cfg0.N) (h : ¬t.val % 2 = 0) (p q : Fin 1024) (P : Fin 4096) (Q : Fin 8192)
    (hP : P.val = t.val / 16 * 1024 + p.val) (hQ : Q.val = t.val / 2 % 8 * 1024 + q.val) :
    outOdd V c t h (ix2 p q) = hidden V c (ix2 P Q) := by
  have hb : (before t).val = t.val - 1 := rfl
  have hP' : P.val = (before t).val / 16 * 1024 + p.val := by rw [hb, hP]; omega
  have hQ' : Q.val = (before t).val / 2 % 8 * 1024 + q.val := by rw [hb, hQ]; omega
  have hk0 : (0 : Fin 2).val = (before t).val % 2 := by rw [hb]; show 0 = _; omega
  have hk1 : (1 : Fin 2).val = t.val % 2 := by show 1 = _; omega
  refine (outOdd_entry V c t h p q).trans ?_
  refine (congrArg relu ?_).trans (Cert.Mlp.layer_apply (xArr V c) (wArr V c) (fun q : Fin 8192 => bRow V c (ix2 (0 : Fin 1) q)) P Q).symm
  rw [two_halves (fun k : Fin 2048 => xArr V c (ix2 P k) * wArr V c (ix2 Q k))]
  exact congrArg₂ (· + ·)
    (congrArg₂ (· + ·) (congrArg (fun z => 0 + z) (tile_contraction V c (before t) p q P Q 0 hP' hQ' hk0))
      (tile_contraction V c t p q P Q 1 hP hQ hk1))
    (bTile_at V c t q Q hQ)

/-- The same at any entry of the tile and the entry of the array it lies on. -/
theorem outOdd_at (c : Dev nD) (t : Fin cfg0.N) (h : ¬t.val % 2 = 0) (j : S1024x1024.Idx) (k : S4096x8192.Idx)
    (h0 : (k 0).val = t.val / 16 * 1024 + (j 0).val) (h1 : (k 1).val = t.val / 2 % 8 * 1024 + (j 1).val) :
    outOdd V c t h j = hidden V c k :=
  (congrArg (outOdd V c t h) (eq_ix2 j)).trans
    ((outOdd_hidden V c t h (j 0) (j 1) (k 0) (k 1) h0 h1).trans (congrArg (hidden V c) (eq_ix2 k).symm))

/-! ## The tiles written back, and the whole array -/

/-- What a point with k = 1 writes back is its tile of the hidden activations. -/
theorem flushed_eq (c : Dev nD) (t : Fin cfg0.N) (hf : (cfg0.win 3).flush t = true) :
    (dat V c).flushed 3 t = ((cfg0.win 3).blk t).view.read (Elt Ideal) (hidden V c) := by
  have h1 : t.val % 2 = 1 := (flush0_3 t).mp hf
  have h0 : ¬t.val % 2 = 0 := by omega
  obtain ⟨e0, e1⟩ := where3 t
  show (cfg0.win 3).cut (grid0.coords t) ((dat V c).after 3 t) = _
  rw [after3, outAt_odd V c t h0]
  funext j
  show outOdd V c t h0 j = hidden V c (((cfg0.win 3).blk t).view.emb j)
  refine outOdd_at V c t h0 j _ ?_ ?_
  · show win0_3.index t (0 : Fin 2) * 1024 + 1 * (j 0).val = _
    rw [e0]; omega
  · show win0_3.index t (1 : Fin 2) * 1024 + 1 * (j 1).val = _
    rw [e1]; omega

/-- An entry of the array lies in point t's tile iff each coordinate lies in the tile's range. -/
theorem mem_tile (t : Fin cfg0.N) (i : S4096x8192.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- Every entry (r, s) of the array is written back by the point with i = r / 1024, j = s / 1024, k = 1. -/
theorem covered (i : S4096x8192.Idx) :
    ∃ t : Fin cfg0.N, (cfg0.win 3).flush t = true ∧ i ∈ ((cfg0.win 3).blk t).view.set := by
  have hr : (i 0).val < 4096 := (i 0).isLt
  have hs : (i 1).val < 8192 := (i 1).isLt
  have hN : cfg0.N = 64 := N_0
  let t : Fin cfg0.N := ⟨16 * ((i 0).val / 1024) + 2 * ((i 1).val / 1024) + 1, by rw [hN]; omega⟩
  have ht : t.val = 16 * ((i 0).val / 1024) + 2 * ((i 1).val / 1024) + 1 := rfl
  obtain ⟨e0, e1⟩ := where3 t
  refine ⟨t, (flush0_3 t).mpr (by rw [ht]; omega), ?_⟩
  rw [mem_tile]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 1024 ≤ (i 1).val ∧ (i 1).val < win0_3.index t (1 : Fin 2) * 1024 + 1024
    rw [e1, ht]; omega

end Cert.KernelIdeal.Layer0

namespace Cert.KernelIdeal.Layer0

open Cert.KernelIdeal Cert.KernelIdeal.Gen
open Idealize.ShloMosaic Idealize.ShloMosaic.TcCoe Idealize.ShloMosaic.ValueIdx
open Idealize.SL Idealize.SL.Sem

/-- The layer leaves the array of hidden activations at relu(x · W1ᵀ + b1) of its operands as it finds them. -/
theorem final (V : (c : Dev nD) → (b : Ref sig .tc) → Buf (Elt Ideal) ((c : Thread nD τ).loc b)) (c : Dev nD) :
    (dat (F := Ideal) V c).arrAt 3 cfg0.N = Cert.Mlp.layer (V c main_arg0) (V c main_arg1) (fun q : Fin 8192 => V c main_v0 (ix2 (0 : Fin 1) q)) :=
  (dat V c).arrAt_eq_of_cover 3 (hidden V c) (flushed_eq V c) covered

end Cert.KernelIdeal.Layer0

end
-- ==== Proof.Layer1.Pieces.lean ====
/-
# The second dense layer's region: what each control case leaves, as values

The pieces each case writes, read back: the accumulator ends at the sum of what it held (the zero block at k = 0)
and the product of the point's blocks; at k = 7 the result's buffer ends at relu of that sum plus the bias row.
-/
import proofs.«165055_j20504173871714_1_alg».proof.Proof.Layer1.Dat
import Idealize.ShloMosaic.Lib.Pipeline.Value

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole-block access, however spelt. -/
theorem hz : (![0, 0] : Fin 2 → Nat) = fun _ => 0 := funext fun a => by fin_cases a <;> rfl

/-- 0 < k < 7: the accumulator ends at what it held plus the product of the blocks. -/
theorem accMid_eq (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬atFirstK i) (hc1 : ¬atLastK i)
    (x0 : Vec F S1024x1024 .bf16) (x1 : Vec F S1024x1024 .f32) (x2 : Vec F S1x1024 .f32) (xs : Vec F S1024x1024 .f32) :
    accMid c i arg3 harg3 arg4 harg4 arg5 harg5 arg6 harg6 arg7 harg7 hc0 hc1 x0 x1 x2 xs = k1_pay2 x0 x1 xs := by
  unfold accMid
  rw [View.read_writes_eq_canon _ _ _ (accMid_cover c i arg3 harg3 arg4 harg4 arg5 harg5 arg6 harg6 arg7 harg7 hc0 hc1 x0 x1 x2 xs)]
  unfold runMid
  dsimp only
  sl_unfold_words
  rw [View.canon_unit_zero hz]
  simp only [View.readAt_eq_ld, harg3.read_unread, harg4.read_unread, harg7.read_unread, View.ld_unit_zero (S := S1024x1024) hz]

/-- k = 7: the accumulator ends at what it held plus the product of the blocks. -/
theorem accLast_eq (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬atFirstK i) (hc1 : atLastK i)
    (x0 : Vec F S1024x1024 .bf16) (x1 : Vec F S1024x1024 .f32) (x2 : Vec F S1x1024 .f32) (xs : Vec F S1024x1024 .f32) :
    accLast c i arg3 harg3 arg4 harg4 arg5 harg5 arg6 harg6 arg7 harg7 hc0 hc1 x0 x1 x2 xs = k1_pay2 x0 x1 xs := by
  unfold accLast
  rw [View.read_writes_eq_canon _ _ _ (accLast_cover c i arg3 harg3 arg4 harg4 arg5 harg5 arg6 harg6 arg7 harg7 hc0 hc1 x0 x1 x2 xs)]
  unfold runLast
  dsimp only
  sl_unfold_words
  rw [View.canon_unit_zero hz]
  simp only [View.readAt_eq_ld, harg3.read_unread, harg4.read_unread, harg7.read_unread, View.ld_unit_zero (S := S1024x1024) hz]

/-- k = 7: the result's buffer ends at relu of (the accumulator's new contents plus the bias row). -/
theorem outLast_eq (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬atFirstK i) (hc1 : atLastK i)
    (x0 : Vec F S1024x1024 .bf16) (x1 : Vec F S1024x1024 .f32) (x2 : Vec F S1x1024 .f32) (xs : Vec F S1024x1024 .f32) :
    outLast c i arg3 harg3 arg4 harg4 arg5 harg5 arg6 harg6 arg7 harg7 hc0 hc1 x0 x1 x2 xs = k1_pay3 (k1_pay2 x0 x1 xs) x2 := by
  unfold outLast
  rw [View.read_writes_eq_canon _ _ _ (outLast_cover c i arg3 harg3 arg4 harg4 arg5 harg5 arg6 harg6 arg7 harg7 hc0 hc1 x0 x1 x2 xs)]
  unfold runLast
  dsimp only
  sl_unfold_words
  rw [View.canon_unit_zero hz]
  simp only [View.readAt_eq_ld, harg3.read_unread, harg4.read_unread, harg5.read_unread, harg7.read_unread, View.ld_unit_zero (S := S1024x1024) hz, View.ld_unit_zero (S := S1x1024) hz, View.readCov_unit_zero (S := S1024x1024) _ hz]

/-- k = 0: the accumulator ends at the zero block plus the product of the blocks. -/
theorem accFirst_eq (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : atFirstK i) (hc1 : ¬atLastK i)
    (x0 : Vec F S1024x1024 .bf16) (x1 : Vec F S1024x1024 .f32) (x2 : Vec F S1x1024 .f32) :
    accFirst c i arg3 harg3 arg4 harg4 arg5 harg5 arg6 harg6 arg7 harg7 hc0 hc1 x0 x1 x2 = k1_pay2 x0 x1 (k1_pay1 (F := F)) := by
  unfold accFirst
  rw [View.read_writes_eq_canon _ _ _ (accFirst_cover c i arg3 harg3 arg4 harg4 arg5 harg5 arg6 harg6 arg7 harg7 hc0 hc1 x0 x1 x2)]
  unfold runFirst
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

end Cert.KernelIdeal.Layer1

end
-- ==== Proof.BlockSum.lean ====
import proofs.«165055_j20504173871714_1_alg».proof.Proof.LibTiles
import Mathlib.Algebra.BigOperators.Fin
import Mathlib.Algebra.BigOperators.Intervals
import Mathlib.Data.EReal.Basic

/-!
# A sum over n blocks of 1024 indices, block by block

The contracted axis of a layer has n · 1024 indices, visited in n blocks of 1024. With the terms given as a function
g of the natural index, the sum over all indices is the sum over the blocks of the sums inside a block; the sum over the
first kb + 1 blocks is the running total the kernel's scratch block holds after its visit of block kb: it starts at
0 + (block 0) and gains one block's sum at each later visit.
-/

namespace Cert.Mlp

variable {M : Type*} [AddCommMonoid M]

/-- The sum of the terms of block j. -/
def blockSum (g : ℕ → M) (j : ℕ) : M := ∑ r : Fin 1024, g (j * 1024 + r.val)

/-- The running total after the visit of block kb: the sum over the blocks 0, …, kb. -/
def upTo (g : ℕ → M) (kb : ℕ) : M := ∑ j ∈ Finset.range (kb + 1), blockSum g j

/-- After the first visit the scratch block holds zero plus the first block's sum. -/
theorem upTo_zero (g : ℕ → M) : upTo g 0 = 0 + blockSum g 0 := by
  simp [upTo]

/-- Each later visit adds its block's sum. -/
theorem upTo_succ (g : ℕ → M) (kb : ℕ) : upTo g (kb + 1) = upTo g kb + blockSum g (kb + 1) := by
  unfold upTo
  rw [Finset.sum_range_succ]

/-- The same, at a block that is not the first. -/
theorem upTo_pos (g : ℕ → M) {kb : ℕ} (h : kb ≠ 0) : upTo g kb = upTo g (kb - 1) + blockSum g kb := by
  obtain ⟨k, rfl⟩ := Nat.exists_eq_succ_of_ne_zero h
  exact upTo_succ g k

/-- After the last visit the running total is the sum over the whole axis. -/
theorem upTo_last (n : ℕ) (g : ℕ → M) (hn : 0 < n) : upTo g (n - 1) = ∑ k : Fin (n * 1024), g k.val := by
  unfold upTo blockSum
  rw [Nat.sub_add_cancel hn, Cert.LibTiles.tile_sum n 1024 (fun k => g k.val), ← Fin.sum_univ_eq_sum_range (fun j => ∑ r : Fin 1024, g (j * 1024 + r.val)) n]

end Cert.Mlp
-- ==== Proof.Layer1.Acc.lean ====
/-
# The second dense layer's region on the extended reals: the accumulator is a running sum of blocks

Entry (p, q) of the accumulator after the point (i, j, k) is the sum, over the first k + 1 blocks of 1024 columns, of
hidden[i·1024 + p, ·] · weights[j·1024 + q, ·]: the body adds one block's sum at each point and starts from zero at
k = 0. A block of a window is read off its array at index × 1024 + the coordinate inside the block.
-/
import proofs.«165055_j20504173871714_1_alg».proof.Proof.Layer1.Pieces
import proofs.«165055_j20504173871714_1_alg».proof.Proof.Payloads
import proofs.«165055_j20504173871714_1_alg».proof.Proof.BlockSum
import proofs.«165055_j20504173871714_1_alg».proof.Proof.Spec

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.LibDense Cert.Mlp Cert.KernelIdeal.Payloads

-- the TensorCore's buffer contents when the region is entered
variable (V : (c : Dev nD) → (b : Ref sig .tc) → Buf (Elt Ideal) ((c : Thread nD τ).loc b))

/-! ## The arrays and the blocks, by their literal types -/

/-- The hidden array (the first layer's result), the weights, and the bias as a function of the output feature. -/
abbrev hidden (c : Dev nD) : Mat 4096 8192 := V c main_v1
abbrev weights (c : Dev nD) : Mat 2048 8192 := V c main_arg3
abbrev biasRow (c : Dev nD) : Fin 2048 → EReal := fun q => V c main_v2 (ix2 (0 : Fin 1) q)
/-- The three input blocks at a point. -/
abbrev aBlk (c : Dev nD) (t : Fin cfg1.N) : Vec Ideal S1024x1024 .bf16 := blk V c 0 t
abbrev wBlk (c : Dev nD) (t : Fin cfg1.N) : Vec Ideal S1024x1024 .f32 := blk V c 1 t
abbrev bBlk (c : Dev nD) (t : Fin cfg1.N) : Vec Ideal S1x1024 .f32 := blk V c 2 t

/-- The windows' block indices at point number t = 16·i + 8·j + k: (i, k) for the hidden array, (j, k) for the
    weights, (0, j) for the bias, (i, j) for the result. -/
theorem idx_facts : ∀ t : Fin cfg1.N,
    win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 2) = 0 ∧ win1_2.index t (1 : Fin 2) = t.val / 8 % 2
    ∧ win1_3.index t (0 : Fin 2) = t.val / 16 ∧ win1_3.index t (1 : Fin 2) = t.val / 8 % 2 :=
  (by decide +kernel : ∀ t : Fin grid1.N, _)

/-- Entry y of the hidden array's block at point t is the array's entry (i·1024 + y₀, k·1024 + y₁). -/
theorem aBlk_apply (c : Dev nD) (t : Fin cfg1.N) (y : S1024x1024.Idx) (Y : S4096x8192.Idx)
    (h0 : (Y 0).val = t.val / 16 * 1024 + (y 0).val) (h1 : (Y 1).val = t.val % 8 * 1024 + (y 1).val) :
    aBlk V c t y = hidden V c Y := by
  obtain ⟨e0, e1, -⟩ := idx_facts t
  show blk V c 0 t y = V c main_v1 Y
  unfold blk
  rw [View.read_apply]
  show V c main_v1 _ = V c main_v1 Y
  congr 1
  funext a
  apply Fin.ext
  match a with
  | ⟨0, _⟩ => show win1_0.index t (0 : Fin 2) * 1024 + 1 * (y 0).val = (Y 0).val; omega
  | ⟨1, _⟩ => show win1_0.index t (1 : Fin 2) * 1024 + 1 * (y 1).val = (Y 1).val; omega

/-- Entry y of the weights' block at point t is the array's entry (j·1024 + y₀, k·1024 + y₁). -/
theorem wBlk_apply (c : Dev nD) (t : Fin cfg1.N) (y : S1024x1024.Idx) (Y : S2048x8192.Idx)
    (h0 : (Y 0).val = t.val / 8 % 2 * 1024 + (y 0).val) (h1 : (Y 1).val = t.val % 8 * 1024 + (y 1).val) :
    wBlk V c t y = weights V c Y := by
  obtain ⟨-, -, e2, e3, -⟩ := idx_facts t
  show blk V c 1 t y = V c main_arg3 Y
  unfold blk
  rw [View.read_apply]
  show V c main_arg3 _ = V c main_arg3 Y
  congr 1
  funext a
  apply Fin.ext
  match a with
  | ⟨0, _⟩ => show win1_1.index t (0 : Fin 2) * 1024 + 1 * (y 0).val = (Y 0).val; omega
  | ⟨1, _⟩ => show win1_1.index t (1 : Fin 2) * 1024 + 1 * (y 1).val = (Y 1).val; omega

/-- Entry y of the bias block at point t is the bias row's entry (0, j·1024 + y₁). -/
theorem bBlk_apply (c : Dev nD) (t : Fin cfg1.N) (y : S1x1024.Idx) (Y : S1x2048.Idx)
    (h1 : (Y 1).val = t.val / 8 % 2 * 1024 + (y 1).val) :
    bBlk V c t y = V c main_v2 Y := by
  obtain ⟨-, -, -, -, e4, e5, -⟩ := idx_facts t
  show blk V c 2 t y = V c main_v2 Y
  unfold blk
  rw [View.read_apply]
  show V c main_v2 _ = V c main_v2 Y
  congr 1
  funext a
  apply Fin.ext
  have hy0 : (y 0).val < 1 := (y 0).isLt
  have hY0 : (Y 0).val < 1 := (Y 0).isLt
  match a with
  | ⟨0, _⟩ => show win1_2.index t (0 : Fin 2) * 1 + 1 * (y 0).val = (Y 0).val; omega
  | ⟨1, _⟩ => show win1_2.index t (1 : Fin 2) * 1024 + 1 * (y 1).val = (Y 1).val; omega

/-! ## The terms of one entry, and one block's sum -/

/-- The terms of entry (R, Q) of hidden · weightsᵀ, by the natural index along the contracted axis. -/
def term (c : Dev nD) (R : Fin 4096) (Q : Fin 2048) : ℕ → EReal :=
  fun k => if h : k < 8192 then hidden V c (ix2 R ⟨k, h⟩) * weights V c (ix2 Q ⟨k, h⟩) else 0

/-- The product of the point's blocks at (p, q) is the sum of block k of the terms of entry (i·1024 + p, j·1024 + q). -/
theorem blockTerm (c : Dev nD) (t : Fin cfg1.N) (p q : Fin 1024) (R : Fin 4096) (Q : Fin 2048)
    (hR : R.val = t.val / 16 * 1024 + p.val) (hQ : Q.val = t.val / 8 % 2 * 1024 + q.val) :
    (∑ r : Fin 1024, aBlk V c t (ix2 p r) * wBlk V c t (ix2 q r)) = blockSum (term V c R Q) (t.val % 8) := by
  unfold blockSum
  refine Finset.sum_congr rfl fun r _ => ?_
  have hk : t.val % 8 * 1024 + r.val < 8192 := by have := r.isLt; omega
  unfold term
  rw [dif_pos hk]
  exact congrArg₂ (fun a b : EReal => a * b)
    (aBlk_apply V c t (ix2 p r) (ix2 R ⟨t.val % 8 * 1024 + r.val, hk⟩) hR rfl)
    (wBlk_apply V c t (ix2 q r) (ix2 Q ⟨t.val % 8 * 1024 + r.val, hk⟩) hQ rfl)

/-! ## The accumulator after each point -/

/-- At k = 0 the accumulator's entry is zero plus the first block's sum. -/
theorem acc_first (c : Dev nD) (t : Fin cfg1.N) (h0 : t.val % 8 = 0) (p q : Fin 1024) (R : Fin 4096) (Q : Fin 2048)
    (hR : R.val = t.val / 16 * 1024 + p.val) (hQ : Q.val = t.val / 8 % 2 * 1024 + q.val) :
    accAt V c t.val t.isLt (ix2 p q) = upTo (term V c R Q) (t.val % 8) := by
  rw [accAt_first V c t h0]
  unfold accFirstAt
  refine (congrFun (accFirst_eq (F := Ideal) c (grid1.coords t) (aRef t) (aRef_whole t) (wRef t) (wRef_whole t) (bRef t) (bRef_whole t) (oRef t) (oRef_whole t) accRef (Memref.isWhole_whole _) ((atFirstK_iff t).mpr h0) (notLast_of_first t h0) (blk V c 0 t) (blk V c 1 t) (blk V c 2 t)) (ix2 p q)).trans ?_
  refine (pay2_apply_1 (aBlk V c t) (wBlk V c t) (k1_pay1 (F := Ideal)) p q).trans ?_
  rw [pay1_apply_1, blockTerm V c t p q R Q hR hQ, h0]
  exact (upTo_zero _).symm

/-- At 0 < k < 7 the accumulator's entry gains block k's sum. -/
theorem acc_mid (c : Dev nD) (t : Fin cfg1.N) (h0 : ¬t.val % 8 = 0) (h1 : ¬t.val % 8 = 7) (p q : Fin 1024) (R : Fin 4096) (Q : Fin 2048)
    (hR : R.val = t.val / 16 * 1024 + p.val) (hQ : Q.val = t.val / 8 % 2 * 1024 + q.val)
    (ih : accAt V c (t.val - 1) (Nat.lt_of_le_of_lt (Nat.sub_le _ _) t.isLt) (ix2 p q) = upTo (term V c R Q) ((t.val - 1) % 8)) :
    accAt V c t.val t.isLt (ix2 p q) = upTo (term V c R Q) (t.val % 8) := by
  rw [accAt_mid V c t h0 h1]
  unfold accMidAt
  refine (congrFun (accMid_eq (F := Ideal) c (grid1.coords t) (aRef t) (aRef_whole t) (wRef t) (wRef_whole t) (bRef t) (bRef_whole t) (oRef t) (oRef_whole t) accRef (Memref.isWhole_whole _) (notFirst_of t h0) (notLast_of t h1) (blk V c 0 t) (blk V c 1 t) (blk V c 2 t) (accAt V c (t.val - 1) (Nat.lt_of_le_of_lt (Nat.sub_le _ _) t.isLt))) (ix2 p q)).trans ?_
  refine (pay2_apply_1 (aBlk V c t) (wBlk V c t) (accAt V c (t.val - 1) (Nat.lt_of_le_of_lt (Nat.sub_le _ _) t.isLt)) p q).trans ?_
  rw [ih, blockTerm V c t p q R Q hR hQ, upTo_pos (term V c R Q) h0, show (t.val - 1) % 8 = t.val % 8 - 1 from by omega]

/-- At k = 7 likewise. -/
theorem acc_last (c : Dev nD) (t : Fin cfg1.N) (h1 : t.val % 8 = 7) (p q : Fin 1024) (R : Fin 4096) (Q : Fin 2048)
    (hR : R.val = t.val / 16 * 1024 + p.val) (hQ : Q.val = t.val / 8 % 2 * 1024 + q.val)
    (ih : accAt V c (t.val - 1) (Nat.lt_of_le_of_lt (Nat.sub_le _ _) t.isLt) (ix2 p q) = upTo (term V c R Q) ((t.val - 1) % 8)) :
    accAt V c t.val t.isLt (ix2 p q) = upTo (term V c R Q) (t.val % 8) := by
  have h0 : ¬t.val % 8 = 0 := by omega
  rw [accAt_last V c t h1]
  unfold accLastAt
  refine (congrFun (accLast_eq (F := Ideal) c (grid1.coords t) (aRef t) (aRef_whole t) (wRef t) (wRef_whole t) (bRef t) (bRef_whole t) (oRef t) (oRef_whole t) accRef (Memref.isWhole_whole _) (notFirst_of_last t h1) ((atLastK_iff t).mpr h1) (blk V c 0 t) (blk V c 1 t) (blk V c 2 t) (accAt V c (t.val - 1) (Nat.lt_of_le_of_lt (Nat.sub_le _ _) t.isLt))) (ix2 p q)).trans ?_
  refine (pay2_apply_1 (aBlk V c t) (wBlk V c t) (accAt V c (t.val - 1) (Nat.lt_of_le_of_lt (Nat.sub_le _ _) t.isLt)) p q).trans ?_
  rw [ih, blockTerm V c t p q R Q hR hQ, upTo_pos (term V c R Q) h0, show (t.val - 1) % 8 = t.val % 8 - 1 from by omega]

/-- THE INVARIANT: after point number n = 16·i + 8·j + k, entry (p, q) of the accumulator is the sum of blocks
    0, …, k of the terms of entry (i·1024 + p, j·1024 + q) — by induction on the point. -/
theorem acc_inv (c : Dev nD) : ∀ (n : ℕ) (hn : n < cfg1.N) (p q : Fin 1024) (R : Fin 4096) (Q : Fin 2048),
    R.val = n / 16 * 1024 + p.val → Q.val = n / 8 % 2 * 1024 + q.val →
    accAt V c n hn (ix2 p q) = upTo (term V c R Q) (n % 8) := by
  intro n
  induction n with
  | zero => intro hn p q R Q hR hQ; exact acc_first V c ⟨0, hn⟩ rfl p q R Q hR hQ
  | succ n ih =>
    intro hn p q R Q hR hQ
    by_cases h0 : (n + 1) % 8 = 0
    · exact acc_first V c ⟨n + 1, hn⟩ h0 p q R Q hR hQ
    · have ihn := ih (Nat.lt_of_succ_lt hn) p q R Q (by omega) (by omega)
      by_cases h1 : (n + 1) % 8 = 7
      · exact acc_last V c ⟨n + 1, hn⟩ h1 p q R Q hR hQ ihn
      · exact acc_mid V c ⟨n + 1, hn⟩ h0 h1 p q R Q hR hQ ihn

end Cert.KernelIdeal.Layer1

end
-- ==== Proof.Layer1.Value.lean ====
/-
# The second dense layer's region on the extended reals: the result array is the layer

At a point with k = 7 the accumulator's entry is the whole sum over the 8192 columns, and the block written back is
relu(sum + bias): the (i, j) block of the layer of the hidden array, the weights and the bias. The 4 × 2 such blocks
tile the result array.
-/
import proofs.«165055_j20504173871714_1_alg».proof.Proof.Layer1.Acc

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.LibDense Cert.Mlp Cert.KernelIdeal.Payloads

-- the TensorCore's buffer contents when the region is entered
variable (V : (c : Dev nD) → (b : Ref sig .tc) → Buf (Elt Ideal) ((c : Thread nD τ).loc b))

/-- The running sum after all eight blocks is the sum over the whole contracted axis. -/
theorem upTo_all (c : Dev nD) (R : Fin 4096) (Q : Fin 2048) :
    upTo (term V c R Q) 7 = ∑ k : Fin 8192, hidden V c (ix2 R k) * weights V c (ix2 Q k) :=
  (upTo_last 8 (term V c R Q) (by decide)).trans (Finset.sum_congr rfl fun k _ => dif_pos k.isLt)

/-- What a point with k = 7 leaves in the result's buffer: at entry y, the layer's entry (i·1024 + y₀, j·1024 + y₁). -/
theorem out_last (c : Dev nD) (t : Fin cfg1.N) (h1 : t.val % 8 = 7) (y : S1024x1024.Idx) (R : Fin 4096) (Q : Fin 2048)
    (hR : R.val = t.val / 16 * 1024 + (y 0).val) (hQ : Q.val = t.val / 8 % 2 * 1024 + (y 1).val) :
    outAt V c t y = layer (hidden V c) (weights V c) (biasRow V c) (ix2 R Q) := by
  -- the accumulator the block is computed from is the one the point leaves
  have hacc : k1_pay2 (F := Ideal) (aBlk V c t) (wBlk V c t) (accAt V c (t.val - 1) (Nat.lt_of_le_of_lt (Nat.sub_le _ _) t.isLt)) = accAt V c t.val t.isLt := by
    rw [accAt_last V c t h1]
    unfold accLastAt
    exact (accLast_eq (F := Ideal) c (grid1.coords t) (aRef t) (aRef_whole t) (wRef t) (wRef_whole t) (bRef t) (bRef_whole t) (oRef t) (oRef_whole t) accRef (Memref.isWhole_whole _) (notFirst_of_last t h1) ((atLastK_iff t).mpr h1) (blk V c 0 t) (blk V c 1 t) (blk V c 2 t) (accAt V c (t.val - 1) (Nat.lt_of_le_of_lt (Nat.sub_le _ _) t.isLt))).symm
  rw [eq_ix2 y, layer_apply, outAt_last V c t h1]
  unfold outLastAt
  refine (congrFun (outLast_eq (F := Ideal) c (grid1.coords t) (aRef t) (aRef_whole t) (wRef t) (wRef_whole t) (bRef t) (bRef_whole t) (oRef t) (oRef_whole t) accRef (Memref.isWhole_whole _) (notFirst_of_last t h1) ((atLastK_iff t).mpr h1) (blk V c 0 t) (blk V c 1 t) (blk V c 2 t) (accAt V c (t.val - 1) (Nat.lt_of_le_of_lt (Nat.sub_le _ _) t.isLt))) (ix2 (y 0) (y 1))).trans ?_
  refine (pay3_apply_1 (k1_pay2 (F := Ideal) (aBlk V c t) (wBlk V c t) (accAt V c (t.val - 1) (Nat.lt_of_le_of_lt (Nat.sub_le _ _) t.isLt))) (bBlk V c t) (y 0) (y 1)).trans ?_
  rw [hacc, acc_inv V c t.val t.isLt (y 0) (y 1) R Q hR hQ, h1, upTo_all V c R Q,
    bBlk_apply V c t (ix2 (0 : Fin 1) (y 1)) (ix2 (0 : Fin 1) Q) hQ]

/-- The layer's result, as contents of the result array. -/
abbrev result (c : Dev nD) : Buf (Elt Ideal) ((c : Thread nD τ).loc main_v3) :=
  Cert.Mlp.layer (V c main_v1) (V c main_arg3) (fun q : Fin 2048 => V c main_v2 (ix2 (0 : Fin 1) q))

/-- WHAT A POINT WRITES BACK is its block of the layer's result. -/
theorem flushed_eq (c : Dev nD) (t : Fin cfg1.N) (hf : (cfg1.win 3).flush t = true) :
    (dat V c).flushed 3 t = ((cfg1.win 3).blk t).view.read (Elt Ideal) (result V c) := by
  have h1 : t.val % 8 = 7 := (flush1_3 t).mp hf
  have hN : t.val < 64 := lt_of_lt_of_eq t.isLt (show cfg1.N = 64 from N_1)
  obtain ⟨-, -, -, -, -, -, e6, e7⟩ := idx_facts t
  show (cfg1.win 3).cut (grid1.coords t) ((dat V c).after 3 t) = _
  rw [after3]
  funext y
  have hy0 : (y 0).val < 1024 := (y 0).isLt
  have hy1 : (y 1).val < 1024 := (y 1).isLt
  show outAt V c t y = result V c (((cfg1.win 3).blk t).view.emb y)
  have he : ((cfg1.win 3).blk t).view.emb y
      = ix2 (⟨t.val / 16 * 1024 + (y 0).val, by omega⟩ : Fin 4096) (⟨t.val / 8 % 2 * 1024 + (y 1).val, by omega⟩ : Fin 2048) := by
    funext a
    apply Fin.ext
    match a with
    | ⟨0, _⟩ => show win1_3.index t (0 : Fin 2) * 1024 + 1 * (y 0).val = t.val / 16 * 1024 + (y 0).val; omega
    | ⟨1, _⟩ => show win1_3.index t (1 : Fin 2) * 1024 + 1 * (y 1).val = t.val / 8 % 2 * 1024 + (y 1).val; omega
  rw [he]
  exact out_last V c t h1 y _ _ rfl rfl

/-- An index of the result array is in point t's block iff each coordinate is in the block's range on its axis. -/
theorem mem_blk3 (t : Fin cfg1.N) (i : S4096x2048.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v3).slice (win1_3.rect t)).set ↔ _
  rw [View.set_slice_whole, Rect.mem_set_unit]
  exact Iff.rfl

/-- Every entry (r, s) of the result array is in the block written back at the point (r / 1024, s / 1024, 7). -/
theorem covered (i : S4096x2048.Idx) :
    ∃ t : Fin cfg1.N, (cfg1.win 3).flush t = true ∧ i ∈ ((cfg1.win 3).blk t).view.set := by
  have hi0 : (i 0).val < 4096 := (i 0).isLt
  have hi1 : (i 1).val < 2048 := (i 1).isLt
  have hN : cfg1.N = 64 := N_1
  let t : Fin cfg1.N := ⟨(i 0).val / 1024 * 16 + (i 1).val / 1024 * 8 + 7, by omega⟩
  have ht : t.val = (i 0).val / 1024 * 16 + (i 1).val / 1024 * 8 + 7 := rfl
  obtain ⟨-, -, -, -, -, -, e6, e7⟩ := idx_facts t
  refine ⟨t, (flush1_3 t).mpr (by omega), ?_⟩
  rw [mem_blk3]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- THE RESULT ARRAY after the region: the layer of the hidden array, the weights and the bias, as the region finds them. -/
theorem final (V : (c : Dev nD) → (b : Ref sig .tc) → Buf (Elt Ideal) ((c : Thread nD τ).loc b)) (c : Dev nD) :
    (dat (F := Ideal) V c).arrAt 3 cfg1.N = Cert.Mlp.layer (V c main_v1) (V c main_arg3) (fun q : Fin 2048 => V c main_v2 (ix2 (0 : Fin 1) q)) :=
  (dat (F := Ideal) V c).arrAt_eq_of_cover 3 (result V c) (flushed_eq V c) covered

end Cert.KernelIdeal.Layer1

end
-- ==== Proof.NetValue.lean ====
import proofs.«165055_j20504173871714_1_alg».proof.Proof.Net
import proofs.«165055_j20504173871714_1_alg».proof.Proof.Layer0.Value
import proofs.«165055_j20504173871714_1_alg».proof.Proof.Layer1.Value
import proofs.«165055_j20504173871714_1_alg».proof.Proof.Spec
import Idealize.ShloMosaic.Lib.StableHlo.Run
import Idealize.ShloMosaic.Lib.Pipeline.Value
import Idealize.ShloMosaic.Lib.ValueLayout

/-!
# What the result array holds at the end, on the extended reals

The second layer's region leaves in the result array `layer h W2 b2`, where `h` is what its first window's array held
when it was entered: the hidden array, which the first layer's region left at `layer x W1 b1`. The bias rows the regions
read are b1 and b2 laid out as 1 × n arrays, whose entry (0, q) is the vector's entry q; the other arrays the regions
read are arguments, which nothing has written. So the result array ends at `net x W1 b1 W2 b2` of the launch contents.
-/

noncomputable section

namespace Cert.KernelIdeal.NetValue

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-! ## The bias rows -/

/-- A vector of n entries laid out as a 1 × n array: entry (0, q) is the vector's entry q (the row-major position of
    (0, q) in a 1 × n array is q). -/
theorem row_of_vec {n : Nat} (hc : (⟨1, ![n]⟩ : Shape).ShapeCasts ⟨2, ![1, n]⟩) (b : (⟨1, ![n]⟩ : Shape).Idx → EReal) (q : Fin n) :
    shapeCast (⟨2, ![1, n]⟩ : Shape) b hc (ix2 (0 : Fin 1) q) = b (ix1 q) := by
  refine shapeCast_apply b hc (ix2 (0 : Fin 1) q) (ix1 q) ?_
  rw [Shape.rowMajor_val_one, Shape.rowMajor_val_two]
  show q.val = 0 * n + q.val
  omega

/-- When the first layer's region is entered, `main_v0` holds b1 laid out as a row. -/
theorem bias0 (c : Dev nD) (q : Fin 8192) :
    Net.inL0 m c main_v0 (ix2 (0 : Fin 1) q) = m ((c : Thread nD τ).loc main_arg2) (ix1 q) := by
  have e : (Net.inL0 m c main_v0 : S1x8192.Idx → EReal)
      = shapeCast S1x8192 (m ((c : Thread nD τ).loc main_arg2) : S8192.Idx → EReal) shapeCasts_S8192_S1x8192 := by
    show StableHlo.after hostOps0 (fun b => m (c, b)) (Proc.devRef .tc main_v0) = _
    after_results
    rfl
  rw [e]
  exact row_of_vec shapeCasts_S8192_S1x8192 _ q

/-- When the second layer's region is entered, `main_v2` holds b2 laid out as a row. -/
theorem bias1 (c : Dev nD) (q : Fin 2048) :
    Net.inL1 m c main_v2 (ix2 (0 : Fin 1) q) = m ((c : Thread nD τ).loc main_arg4) (ix1 q) := by
  have e : (Net.inL1 m c main_v2 : S1x2048.Idx → EReal)
      = shapeCast S1x2048 (Net.afterL0 m c (Proc.devRef .tc main_arg4) : S2048.Idx → EReal) shapeCasts_S2048_S1x2048 := by
    show StableHlo.after hostOps1 (Net.afterL0 m c) (Proc.devRef .tc main_v2) = _
    after_results
    rfl
  rw [e, row_of_vec shapeCasts_S2048_S1x2048 _ q]
  exact congrFun (((Net.afterL0_of_ne m c main_arg4 (by decide)).trans (Net.atL0_of_ne m c main_arg4 (by decide)))) (ix1 q)

/-! ## The arrays the regions read -/

theorem in0_x (c : Dev nD) : Net.inL0 m c main_arg0 = m ((c : Thread nD τ).loc main_arg0) := Net.atL0_of_ne m c main_arg0 (by decide)
theorem in0_w (c : Dev nD) : Net.inL0 m c main_arg1 = m ((c : Thread nD τ).loc main_arg1) := Net.atL0_of_ne m c main_arg1 (by decide)
theorem in1_w (c : Dev nD) : Net.inL1 m c main_arg3 = m ((c : Thread nD τ).loc main_arg3) :=
  (Net.atL1_of_ne m c main_arg3 (by decide)).trans ((Net.afterL0_of_ne m c main_arg3 (by decide)).trans (Net.atL0_of_ne m c main_arg3 (by decide)))

/-- The hidden array, as the second layer's region finds it: the first layer of the launch contents. -/
theorem hidden (c : Dev nD) :
    Net.inL1 m c main_v1 = Cert.Mlp.layer (m ((c : Thread nD τ).loc main_arg0)) (m ((c : Thread nD τ).loc main_arg1))
      (fun q : Fin 8192 => m ((c : Thread nD τ).loc main_arg2) (ix1 q)) := by
  have h0 : Net.inL1 m c main_v1 = (Layer0.dat (Net.inL0 m) c).arrAt 3 cfg0.N :=
    (Net.atL1_of_ne m c main_v1 (by decide)).trans (Net.afterL0_arr m c 3)
  rw [h0, Layer0.final (Net.inL0 m) c, in0_x, in0_w]
  congr 1
  funext q
  exact bias0 m c q

/-- THE RESULT: the result array's last contents are the network of the launch contents. -/
theorem result (c : Dev nD) :
    Net.afterL1 m c (Proc.devRef .tc main_v3) = Cert.Mlp.net (m ((c : Thread nD τ).loc main_arg0)) (m ((c : Thread nD τ).loc main_arg1))
      (fun q : Fin 8192 => m ((c : Thread nD τ).loc main_arg2) (ix1 q)) (m ((c : Thread nD τ).loc main_arg3))
      (fun q : Fin 2048 => m ((c : Thread nD τ).loc main_arg4) (ix1 q)) := by
  have h1 : Net.afterL1 m c (Proc.devRef .tc main_v3) = (Layer1.dat (Net.inL1 m) c).arrAt 3 cfg1.N := Net.afterL1_arr m c 3
  rw [h1, Layer1.final (Net.inL1 m) c, hidden, in1_w]
  unfold Cert.Mlp.net
  congr 1
  funext q
  exact bias1 m c q

/-- THE RUN, read: the result array ends at the network of the launch contents and every argument ends as launched. -/
theorem run_net (ρ : Dev nD → PrngReg) : θ_run (defs (F := Ideal)) (onTc (τ := τ) (main (F := Ideal))) ⟨m, fun _ => 0, ρ⟩ (fun r => ∀ c : Dev nD,
      r.2.mem ((c.tc : Thread nD τ).loc main_v3) = Cert.Mlp.net (m ((c.tc : Thread nD τ).loc main_arg0)) (m ((c.tc : Thread nD τ).loc main_arg1))
          (fun q : Fin 8192 => m ((c.tc : Thread nD τ).loc main_arg2) (ix1 q)) (m ((c.tc : Thread nD τ).loc main_arg3))
          (fun q : Fin 2048 => m ((c.tc : Thread nD τ).loc main_arg4) (ix1 q))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (Net.mem_uc main_v3 (by decide))).trans (result m c),
     (h c _ (Net.mem_uc main_arg0 (by decide))).trans (Net.end_arg0 m c),
     (h c _ (Net.mem_uc main_arg1 (by decide))).trans (Net.end_arg1 m c),
     (h c _ (Net.mem_uc main_arg2 (by decide))).trans (Net.end_arg2 m c),
     (h c _ (Net.mem_uc main_arg3 (by decide))).trans (Net.end_arg3 m c),
     (h c _ (Net.mem_uc main_arg4 (by decide))).trans (Net.end_arg4 m c)⟩) (Net.run_all m ρ)

end Cert.KernelIdeal.NetValue

end
-- ==== Proof.RefValue.lean ====
import proofs.«165055_j20504173871714_1_alg».proof.Proof.Gen.ReferenceIdeal.Run
import proofs.«165055_j20504173871714_1_alg».proof.Proof.Gen.ReferenceIdeal.Read
import proofs.«165055_j20504173871714_1_alg».proof.Proof.Spec

/-!
# The reference computes the two-layer network

The reference program contracts x with W1 over the last axis of both (x · W1ᵀ), adds the bias b1 along the columns,
clips at zero, and does the same again with W2 and b2. Read at an entry (p, q), every stage is a function of the
operands at one entry (or, for a contraction, of one row of each operand), so the hidden array is
max(∑ k, x[p, k] · W1[q, k] + b1[q], 0) and the result is max(∑ k, hidden[p, k] · W2[q, k] + b2[q], 0): the
network of two dense layers with the weights stored output-major.
-/

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read Cert.LibDense

/-! ## The operand indices of the two contractions and of the two biases, at an entry (p, q) -/

/-- The first contraction reads x along row p. -/
theorem lidx_v0 (p : Fin 4096) (q : Fin 8192) (k : Fin 2048) : lidx_main_v0 (ix2 p q) k = ix2 p k := by
  funext a; match a with | ⟨0, _⟩ => rfl | ⟨1, _⟩ => rfl

/-- The first contraction reads W1 along row q. -/
theorem ridx_v0 (p : Fin 4096) (q : Fin 8192) (k : Fin 2048) : ridx_main_v0 (ix2 p q) k = ix2 q k := by
  funext a; match a with | ⟨0, _⟩ => rfl | ⟨1, _⟩ => rfl

/-- The first bias, broadcast twice, is read at q. -/
theorem bidx_v2 (p : Fin 4096) (q : Fin 8192) : idx_main_v1 (idx_main_v2 (ix2 p q)) = ix1 q := by
  funext a; match a with | ⟨0, _⟩ => rfl

/-- The second contraction reads the hidden array along row p. -/
theorem lidx_v5 (p : Fin 4096) (q : Fin 2048) (k : Fin 8192) : lidx_main_v5 (ix2 p q) k = ix2 p k := by
  funext a; match a with | ⟨0, _⟩ => rfl | ⟨1, _⟩ => rfl

/-- The second contraction reads W2 along row q. -/
theorem ridx_v5 (p : Fin 4096) (q : Fin 2048) (k : Fin 8192) : ridx_main_v5 (ix2 p q) k = ix2 q k := by
  funext a; match a with | ⟨0, _⟩ => rfl | ⟨1, _⟩ => rfl

/-- The second bias, broadcast twice, is read at q. -/
theorem bidx_v7 (p : Fin 4096) (q : Fin 2048) : idx_main_v6 (idx_main_v7 (ix2 p q)) = ix1 q := by
  funext a; match a with | ⟨0, _⟩ => rfl

/-! ## The two layers -/

/-- The hidden array is the first layer: max(∑ k, x[p, k] · W1[q, k] + b1[q], 0) at (p, q). -/
theorem hidden_eq (x : (⟨S4096x2048, .f32⟩ : BufTy).Contents (Elt Ideal)) (W1 : (⟨S8192x2048, .f32⟩ : BufTy).Contents (Elt Ideal))
    (b1 : (⟨S8192, .f32⟩ : BufTy).Contents (Elt Ideal)) :
    val_main_v4 (F := Ideal) x W1 b1 = Cert.Mlp.layer x W1 (fun q : Fin 8192 => b1 (ix1 q)) := by
  funext i
  obtain ⟨p, q, rfl⟩ : ∃ (p : Fin 4096) (q : Fin 8192), i = ix2 p q := ⟨i 0, i 1, eq_ix2 i⟩
  rw [val_main_v4_apply, val_main_v3_apply, val_main_v0_apply, val_main_v2_apply, val_main_v1_apply,
    val_main_call0_v0_apply, val_main_call0_cst_apply, bidx_v2, Cert.Mlp.layer_apply]
  simp only [lidx_v0, ridx_v0]
  -- the clip against the zero constant is relu; the sum of floats is the sum of extended reals
  show max (_ + _) (Ideal.ofBits .f32 0x00000000#32) = relu _
  rw [Ideal.ofBits_zero_f32]
  rfl

/-- The result is the second layer of the hidden array. -/
theorem result_eq (x : (⟨S4096x2048, .f32⟩ : BufTy).Contents (Elt Ideal)) (W1 : (⟨S8192x2048, .f32⟩ : BufTy).Contents (Elt Ideal))
    (b1 : (⟨S8192, .f32⟩ : BufTy).Contents (Elt Ideal)) (W2 : (⟨S2048x8192, .f32⟩ : BufTy).Contents (Elt Ideal))
    (b2 : (⟨S2048, .f32⟩ : BufTy).Contents (Elt Ideal)) :
    val_main_v9 (F := Ideal) x W1 b1 W2 b2
      = Cert.Mlp.net x W1 (fun q : Fin 8192 => b1 (ix1 q)) W2 (fun q : Fin 2048 => b2 (ix1 q)) := by
  funext i
  obtain ⟨p, q, rfl⟩ : ∃ (p : Fin 4096) (q : Fin 2048), i = ix2 p q := ⟨i 0, i 1, eq_ix2 i⟩
  rw [val_main_v9_apply, val_main_v8_apply, val_main_v5_apply, val_main_v7_apply, val_main_v6_apply,
    val_main_call1_v0_apply, val_main_call1_cst_apply, bidx_v7, hidden_eq]
  unfold Cert.Mlp.net
  rw [Cert.Mlp.layer_apply]
  simp only [lidx_v5, ridx_v5]
  show max (_ + _) (Ideal.ofBits .f32 0x00000000#32) = relu _
  rw [Ideal.ofBits_zero_f32]
  rfl

/-! ## The run -/

/-- Every weakly fair execution of the reference terminates with its result at the network of the arguments'
    launch contents, the arguments unchanged. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v9)
          = Cert.Mlp.net (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (fun q : Fin 8192 => m ((c.tc : Thread Cert.ReferenceIdeal.nD Cert.ReferenceIdeal.τ).loc Cert.ReferenceIdeal.main_arg2) (ix1 q))
              (m ((c.tc : Thread Cert.ReferenceIdeal.nD Cert.ReferenceIdeal.τ).loc Cert.ReferenceIdeal.main_arg3))
              (fun q : Fin 2048 => m ((c.tc : Thread Cert.ReferenceIdeal.nD Cert.ReferenceIdeal.τ).loc Cert.ReferenceIdeal.main_arg4) (ix1 q))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run Cert.ReferenceIdeal.defs _ _).mono
    (fun _ h c => ⟨(h c).1.trans ((val_main_v9_eq _ _ _ _ _).trans (result_eq _ _ _ _ _)), (h c).2⟩)
    (Cert.ReferenceIdeal.Value.run (F := Ideal) m ρ)

/-- The same run, keeping only that the arguments end unchanged. -/
theorem ref_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run Cert.ReferenceIdeal.defs _ _).mono (fun _ h c => (h c).2) (ref_run m ρ)

end Cert.ReferenceIdeal.RefValue

end
-- ==== Proof.lean ====
/-
  Two dense layers with relu, each computed by a tiled kernel that accumulates the product over blocks of the
  contracted axis in a scratch block, against the same two layers written with jnp.einsum.

  On the extended reals both programs compute net x W1 b1 W2 b2 = layer (layer x W1 b1) W2 b2, where
  layer x W b has entry (p, q) equal to max(∑ k, x[p, k] · W[q, k] + b[q], 0):
  * the kernel's region for a layer visits, for each 1024 × 1024 block of the output, the blocks of the contracted
    axis in order; its scratch block starts at zero, gains the product of the two input blocks at each visit, and at the
    last visit the bias row is added, the maximum with zero taken, and the block written back. The sum over the blocks
    of the sums inside a block is the sum over the whole contracted axis, by associativity and commutativity of the
    addition of extended reals, so no finiteness of the inputs is used; a change of float format is the identity;
  * the reference's two contractions are the same sums entry by entry, its bias the same row, its relu the same maximum.
  The three frames: each program runs to the end, nothing faulting, and no argument array is written. The idealization
  rewrote nothing, so the preservation claim is trivial.
-/
import proofs.«165055_j20504173871714_1_alg».proof.Defs
import proofs.«165055_j20504173871714_1_alg».proof.Proof.Gen.Kernel
import proofs.«165055_j20504173871714_1_alg».proof.Proof.Gen.KernelIdeal
import proofs.«165055_j20504173871714_1_alg».proof.Proof.Gen.ReferenceIdeal
import proofs.«165055_j20504173871714_1_alg».proof.Proof.Gen.Pre_finite_inputs
import proofs.«165055_j20504173871714_1_alg».proof.Proof.Bits.Net
import proofs.«165055_j20504173871714_1_alg».proof.Proof.NetValue
import proofs.«165055_j20504173871714_1_alg».proof.Proof.RefValue

noncomputable section

namespace Cert.Proof

open Idealize.ShloMosaic Idealize.ShloMosaic.ValueIdx Idealize.SL.Sem

/-- The word-level kernel program runs and writes no argument. -/
theorem frame_kernel : Cert.frame_Kernel := fun m ρ _ => Cert.Kernel.Net.frame (F := Bits) m ρ

/-- The idealized kernel program runs and writes no argument. -/
theorem frame_kernelIdeal : Cert.frame_KernelIdeal := fun m ρ _ => Cert.KernelIdeal.Net.frame (F := Ideal) m ρ

/-- The idealized reference runs and writes no argument. -/
theorem frame_reference : Cert.frame_ReferenceIdeal := fun m ρ _ => Cert.ReferenceIdeal.RefValue.ref_frame m ρ

/-- Both idealized programs end with the network of the arguments in their result arrays. -/
theorem algebraic : Cert.algebraic_KernelIdeal_ReferenceIdeal := by
  intro m ρ m' ρ' _ hagree
  refine ⟨_, Cert.KernelIdeal.NetValue.run_net m ρ, ?_⟩
  refine (θ_run Cert.ReferenceIdeal.defs _ _).mono (fun r h c => ⟨(h c).1.trans ?_, (h c).2⟩)
    (Cert.ReferenceIdeal.RefValue.ref_run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
